-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S8 : Shape := ⟨1, ![8]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S1000x12x64 : Shape := ⟨3, ![1000, 12, 64]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1000x12x64 : S_.BroadcastsInDim S1000x12x64 (![] : Fin 0 → Fin S1000x12x64.rank)
  reducesTo_S1000x12x64_S_d0_1_2 : S1000x12x64.ReducesTo [0, 1, 2] S_
  bcast_S_S8 : S_.BroadcastsInDim S8 (![] : Fin 0 → Fin S8.rank)
  reducesTo_S8_S_d0 : S8.ReducesTo [0] S_

variable [Facts]

def fn_part2 {F : FTy → Type} [FloatOps F] (main_v28 : IVec S_ 1) (main_v33 : IVec S8 1) : IVec S_ 1 :=
  let main_c_12 : IVec S_ 1 := constantI S_ 1 1#1
  let main_v34 : IVec S_ 1 := (fun x v => Host.reduce IntOp.andi x v reducesTo_S8_S_d0 h_S_) main_v33 main_c_12
  let main_v35 : IVec S_ 1 := andi main_v28 main_v34
  main_v35

def fn_part1 {F : FTy → Type} [FloatOps F] (main_arg1 : IVec S8 32) (main_arg5 : FVec F S768 .f32) (main_arg6 : FVec F S1000x12x64 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S1000x12x64 .f32 := Host.absf main_arg6
  let main_cst_8 : FVec F S_ .f32 := constant S_ .f32 0x7F800000#32
  let main_v25 : FVec F S1000x12x64 .f32 := broadcastInDim S1000x12x64 ![] bcast_S_S1000x12x64 main_cst_8
  let main_v26 : IVec S1000x12x64 1 := cmpf .olt main_v24 main_v25
  let main_c_9 : IVec S_ 1 := constantI S_ 1 1#1
  let main_v27 : IVec S_ 1 := (fun x v => Host.reduce IntOp.andi x v reducesTo_S1000x12x64_S_d0_1_2 h_S_) main_v26 main_c_9
  let main_v28 : IVec S_ 1 := andi main_v23 main_v27
  let main_c_10 : IVec S_ 32 := constantI S_ 32 0#32
  let main_v29 : IVec S8 32 := broadcastInDim S8 ![] bcast_S_S8 main_c_10
  let main_v30 : IVec S8 1 := cmpi .sge main_arg1 main_v29
  let main_c_11 : IVec S_ 32 := constantI S_ 32 1000#32
  let main_v31 : IVec S8 32 := broadcastInDim S8 ![] bcast_S_S8 main_c_11
  let main_v32 : IVec S8 1 := cmpi .slt main_arg1 main_v31
  let main_v33 : IVec S8 1 := andi main_v30 main_v32
  fn_part2 (F := F) main_v28 main_v33

def fn {F : FTy → Type} [FloatOps F] (main_arg0 : FVec F S8x1024x768 .f32) (main_arg1 : IVec S8 32) (main_arg2 : FVec F S2304x768 .f32) (main_arg3 : FVec F S2304 .f32) (main_arg4 : FVec F S768x768 .f32) (main_arg5 : FVec F S768 .f32) (main_arg6 : FVec F S1000x12x64 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg2
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg3
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg1 main_arg5 main_arg6 main_v13 main_v16
-- ==== Kernel.lean ====
abbrev S8x1024x768 : Shape := ⟨3, ![8, 1024, 768]⟩
abbrev S8 : Shape := ⟨1, ![8]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S1000x12x64 : Shape := ⟨3, ![1000, 12, 64]⟩
abbrev S768x2304 : Shape := ⟨2, ![768, 2304]⟩
abbrev S1x2304 : Shape := ⟨2, ![1, 2304]⟩
abbrev S1x768 : Shape := ⟨2, ![1, 768]⟩
abbrev S1x1024x768 : Shape := ⟨3, ![1, 1024, 768]⟩
abbrev S1x12x64 : Shape := ⟨3, ![1, 12, 64]⟩
abbrev S1 : Shape := ⟨1, ![1]⟩
abbrev S12x1024x64 : Shape := ⟨3, ![12, 1024, 64]⟩
abbrev S1024x768 : Shape := ⟨2, ![1024, 768]⟩
abbrev S1024x64 : Shape := ⟨2, ![1024, 64]⟩
abbrev S1x1024x64 : Shape := ⟨3, ![1, 1024, 64]⟩
abbrev S1024x1024 : Shape := ⟨2, ![1024, 1024]⟩
abbrev S1024 : Shape := ⟨1, ![1024]⟩
abbrev S1024x1 : Shape := ⟨2, ![1024, 1]⟩
abbrev S1x1x64 : Shape := ⟨3, ![1, 1, 64]⟩
abbrev S64 : Shape := ⟨1, ![64]⟩
abbrev S1x64 : Shape := ⟨2, ![1, 64]⟩
abbrev S1024x128 : Shape := ⟨2, ![1024, 128]⟩

abbrev nBuf : Space → Nat
  | .hbm => 13
  | .vmem => 14
  | .smem => 1
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S1000x12x64, .f32⟩
  | .hbm, ⟨6, _⟩ => ⟨S768x2304, .f32⟩
  | .hbm, ⟨7, _⟩ => ⟨S768x2304, .bf16⟩
  | .hbm, ⟨8, _⟩ => ⟨S768x768, .f32⟩
  | .hbm, ⟨9, _⟩ => ⟨S768x768, .bf16⟩
  | .hbm, ⟨10, _⟩ => ⟨S1x2304, .f32⟩
  | .hbm, ⟨11, _⟩ => ⟨S1x768, .f32⟩
  | .hbm, ⟨12, _⟩ => ⟨S8x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S768x2304, .bf16⟩
  | .local _ .vmem, ⟨3, _⟩ => ⟨S1x2304, .f32⟩
  | .local _ .vmem, ⟨4, _⟩ => ⟨S768x768, .bf16⟩
  | .local _ .vmem, ⟨5, _⟩ => ⟨S1x768, .f32⟩
  | .local _ .vmem, ⟨6, _⟩ => ⟨S1x12x64, .f32⟩
  | .local _ .vmem, ⟨7, _⟩ => ⟨S1x12x64, .f32⟩
  | .local _ .vmem, ⟨8, _⟩ => ⟨S1x1024x768, .f32⟩
  | .local _ .vmem, ⟨9, _⟩ => ⟨S1x1024x768, .f32⟩
  | .local _ .vmem, ⟨10, _⟩ => ⟨S12x1024x64, .bf16⟩
  | .local _ .vmem, ⟨11, _⟩ => ⟨S12x1024x64, .bf16⟩
  | .local _ .vmem, ⟨12, _⟩ => ⟨S12x1024x64, .bf16⟩
  | .local _ .vmem, ⟨13, _⟩ => ⟨S1024x768, .f32⟩
  | .local _ .smem, ⟨0, _⟩ => ⟨S8, .i32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c6_i32 : BitVec 32 := 6#32
  let v176 : BitVec 32 := Scalar.addi c0_i32 c6_i32
  let c1_i32 : BitVec 32 := 1#32
  ⟨c0_i32, v176, c1_i32⟩
def k0_off2 (k0_t1 : Fin k0_t1_loop.trips) : Fin 3 → Nat :=
  let c2_i32 : BitVec 32 := 2#32
  let c0_i32 : BitVec 32 := 0#32
  let c1_i32 : BitVec 32 := 1#32
  let arg13 : BitVec 32 := Scf.iv c0_i32 c1_i32 k0_t1
  let v190 : BitVec 32 := Scalar.muli c2_i32 arg13
  let v193 : Index := Scalar.indexCast v190
  let c0_125 : Index := 0#32
  let c0_126 : Index := 0#32
  ![v193.toNat, 0, 0]
def k0_off3 (k0_t1 : Fin k0_t1_loop.trips) : Fin 3 → Nat :=
  let c0_135 : Index := 0#32
  let c2_i32 : BitVec 32 := 2#32
  let c0_i32 : BitVec 32 := 0#32
  let c1_i32 : BitVec 32 := 1#32
  let arg13 : BitVec 32 := Scf.iv c0_i32 c1_i32 k0_t1
  let v190 : BitVec 32 := Scalar.muli c2_i32 arg13
  let v214 : Index := Scalar.indexCast v190
  let c0_136 : Index := 0#32
  ![0, v214.toNat, 0]
def k0_off4 (k0_t1 : Fin k0_t1_loop.trips) : Fin 3 → Nat :=
  let c2_i32_123 : BitVec 32 := 2#32
  let c0_i32 : BitVec 32 := 0#32
  let c1_i32 : BitVec 32 := 1#32
  let arg13 : BitVec 32 := Scf.iv c0_i32 c1_i32 k0_t1
  let v191 : BitVec 32 := Scalar.muli c2_i32_123 arg13
  let c1_i32_124 : BitVec 32 := 1#32
  let v192 : BitVec 32 := Scalar.addi v191 c1_i32_124
  let v220 : Index := Scalar.indexCast v192
  let c0_137 : Index := 0#32
  let c0_138 : Index := 0#32
  ![v220.toNat, 0, 0]
def k0_off5 (k0_t1 : Fin k0_t1_loop.trips) : Fin 3 → Nat :=
  let c0_147 : Index := 0#32
  let c2_i32_123 : BitVec 32 := 2#32
  let c0_i32 : BitVec 32 := 0#32
  let c1_i32 : BitVec 32 := 1#32
  let arg13 : BitVec 32 := Scf.iv c0_i32 c1_i32 k0_t1
  let v191 : BitVec 32 := Scalar.muli c2_i32_123 arg13
  let c1_i32_124 : BitVec 32 := 1#32
  let v192 : BitVec 32 := Scalar.addi v191 c1_i32_124
  let v241 : Index := Scalar.indexCast v192
  let c0_148 : Index := 0#32
  ![0, v241.toNat, 0]
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v248 : BitVec 32 := Scalar.muli arg13 c128_i32
  v248
def k0_off6 (k0_t1 : Fin k0_t1_loop.trips) : Fin 2 → Nat :=
  let c0_149 : Index := 0#32
  let c0_i32 : BitVec 32 := 0#32
  let c1_i32 : BitVec 32 := 1#32
  let arg13 : BitVec 32 := Scf.iv c0_i32 c1_i32 k0_t1
  let c128_i32 : BitVec 32 := 128#32
  let v248 : BitVec 32 := Scalar.muli arg13 c128_i32
  let v249 : BitVec 32 := v248
  let v250 : Index := Scalar.indexCast v249
  ![0, v250.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x12x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S2304x768_S768x2304_1_0 : S2304x768.Transposes [1, 0] S768x2304
  bitsLt_bf16_f32 : FTy.bits .bf16 < FTy.bits .f32
  transposes_S768x768_S768x768_1_0 : S768x768.Transposes [1, 0] S768x768
  shapeCasts_S2304_S1x2304 : S2304.ShapeCasts S1x2304
  shapeCasts_S768_S1x768 : S768.ShapeCasts S1x768
  numel1_S1 : S1.numel = 1
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x2304_S768x768_0_0 : ∀ a, (![0, 0] : Fin 2 → Nat) a + S768x768.size a ≤ S768x2304.size a
  h_S768x768 : 0 < S768x768.numel
  shapeCasts_S768x768_S768x768 : S768x768.ShapeCasts S768x768
  inb_S1x2304_S1x768_0_0 : ∀ a, (![0, 0] : Fin 2 → Nat) a + S1x768.size a ≤ S1x2304.size a
  h_S1x768 : 0 < S1x768.numel
  shapeCasts_S1x768_S768 : S1x768.ShapeCasts S768
  broadcasts_S1x768_S1024x768 : S1x768.Broadcasts S1024x768
  slices_S1024x768_o0_0_S1024x64 : S1024x768.Slices ![0, 0] S1024x64
  inb_S12x1024x64_S1x1024x64_0_0_0 : ∀ a, (![0, 0, 0] : Fin 3 → Nat) a + S1x1024x64.size a ≤ S12x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S12x1024x64_S1x1024x64_0_0_0 : (Rect.unit (s := S12x1024x64) ![0, 0, 0] S1x1024x64.size inb_S12x1024x64_S1x1024x64_0_0_0).PackedRows (EltTy.packing .bf16)
  slices_S1024x768_o0_64_S1024x64 : S1024x768.Slices ![0, 64] S1024x64
  inb_S12x1024x64_S1x1024x64_1_0_0 : ∀ a, (![1, 0, 0] : Fin 3 → Nat) a + S1x1024x64.size a ≤ S12x1024x64.size a
  packedbf16_S12x1024x64_S1x1024x64_1_0_0 : (Rect.unit (s := S12x1024x64) ![1, 0, 0] S1x1024x64.size inb_S12x1024x64_S1x1024x64_1_0_0).PackedRows (EltTy.packing .bf16)
  slices_S1024x768_o0_128_S1024x64 : S1024x768.Slices ![0, 128] S1024x64
  inb_S12x1024x64_S1x1024x64_2_0_0 : ∀ a, (![2, 0, 0] : Fin 3 → Nat) a + S1x1024x64.size a ≤ S12x1024x64.size a
  packedbf16_S12x1024x64_S1x1024x64_2_0_0 : (Rect.unit (s := S12x1024x64) ![2, 0, 0] S1x1024x64.size inb_S12x1024x64_S1x1024x64_2_0_0).PackedRows (EltTy.packing .bf16)
  slices_S1024x768_o0_192_S1024x64 : S1024x768.Slices ![0, 192] S1024x64
  inb_S12x1024x64_S1x1024x64_3_0_0 : ∀ a, (![3, 0, 0] : Fin 3 → Nat) a + S1x1024x64.size a ≤ S12x1024x64.size a
  packedbf16_S12x1024x64_S1x1024x64_3_0_0 : (Rect.unit (s := S12x1024x64) ![3, 0, 0] S1x1024x64.size inb_S12x1024x64_S1x1024x64_3_0_0).PackedRows (EltTy.packing .bf16)
  slices_S1024x768_o0_256_S1024x64 : S1024x768.Slices ![0, 256] S1024x64
  inb_S12x1024x64_S1x1024x64_4_0_0 : ∀ a, (![4, 0, 0] : Fin 3 → Nat) a + S1x1024x64.size a ≤ S12x1024x64.size a
  packedbf16_S12x1024x64_S1x1024x64_4_0_0 : (Rect.unit (s := S12x1024x64) ![4, 0, 0] S1x1024x64.size inb_S12x1024x64_S1x1024x64_4_0_0).PackedRows (EltTy.packing .bf16)
  slices_S1024x768_o0_320_S1024x64 : S1024x768.Slices ![0, 320] S1024x64
  inb_S12x1024x64_S1x1024x64_5_0_0 : ∀ a, (![5, 0, 0] : Fin 3 → Nat) a + S1x1024x64.size a ≤ S12x1024x64.size a
  packedbf16_S12x1024x64_S1x1024x64_5_0_0 : (Rect.unit (s := S12x1024x64) ![5, 0, 0] S1x1024x64.size inb_S12x1024x64_S1x1024x64_5_0_0).PackedRows (EltTy.packing .bf16)
  slices_S1024x768_o0_384_S1024x64 : S1024x768.Slices ![0, 384] S1024x64
  inb_S12x1024x64_S1x1024x64_6_0_0 : ∀ a, (![6, 0, 0] : Fin 3 → Nat) a + S1x1024x64.size a ≤ S12x1024x64.size a
  packedbf16_S12x1024x64_S1x1024x64_6_0_0 : (Rect.unit (s := S12x1024x64) ![6, 0, 0] S1x1024x64.size inb_S12x1024x64_S1x1024x64_6_0_0).PackedRows (EltTy.packing .bf16)
  slices_S1024x768_o0_448_S1024x64 : S1024x768.Slices ![0, 448] S1024x64
  inb_S12x1024x64_S1x1024x64_7_0_0 : ∀ a, (![7, 0, 0] : Fin 3 → Nat) a + S1x1024x64.size a ≤ S12x1024x64.size a
  packedbf16_S12x1024x64_S1x1024x64_7_0_0 : (Rect.unit (s := S12x1024x64) ![7, 0, 0] S1x1024x64.size inb_S12x1024x64_S1x1024x64_7_0_0).PackedRows (EltTy.packing .bf16)
  slices_S1024x768_o0_512_S1024x64 : S1024x768.Slices ![0, 512] S1024x64
  inb_S12x1024x64_S1x1024x64_8_0_0 : ∀ a, (![8, 0, 0] : Fin 3 → Nat) a + S1x1024x64.size a ≤ S12x1024x64.size a
  packedbf16_S12x1024x64_S1x1024x64_8_0_0 : (Rect.unit (s := S12x1024x64) ![8, 0, 0] S1x1024x64.size inb_S12x1024x64_S1x1024x64_8_0_0).PackedRows (EltTy.packing .bf16)
  slices_S1024x768_o0_576_S1024x64 : S1024x768.Slices ![0, 576] S1024x64
  inb_S12x1024x64_S1x1024x64_9_0_0 : ∀ a, (![9, 0, 0] : Fin 3 → Nat) a + S1x1024x64.size a ≤ S12x1024x64.size a
  packedbf16_S12x1024x64_S1x1024x64_9_0_0 : (Rect.unit (s := S12x1024x64) ![9, 0, 0] S1x1024x64.size inb_S12x1024x64_S1x1024x64_9_0_0).PackedRows (EltTy.packing .bf16)
  slices_S1024x768_o0_640_S1024x64 : S1024x768.Slices ![0, 640] S1024x64
  inb_S12x1024x64_S1x1024x64_10_0_0 : ∀ a, (![10, 0, 0] : Fin 3 → Nat) a + S1x1024x64.size a ≤ S12x1024x64.size a
  packedbf16_S12x1024x64_S1x1024x64_10_0_0 : (Rect.unit (s := S12x1024x64) ![10, 0, 0] S1x1024x64.size inb_S12x1024x64_S1x1024x64_10_0_0).PackedRows (EltTy.packing .bf16)
  slices_S1024x768_o0_704_S1024x64 : S1024x768.Slices ![0, 704] S1024x64
  inb_S12x1024x64_S1x1024x64_11_0_0 : ∀ a, (![11, 0, 0] : Fin 3 → Nat) a + S1x1024x64.size a ≤ S12x1024x64.size a
  packedbf16_S12x1024x64_S1x1024x64_11_0_0 : (Rect.unit (s := S12x1024x64) ![11, 0, 0] S1x1024x64.size inb_S12x1024x64_S1x1024x64_11_0_0).PackedRows (EltTy.packing .bf16)
  inb_S768x2304_S768x768_0_768 : ∀ a, (![0, 768] : Fin 2 → Nat) a + S768x768.size a ≤ S768x2304.size a
  inb_S1x2304_S1x768_0_768 : ∀ a, (![0, 768] : Fin 2 → Nat) a + S1x768.size a ≤ S1x2304.size a
  inb_S768x2304_S768x768_0_1536 : ∀ a, (![0, 1536] : Fin 2 → Nat) a + S768x768.size a ≤ S768x2304.size a
  inb_S1x2304_S1x768_0_1536 : ∀ a, (![0, 1536] : Fin 2 → Nat) a + S1x768.size a ≤ S1x2304.size a
  reduces_S1024x1024_S1024 : S1024x1024.Reduces [1] S1024
  shapeCasts_S1024_S1024x1 : S1024.ShapeCasts S1024x1
  broadcasts_S1024x1_S1024x1024 : S1024x1.Broadcasts S1024x1024
  h_S1x1x64 : 0 < S1x1x64.numel
  shapeCasts_S1x1x64_S64 : S1x1x64.ShapeCasts S64
  shapeCasts_S64_S1x64 : S64.ShapeCasts S1x64
  broadcasts_S1x64_S1024x64 : S1x64.Broadcasts S1024x64
  concatenates_S1024x64_S1024x64_S1024x128_d1 : Shape.Concatenates [S1024x64, S1024x64] S1024x128 1
  h_S1024x128 : 0 < S1024x128.numel
  shapeCasts_S1024x128_S1024x128 : S1024x128.ShapeCasts S1024x128
  inb_S1024x768_S1024x768_0_0 : ∀ a, (![0, 0] : Fin 2 → Nat) a + S1024x768.size a ≤ S1024x768.size a
  h_S1024x768 : 0 < S1024x768.numel
  inb_S768x768_S768x768_0_0 : ∀ a, (![0, 0] : Fin 2 → Nat) a + S768x768.size a ≤ S768x768.size a
  inb_S1x768_S1x768_0_0 : ∀ a, (![0, 0] : Fin 2 → Nat) a + S1x768.size a ≤ S1x768.size a
  shapeCasts_S1024x768_S1x1024x768 : S1024x768.ShapeCasts S1x1024x768
  dot_S1024x768_S768x768_S1024x768_1_0_0_1_n_n_wf : DotDims.WF S1024x768 S768x768 S1024x768 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  k0_off1_inb : ∀ i : grid0.Coords, ∀ a, (k0_off1 i) a + S1.size a ≤ S8.size a
  k0_t1_ok : k0_t1_loop.OK
  k0_off2_inb : ∀ k0_t1 : Fin k0_t1_loop.trips, ∀ a, (k0_off2 k0_t1) a + S1x1024x64.size a ≤ S12x1024x64.size a
  k0_off3_inb : ∀ k0_t1 : Fin k0_t1_loop.trips, ∀ a, (k0_off3 k0_t1) a + S1x1x64.size a ≤ S1x12x64.size a
  k0_off4_inb : ∀ k0_t1 : Fin k0_t1_loop.trips, ∀ a, (k0_off4 k0_t1) a + S1x1024x64.size a ≤ S12x1024x64.size a
  k0_off5_inb : ∀ k0_t1 : Fin k0_t1_loop.trips, ∀ a, (k0_off5 k0_t1) a + S1x1x64.size a ≤ S1x12x64.size a
  k0_mult1_dvd : ∀ k0_t1 : Fin k0_t1_loop.trips, 128 ∣ (k0_mult1 k0_t1).toNat
  k0_off6_inb : ∀ k0_t1 : Fin k0_t1_loop.trips, ∀ a, (k0_off6 k0_t1) a + S1024x128.size a ≤ S1024x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .f32 = 32 ∨ (Rect.block (s := S8x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x768.size a ≤ S8x1024x768.size a
  hwx0_6 : ∀ i : grid0.Coords, EltTy.bits .f32 = 32 ∨ (Rect.block (s := S8x1024x768) S1x1024x768.size (cc0_transform_6 i) (hinb0_6 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev spec0_0 : Pipeline.WinSpec sig grid0.rank :=
  Pipeline.WinSpec.ofSpec (Memref.whole main_arg0) S1x1024x768.size reads0_0 false false 2 stage0_0 sem0_0 nbuf0_0 hstage0_0

abbrev spec0_1 : Pipeline.WinSpec sig grid0.rank :=
  Pipeline.WinSpec.ofSpec (Memref.whole main_v1) S768x2304.size reads0_1 false true 1 stage0_1 sem0_1 nbuf0_1 hstage0_1

abbrev spec0_2 : Pipeline.WinSpec sig grid0.rank :=
  Pipeline.WinSpec.ofSpec (Memref.whole main_v4) S1x2304.size reads0_2 false true 1 stage0_2 sem0_2 nbuf0_2 hstage0_2

abbrev spec0_3 : Pipeline.WinSpec sig grid0.rank :=
  Pipeline.WinSpec.ofSpec (Memref.whole main_v3) S768x768.size reads0_3 false true 1 stage0_3 sem0_3 nbuf0_3 hstage0_3

abbrev spec0_4 : Pipeline.WinSpec sig grid0.rank :=
  Pipeline.WinSpec.ofSpec (Memref.whole main_v5) S1x768.size reads0_4 false true 1 stage0_4 sem0_4 nbuf0_4 hstage0_4

abbrev spec0_5 : Pipeline.WinSpec sig grid0.rank :=
  Pipeline.WinSpec.ofSpec (Memref.whole main_arg6) S1x12x64.size reads0_5 false false 2 stage0_5 sem0_5 nbuf0_5 hstage0_5

abbrev spec0_6 : Pipeline.WinSpec sig grid0.rank :=
  Pipeline.WinSpec.ofSpec (Memref.whole main_v6) S1x1024x768.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 k0_off1_inb numel1_S1 pf | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 pf | 6 => hreads0_6 | ⟨_ + 7, h⟩ => absurd h (Nat.not_lt.2 (Nat.le_add_left _ _))
def ok0 (pf : pre0.Contents (Elt F)) : Prop :=
  (∀ i : grid0.Coords, ∃ h : (∀ a, (cc0_transform_5 k0_off1_inb numel1_S1 pf i a + 1) * S1x12x64.size a ≤ S1000x12x64.size a), EltTy.bits .f32 = 32 ∨ (Rect.block (s := S1000x12x64) S1x12x64.size (cc0_transform_5 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => hinb0_3 | 4 => hinb0_4 | 5 => fun i a => (hok i).elim fun h _ => h a | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => hwx0_3 | 4 => hwx0_4 | 5 => fun i => (hok i).elim fun _ h => h | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S8x1024x768 : Shape := ⟨3, ![8, 1024, 768]⟩
abbrev S8 : Shape := ⟨1, ![8]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S1000x12x64 : Shape := ⟨3, ![1000, 12, 64]⟩
abbrev S8x1024x2304 : Shape := ⟨3, ![8, 1024, 2304]⟩
abbrev S1x1x2304 : Shape := ⟨3, ![1, 1, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S_ : Shape := ⟨0, ![]⟩
abbrev S8x12x1024x1024 : Shape := ⟨4, ![8, 12, 1024, 1024]⟩
abbrev S8x12x1024 : Shape := ⟨3, ![8, 12, 1024]⟩
abbrev S8x12x1024x1 : Shape := ⟨4, ![8, 12, 1024, 1]⟩
abbrev S8x1 : Shape := ⟨2, ![8, 1]⟩
abbrev S8x12x64 : Shape := ⟨3, ![8, 12, 64]⟩
abbrev S8x12x1x64 : Shape := ⟨4, ![8, 12, 1, 64]⟩
abbrev S8x1024x12x64 : Shape := ⟨4, ![8, 1024, 12, 64]⟩
abbrev S1x1x768 : Shape := ⟨3, ![1, 1, 768]⟩

abbrev nBuf : Space → Nat
  | .hbm => 56
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S8, .i32⟩
  | .hbm, ⟨2, _⟩ => ⟨S2304x768, .f32⟩
  | .hbm, ⟨3, _⟩ => ⟨S2304, .f32⟩
  | .hbm, ⟨4, _⟩ => ⟨S768x768, .f32⟩
  | .hbm, ⟨5, _⟩ => ⟨S768, .f32⟩
  | .hbm, ⟨6, _⟩ => ⟨S1000x12x64, .f32⟩
  | .hbm, ⟨7, _⟩ => ⟨S8x1024x2304, .f32⟩
  | .hbm, ⟨8, _⟩ => ⟨S1x1x2304, .f32⟩
  | .hbm, ⟨9, _⟩ => ⟨S8x1024x2304, .f32⟩
  | .hbm, ⟨10, _⟩ => ⟨S8x1024x2304, .f32⟩
  | .hbm, ⟨11, _⟩ => ⟨S8x1024x3x12x64, .f32⟩
  | .hbm, ⟨12, _⟩ => ⟨S3x8x12x1024x64, .f32⟩
  | .hbm, ⟨13, _⟩ => ⟨S1x8x12x1024x64, .f32⟩
  | .hbm, ⟨14, _⟩ => ⟨S8x12x1024x64, .f32⟩
  | .hbm, ⟨15, _⟩ => ⟨S1x8x12x1024x64, .f32⟩
  | .hbm, ⟨16, _⟩ => ⟨S8x12x1024x64, .f32⟩
  | .hbm, ⟨17, _⟩ => ⟨S1x8x12x1024x64, .f32⟩
  | .hbm, ⟨18, _⟩ => ⟨S8x12x1024x64, .f32⟩
  | .hbm, ⟨19, _⟩ => ⟨S_, .f32⟩
  | .hbm, ⟨20, _⟩ => ⟨S8x12x1024x64, .f32⟩
  | .hbm, ⟨21, _⟩ => ⟨S8x12x1024x64, .f32⟩
  | .hbm, ⟨22, _⟩ => ⟨S8x12x1024x1024, .f32⟩
  | .hbm, ⟨23, _⟩ => ⟨S_, .f32⟩
  | .hbm, ⟨24, _⟩ => ⟨S8x12x1024, .f32⟩
  | .hbm, ⟨25, _⟩ => ⟨S_, .f32⟩
  | .hbm, ⟨26, _⟩ => ⟨S8x12x1024, .f32⟩
  | .hbm, ⟨27, _⟩ => ⟨S8x12x1024, .f32⟩
  | .hbm, ⟨28, _⟩ => ⟨S8x12x1024x1, .f32⟩
  | .hbm, ⟨29, _⟩ => ⟨S8x12x1024x1024, .f32⟩
  | .hbm, ⟨30, _⟩ => ⟨S8x12x1024x1024, .f32⟩
  | .hbm, ⟨31, _⟩ => ⟨S8x12x1024x1024, .f32⟩
  | .hbm, ⟨32, _⟩ => ⟨S_, .f32⟩
  | .hbm, ⟨33, _⟩ => ⟨S8x12x1024, .f32⟩
  | .hbm, ⟨34, _⟩ => ⟨S8x12x1024x1, .f32⟩
  | .hbm, ⟨35, _⟩ => ⟨S8x12x1024x1024, .f32⟩
  | .hbm, ⟨36, _⟩ => ⟨S8x12x1024x1024, .f32⟩
  | .hbm, ⟨37, _⟩ => ⟨S8x12x1024x64, .f32⟩
  | .hbm, ⟨38, _⟩ => ⟨S_, .i32⟩
  | .hbm, ⟨39, _⟩ => ⟨S8, .i32⟩
  | .hbm, ⟨40, _⟩ => ⟨S8, .i1⟩
  | .hbm, ⟨41, _⟩ => ⟨S_, .i32⟩
  | .hbm, ⟨42, _⟩ => ⟨S8, .i32⟩
  | .hbm, ⟨43, _⟩ => ⟨S8, .i32⟩
  | .hbm, ⟨44, _⟩ => ⟨S8, .i32⟩
  | .hbm, ⟨45, _⟩ => ⟨S8x1, .i32⟩
  | .hbm, ⟨46, _⟩ => ⟨S8x12x64, .f32⟩
  | .hbm, ⟨47, _⟩ => ⟨S8x12x1x64, .f32⟩
  | .hbm, ⟨48, _⟩ => ⟨S8x12x1024x64, .f32⟩
  | .hbm, ⟨49, _⟩ => ⟨S8x12x1024x64, .f32⟩
  | .hbm, ⟨50, _⟩ => ⟨S8x1024x12x64, .f32⟩
  | .hbm, ⟨51, _⟩ => ⟨S8x1024x768, .f32⟩
  | .hbm, ⟨52, _⟩ => ⟨S8x1024x768, .f32⟩
  | .hbm, ⟨53, _⟩ => ⟨S1x1x768, .f32⟩
  | .hbm, ⟨54, _⟩ => ⟨S8x1024x768, .f32⟩
  | .hbm, ⟨55, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S8x1024x2304_0_1_2 : S1x1x2304.BroadcastsInDim S8x1024x2304 (![0, 1, 2] : Fin 3 → Fin S8x1024x2304.rank)
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  bcast_S_S8x12x1024x64 : S_.BroadcastsInDim S8x12x1024x64 (![] : Fin 0 → Fin S8x12x1024x64.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  bcast_S_S8 : S_.BroadcastsInDim S8 (![] : Fin 0 → Fin S8.rank)
  bcast_S8_S8x1_0 : S8.BroadcastsInDim S8x1 (![0] : Fin 1 → Fin S8x1.rank)
  bcast_S8x12x64_S8x12x1x64_0_1_3 : S8x12x64.BroadcastsInDim S8x12x1x64 (![0, 1, 3] : Fin 3 → Fin S8x12x1x64.rank)
  bcast_S8x12x1x64_S8x12x1024x64_0_1_2_3 : S8x12x1x64.BroadcastsInDim S8x12x1024x64 (![0, 1, 2, 3] : Fin 4 → Fin S8x12x1024x64.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  gather_S1000x12x64_S8x1_S8x12x64_12_0_n_n_0_1_11264_wf : GatherDims.WF S1000x12x64 S8x1 S8x12x64 [1, 2] [0] [] [0] [] 1 ![1, 12, 64]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def gather_S1000x12x64_S8x1_S8x12x64_12_0_n_n_0_1_11264 : GatherDims S1000x12x64 S8x1 S8x12x64 where
  offsetDims := [1, 2]
  collapsedSliceDims := [0]
  operandBatchingDims := []
  startIndicesBatchingDims := []
  startIndexMap := [0]
  indexVectorDim := 1
  sliceSizes := ![1, 12, 64]
  wf := gather_S1000x12x64_S8x1_S8x12x64_12_0_n_n_0_1_11264_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.PreFacts.lean ====
/-
  What the precondition says of the label words. The printed precondition ends in a `jnp.all` over
  (0 ≤ y) ∧ (y < 1000), both compares signed, of the eight label words; read back, each word is below 1000
  as an unsigned number. The mask window's index map reads its block index on axis 0 from the prefetched
  label table at the grid coordinate, so that bound is exactly the pipeline's side condition on the table:
  (word + 1) · 1 ≤ 1000 on axis 0, and the other two axes take their single block. Stated once for any float
  instance, then for each of the two printed programs.
-/
import proofs.«426526_j16690242913074_2_alg».proof.Defs
import proofs.«426526_j16690242913074_2_alg».proof.Proof.Gen.Pre_finite_inputs
import proofs.«426526_j16690242913074_2_alg».proof.Proof.Gen.Kernel.Frame.Runs
import proofs.«426526_j16690242913074_2_alg».proof.Proof.Gen.KernelIdeal.Frame.Runs
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx

instance : Subsingleton Cert.Pre_finite_inputs.S_.Idx := ⟨fun a b => funext fun d => d.elim0⟩

/-- A 32-bit word that is at least 0 and below 1000 as a signed number is below 1000 as an unsigned one. -/
theorem toNat_lt_of_signed (w : BitVec 32) (h0 : IntOp.cmpi .sge w 0#32 = 1#1) (h1 : IntOp.cmpi .slt w 1000#32 = 1#1) :
    w.toNat < 1000 := by
  rw [IntOp.cmpi_sge, show (0#32 : BitVec 32).toInt = 0 from by decide] at h0
  rw [IntOp.cmpi_slt, show (1000#32 : BitVec 32).toInt = 1000 from by decide] at h1
  have hp : 2 * w.toNat < 2 ^ 32 := BitVec.toInt_pos_iff.mp h0
  rw [BitVec.toInt_eq_toNat_of_lt hp] at h1
  omega

theorem y_lt {F : FTy → Type} [FloatOps F] [Cert.Pre_finite_inputs.Facts]
    (a0 : FVec F Cert.Pre_finite_inputs.S8x1024x768 .f32) (a1 : IVec Cert.Pre_finite_inputs.S8 32)
    (a2 : FVec F Cert.Pre_finite_inputs.S2304x768 .f32) (a3 : FVec F Cert.Pre_finite_inputs.S2304 .f32)
    (a4 : FVec F Cert.Pre_finite_inputs.S768x768 .f32) (a5 : FVec F Cert.Pre_finite_inputs.S768 .f32)
    (a6 : FVec F Cert.Pre_finite_inputs.S1000x12x64 .f32)
    (h : Cert.Pre_finite_inputs.fn (F := F) a0 a1 a2 a3 a4 a5 a6 = fun _ => 1#1) :
    ∀ b : Fin 8, (a1 (ix1 b)).toNat < 1000 := by
  intro b
  have e := congrFun h ix0
  dsimp only [Cert.Pre_finite_inputs.fn, Cert.Pre_finite_inputs.fn_part1, Cert.Pre_finite_inputs.fn_part2] at e
  have e2 := (IntOp.andi_eq_one.1 e).2
  have e3 := Host.reduce_andi_all _ _ _ _ ix0 e2 (ix1 b)
  have e4 := IntOp.andi_eq_one.1 e3
  exact toNat_lt_of_signed _ e4.1 e4.2

end Cert.PreFacts

namespace Cert.KernelIdeal.OkOfPre

open Cert.KernelIdeal Cert.KernelIdeal.Gen
open Idealize.ShloMosaic Idealize.ShloMosaic.ValueIdx Idealize.ShloMosaic.TcCoe Idealize.SL.Sem

variable [Cert.Pre_finite_inputs.Facts]

/-- Under the precondition every label word, on every device, is below 1000 read unsigned. -/
theorem y_lt (m : (ℓ : Loc Cert.KernelIdeal.nD Cert.KernelIdeal.τ Cert.KernelIdeal.sig) → Buf (Elt Ideal) ℓ) (h : Cert.Pre_KernelIdeal m) (c : Dev Cert.KernelIdeal.nD) :
    ∀ b : Fin 8, (m ((c.tc : Thread Cert.KernelIdeal.nD Cert.KernelIdeal.τ).loc Cert.KernelIdeal.main_arg1) (ix1 b)).toNat < 1000 :=
  Cert.PreFacts.y_lt _ _ _ _ _ _ _ (h c)

/-- The prefetched table is the label array as launched: no host operation before the region writes it. -/
theorem tbl_word (m : (ℓ : Loc Cert.KernelIdeal.nD Cert.KernelIdeal.τ Cert.KernelIdeal.sig) → Buf (Elt Ideal) ℓ) (b : Fin 8) :
    Cert.KernelIdeal.Gen.tbl m 0 (ix1 b) = m (((0 : Dev Cert.KernelIdeal.nD).tc : Thread Cert.KernelIdeal.nD Cert.KernelIdeal.τ).loc Cert.KernelIdeal.main_arg1) (ix1 b) := by
  show V m 0 main_arg1 (ix1 b) = _
  rw [V_main_arg1]

/-- The word an index map loads from the table through the one-element rectangle at offset `v` is the table's word `v`. -/
theorem at_unit {F : FTy → Type} [FloatOps F] (pf : pre0.Contents (Elt F)) (off : Fin 1 → Nat) (v : Fin 8) (hoff : off 0 = v.val)
    (inb : ∀ a, off a + S1.size a ≤ S8.size a) (h1 : S1.numel = 1) :
    pf.at 0 (Rect.unit (s := S8) off S1.size inb) h1 = pf 0 (ix1 v) := by
  show pf 0 _ = pf 0 _
  congr 1
  funext a
  apply Fin.ext
  obtain ⟨a, ha⟩ := a
  have ha0 : a = 0 := by change a < 1 at ha; omega
  subst ha0
  show off 0 + 1 * 0 = v.val
  omega

/-- The mask window's block index at a grid point: on axis 0 the table's word at the point's coordinate, 0 on the other two. -/
theorem transform5_eq {F : FTy → Type} [FloatOps F] (pf : pre0.Contents (Elt F)) (i : grid0.Coords) :
    cc0_transform_5 k0_off1_inb numel1_S1 pf i = ![(pf 0 (ix1 ⟨(i 0).val, (i 0).isLt⟩)).toNat, 0, 0] := by
  have hv : (i 0).val < 8 := (i 0).isLt
  have hc : (Scalar.indexCast (BitVec.ofNat 32 (i 0).val)).toNat = (i 0).val := by
    show (BitVec.ofNat 32 (i 0).val).toNat = _
    rw [BitVec.toNat_ofNat]; omega
  have key := at_unit pf ![(Scalar.indexCast (BitVec.ofNat 32 (i 0).val)).toNat] ⟨(i 0).val, hv⟩ hc (k0_off1_inb i) numel1_S1
  exact congrArg (fun w : BitVec 32 => (![w.toNat, 0, 0] : Fin 3 → Nat)) key

/-- The pipeline's side condition on the table holds under the precondition: each word, below 1000, names a row block
    of the 1000-row mask array, and the other two axes take their one block. -/
theorem ok_of_pre (m : (ℓ : Loc Cert.KernelIdeal.nD Cert.KernelIdeal.τ Cert.KernelIdeal.sig) → Buf (Elt Ideal) ℓ) (h : Cert.Pre_KernelIdeal m) :
    Cert.KernelIdeal.Gen.Ok m := by
  show ok0 (tbl m)
  unfold ok0
  intro i
  have hw : (tbl m 0 (ix1 ⟨(i 0).val, (i 0).isLt⟩)).toNat < 1000 := by
    rw [tbl_word]; exact y_lt m h 0 _
  refine ⟨fun a => ?_, Or.inl rfl⟩
  rw [transform5_eq]
  match a with
  | ⟨0, _⟩ =>
    show ((tbl m 0 (ix1 ⟨(i 0).val, (i 0).isLt⟩)).toNat + 1) * 1 ≤ 1000
    omega
  | ⟨1, _⟩ => show (0 + 1) * 12 ≤ 12; omega
  | ⟨2, _⟩ => show (0 + 1) * 64 ≤ 64; omega

end Cert.KernelIdeal.OkOfPre

namespace Cert.Kernel.OkOfPre

open Cert.Kernel Cert.Kernel.Gen
open Idealize.ShloMosaic Idealize.ShloMosaic.ValueIdx Idealize.ShloMosaic.TcCoe Idealize.SL.Sem

variable [Cert.Pre_finite_inputs.Facts]

/-- Under the precondition every label word, on every device, is below 1000 read unsigned. -/
theorem y_lt (m : (ℓ : Loc Cert.Kernel.nD Cert.Kernel.τ Cert.Kernel.sig) → Buf (Elt Bits) ℓ) (h : Cert.Pre_Kernel m) (c : Dev Cert.Kernel.nD) :
    ∀ b : Fin 8, (m ((c.tc : Thread Cert.Kernel.nD Cert.Kernel.τ).loc Cert.Kernel.main_arg1) (ix1 b)).toNat < 1000 :=
  Cert.PreFacts.y_lt _ _ _ _ _ _ _ (h c)

/-- The prefetched table is the label array as launched: no host operation before the region writes it. -/
theorem tbl_word (m : (ℓ : Loc Cert.Kernel.nD Cert.Kernel.τ Cert.Kernel.sig) → Buf (Elt Bits) ℓ) (b : Fin 8) :
    Cert.Kernel.Gen.tbl m 0 (ix1 b) = m (((0 : Dev Cert.Kernel.nD).tc : Thread Cert.Kernel.nD Cert.Kernel.τ).loc Cert.Kernel.main_arg1) (ix1 b) := by
  show V m 0 main_arg1 (ix1 b) = _
  rw [V_main_arg1]

/-- The word an index map loads from the table through the one-element rectangle at offset `v` is the table's word `v`. -/
theorem at_unit {F : FTy → Type} [FloatOps F] (pf : pre0.Contents (Elt F)) (off : Fin 1 → Nat) (v : Fin 8) (hoff : off 0 = v.val)
    (inb : ∀ a, off a + S1.size a ≤ S8.size a) (h1 : S1.numel = 1) :
    pf.at 0 (Rect.unit (s := S8) off S1.size inb) h1 = pf 0 (ix1 v) := by
  show pf 0 _ = pf 0 _
  congr 1
  funext a
  apply Fin.ext
  obtain ⟨a, ha⟩ := a
  have ha0 : a = 0 := by change a < 1 at ha; omega
  subst ha0
  show off 0 + 1 * 0 = v.val
  omega

/-- The mask window's block index at a grid point: on axis 0 the table's word at the point's coordinate, 0 on the other two. -/
theorem transform5_eq {F : FTy → Type} [FloatOps F] (pf : pre0.Contents (Elt F)) (i : grid0.Coords) :
    cc0_transform_5 k0_off1_inb numel1_S1 pf i = ![(pf 0 (ix1 ⟨(i 0).val, (i 0).isLt⟩)).toNat, 0, 0] := by
  have hv : (i 0).val < 8 := (i 0).isLt
  have hc : (Scalar.indexCast (BitVec.ofNat 32 (i 0).val)).toNat = (i 0).val := by
    show (BitVec.ofNat 32 (i 0).val).toNat = _
    rw [BitVec.toNat_ofNat]; omega
  have key := at_unit pf ![(Scalar.indexCast (BitVec.ofNat 32 (i 0).val)).toNat] ⟨(i 0).val, hv⟩ hc (k0_off1_inb i) numel1_S1
  exact congrArg (fun w : BitVec 32 => (![w.toNat, 0, 0] : Fin 3 → Nat)) key

/-- The pipeline's side condition on the table holds under the precondition: each word, below 1000, names a row block
    of the 1000-row mask array, and the other two axes take their one block. -/
theorem ok_of_pre (m : (ℓ : Loc Cert.Kernel.nD Cert.Kernel.τ Cert.Kernel.sig) → Buf (Elt Bits) ℓ) (h : Cert.Pre_Kernel m) :
    Cert.Kernel.Gen.Ok m := by
  show ok0 (tbl m)
  unfold ok0
  intro i
  have hw : (tbl m 0 (ix1 ⟨(i 0).val, (i 0).isLt⟩)).toNat < 1000 := by
    rw [tbl_word]; exact y_lt m h 0 _
  refine ⟨fun a => ?_, Or.inl rfl⟩
  rw [transform5_eq]
  match a with
  | ⟨0, _⟩ =>
    show ((tbl m 0 (ix1 ⟨(i 0).val, (i 0).isLt⟩)).toNat + 1) * 1 ≤ 1000
    omega
  | ⟨1, _⟩ => show (0 + 1) * 12 ≤ 12; omega
  | ⟨2, _⟩ => show (0 + 1) * 64 ≤ 64; omega

end Cert.Kernel.OkOfPre

end
-- ==== Proof.Spec.lean ====
/-
  One batch row of masked multi-head self-attention over the extended reals, as ONE function of plain
  arrays (curried over `Fin`): the fused projection x·W + b of a [1024, 768] row block onto 2304 columns
  (query, key and value parts of 768 columns each, a head owning 64 consecutive columns of each part), the
  query scaled by 1/8, per head the scores q·kᵀ, their row-wise softmax written as
  exp(s − max s) / Σ exp(s − max s), the weighted sum of the values, a per-(head, feature) mask factor, the
  heads laid side by side again as 768 columns, and the output projection o·P + c.
  Both programs of the certificate are shown to compute this function at every index.
-/
import Idealize.ShloMosaic.PureOps.Ideal

noncomputable section

namespace Cert.AttnSpec

open Idealize.ShloMosaic

/-- Column `p·768 + h·64 + d` of the fused projection: part `p` (0 query, 1 key, 2 value), head `h`, feature `d`. -/
def col (p : Fin 3) (h : Fin 12) (d : Fin 64) : Fin 2304 := ⟨p.val * 768 + h.val * 64 + d.val, by omega⟩

/-- The head that owns column `c` of the 768 concatenated head outputs, and the feature inside it. -/
def headOf (c : Fin 768) : Fin 12 := ⟨c.val / 64, by omega⟩
def featOf (c : Fin 768) : Fin 64 := ⟨c.val % 64, by omega⟩

/-- The query scale 1/8, kept as the word both programs carry. -/
def scale : EReal := Ideal.ofBits .f32 0x3E000000#32

variable (xb : Fin 1024 → Fin 768 → EReal) (wq : Fin 768 → Fin 2304 → EReal) (bq : Fin 2304 → EReal)
  (wp : Fin 768 → Fin 768 → EReal) (bp : Fin 768 → EReal) (mk : Fin 12 → Fin 64 → EReal)

/-- Row `n` of the block projected onto fused column `o`, bias added. -/
def proj (n : Fin 1024) (o : Fin 2304) : EReal := (∑ c : Fin 768, xb n c * wq c o) + bq o

/-- Head `h`'s score of query row `n` against key row `m`. -/
def score (h : Fin 12) (n m : Fin 1024) : EReal :=
  ∑ d : Fin 64, (proj xb wq bq n (col 0 h d) * scale) * proj xb wq bq m (col 1 h d)

/-- The largest score of query row `n` in head `h`. -/
def rowMax (h : Fin 12) (n : Fin 1024) : EReal :=
  (Finset.univ : Finset (Fin 1024)).fold max ⊥ (fun m => score xb wq bq h n m)

/-- The unnormalised softmax weight. -/
def weight (h : Fin 12) (n m : Fin 1024) : EReal := Ideal.exp (score xb wq bq h n m - rowMax xb wq bq h n)

/-- The softmax normaliser of query row `n` in head `h`. -/
def denom (h : Fin 12) (n : Fin 1024) : EReal := ∑ m : Fin 1024, weight xb wq bq h n m

/-- Head `h`'s output at row `n`, feature `d`, times its mask factor. -/
def headOut (h : Fin 12) (n : Fin 1024) (d : Fin 64) : EReal :=
  (∑ m : Fin 1024, Ideal.div (weight xb wq bq h n m) (denom xb wq bq h n) * proj xb wq bq m (col 2 h d)) * mk h d

/-- The block's result: the concatenated head outputs projected by `wp`, bias added. -/
def attnBlock (n : Fin 1024) (j : Fin 768) : EReal :=
  (∑ c : Fin 768, headOut xb wq bq mk (headOf c) n (featOf c) * wp c j) + bp j

/-- The mask row a label word selects, for a label in range. -/
def yrow (y : Fin 8 → BitVec 32) (hy : ∀ b, (y b).toNat < 1000) (b : Fin 8) : Fin 1000 := ⟨(y b).toNat, hy b⟩

end Cert.AttnSpec

end
-- ==== Proof.RefValue.lean ====
/-
  The reference program computes, at every index (b, n, j) of its result, the attention block of the
  specification for batch row b: the fused projection x·W + b read at a column p·768 + h·64 + d is part p
  (query, key, value) of head h at feature d; the scores, their row maximum from −∞, the weights
  exp(s − max s), their sum from the zero word and the quotient are the specification's, sum by sum in the same
  order; a label below 1000 is a non-negative signed word inside the table, so the gathered mask row is the
  table's row for that label; and column c of the concatenated heads is feature c % 64 of head c / 64.
  Each stage is read at explicit coordinates, innermost first.
-/
import proofs.«426526_j16690242913074_2_alg».proof.Proof.Gen.ReferenceIdeal.Read
import proofs.«426526_j16690242913074_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.AttnSpec

section Stages

variable (x0 : (⟨S8x1024x768, .f32⟩ : BufTy).Contents (Elt Ideal)) (x1 : (⟨S8, .i32⟩ : BufTy).Contents (Elt Ideal))
  (x2 : (⟨S2304x768, .f32⟩ : BufTy).Contents (Elt Ideal)) (x3 : (⟨S2304, .f32⟩ : BufTy).Contents (Elt Ideal))
  (x4 : (⟨S768x768, .f32⟩ : BufTy).Contents (Elt Ideal)) (x5 : (⟨S768, .f32⟩ : BufTy).Contents (Elt Ideal))
  (x6 : (⟨S1000x12x64, .f32⟩ : BufTy).Contents (Elt Ideal))

/-- The fused projection at (b, n, o). -/
theorem fused_apply (b : Fin 8) (n : Fin 1024) (o : Fin 2304) :
    val_main_v3 (F := Ideal) x0 x2 x3 (ix3 b n o)
      = proj (fun n c => x0 (ix3 b n c)) (fun c o => x2 (ix2 o c)) (fun o => x3 (ix1 o)) n o := by
  rw [val_main_v3_apply, val_main_v0_apply, val_main_v2_apply, val_main_v1_apply]
  have el : ∀ k : Fin 768, lidx_main_v0 (ix3 b n o) k = ix3 b n k := fun k => funext fun a => by
    match a with | ⟨0, _⟩ => rfl | ⟨1, _⟩ => rfl | ⟨2, _⟩ => rfl
  have er : ∀ k : Fin 768, ridx_main_v0 (ix3 b n o) k = ix2 o k := fun k => funext fun a => by
    match a with | ⟨0, _⟩ => rfl | ⟨1, _⟩ => rfl
  have eb : idx_main_v1 (idx_main_v2 (ix3 b n o)) = ix1 o := funext fun a => by
    match a with | ⟨0, _⟩ => rfl
  simp only [el, er, eb, Ideal.addf_def]
  rfl

/-- Through the reshape to [8,1024,3,12,64] and the transpose to [3,8,12,1024,64]: part p of head h at row n,
    feature d, is fused column p·768 + h·64 + d of row n. -/
theorem part_apply (p : Fin 3) (b : Fin 8) (h : Fin 12) (n : Fin 1024) (d : Fin 64) :
    val_main_v5 (F := Ideal) x0 x2 x3 (ix5 p b h n d)
      = proj (fun n c => x0 (ix3 b n c)) (fun c o => x2 (ix2 o c)) (fun o => x3 (ix1 o)) n (col p h d) := by
  rw [val_main_v5_apply, val_main_v4_apply]
  have e : idx_main_v4 (idx_main_v5 (ix5 p b h n d)) = ix3 b n (col p h d) := by
    have hp := p.isLt; have hb := b.isLt; have hh := h.isLt; have hn := n.isLt; have hd := d.isLt
    funext a; apply Fin.ext
    match a with
    | ⟨0, _⟩ =>
      show ((((b.val * 1024 + n.val) * 3 + p.val) * 12 + h.val) * 64 + d.val) / 2359296 = b.val
      omega
    | ⟨1, _⟩ =>
      show ((((b.val * 1024 + n.val) * 3 + p.val) * 12 + h.val) * 64 + d.val) / 2304 % 1024 = n.val
      omega
    | ⟨2, _⟩ =>
      show ((((b.val * 1024 + n.val) * 3 + p.val) * 12 + h.val) * 64 + d.val) % 2304 = p.val * 768 + h.val * 64 + d.val
      omega
  rw [e, fused_apply]

/-- A [8,12,1024,64] index read through the unit-axis reshape and the slice at part p is (p, b, h, n, d). -/
theorem idx_slice0 (b : Fin 8) (h : Fin 12) (n : Fin 1024) (d : Fin 64) :
    idx_main_v6 (idx_main_v7 (ix4 b h n d)) = ix5 (0 : Fin 3) b h n d := by
  have hb := b.isLt; have hh := h.isLt; have hn := n.isLt; have hd := d.isLt
  funext a; apply Fin.ext
  match a with
  | ⟨0, _⟩ => rfl
  | ⟨1, _⟩ => show (((b.val * 12 + h.val) * 1024 + n.val) * 64 + d.val) / 786432 % 8 = b.val; omega
  | ⟨2, _⟩ => show (((b.val * 12 + h.val) * 1024 + n.val) * 64 + d.val) / 65536 % 12 = h.val; omega
  | ⟨3, _⟩ => show (((b.val * 12 + h.val) * 1024 + n.val) * 64 + d.val) / 64 % 1024 = n.val; omega
  | ⟨4, _⟩ => show (((b.val * 12 + h.val) * 1024 + n.val) * 64 + d.val) % 64 = d.val; omega

theorem idx_slice1 (b : Fin 8) (h : Fin 12) (n : Fin 1024) (d : Fin 64) :
    idx_main_v8 (idx_main_v9 (ix4 b h n d)) = ix5 (1 : Fin 3) b h n d := by
  have hb := b.isLt; have hh := h.isLt; have hn := n.isLt; have hd := d.isLt
  funext a; apply Fin.ext
  match a with
  | ⟨0, _⟩ => rfl
  | ⟨1, _⟩ => show (((b.val * 12 + h.val) * 1024 + n.val) * 64 + d.val) / 786432 % 8 = b.val; omega
  | ⟨2, _⟩ => show (((b.val * 12 + h.val) * 1024 + n.val) * 64 + d.val) / 65536 % 12 = h.val; omega
  | ⟨3, _⟩ => show (((b.val * 12 + h.val) * 1024 + n.val) * 64 + d.val) / 64 % 1024 = n.val; omega
  | ⟨4, _⟩ => show (((b.val * 12 + h.val) * 1024 + n.val) * 64 + d.val) % 64 = d.val; omega

theorem idx_slice2 (b : Fin 8) (h : Fin 12) (n : Fin 1024) (d : Fin 64) :
    idx_main_v10 (idx_main_v11 (ix4 b h n d)) = ix5 (2 : Fin 3) b h n d := by
  have hb := b.isLt; have hh := h.isLt; have hn := n.isLt; have hd := d.isLt
  funext a; apply Fin.ext
  match a with
  | ⟨0, _⟩ => rfl
  | ⟨1, _⟩ => show (((b.val * 12 + h.val) * 1024 + n.val) * 64 + d.val) / 786432 % 8 = b.val; omega
  | ⟨2, _⟩ => show (((b.val * 12 + h.val) * 1024 + n.val) * 64 + d.val) / 65536 % 12 = h.val; omega
  | ⟨3, _⟩ => show (((b.val * 12 + h.val) * 1024 + n.val) * 64 + d.val) / 64 % 1024 = n.val; omega
  | ⟨4, _⟩ => show (((b.val * 12 + h.val) * 1024 + n.val) * 64 + d.val) % 64 = d.val; omega

/-- The query part at (b, h, n, d), before scaling. -/
theorem q_apply (b : Fin 8) (h : Fin 12) (n : Fin 1024) (d : Fin 64) :
    val_main_v7 (F := Ideal) x0 x2 x3 (ix4 b h n d)
      = proj (fun n c => x0 (ix3 b n c)) (fun c o => x2 (ix2 o c)) (fun o => x3 (ix1 o)) n (col 0 h d) := by
  rw [val_main_v7_apply, val_main_v6_apply, idx_slice0, part_apply]

/-- The key part at (b, h, n, d). -/
theorem k_apply (b : Fin 8) (h : Fin 12) (n : Fin 1024) (d : Fin 64) :
    val_main_v9 (F := Ideal) x0 x2 x3 (ix4 b h n d)
      = proj (fun n c => x0 (ix3 b n c)) (fun c o => x2 (ix2 o c)) (fun o => x3 (ix1 o)) n (col 1 h d) := by
  rw [val_main_v9_apply, val_main_v8_apply, idx_slice1, part_apply]

/-- The value part at (b, h, n, d). -/
theorem v_apply (b : Fin 8) (h : Fin 12) (n : Fin 1024) (d : Fin 64) :
    val_main_v11 (F := Ideal) x0 x2 x3 (ix4 b h n d)
      = proj (fun n c => x0 (ix3 b n c)) (fun c o => x2 (ix2 o c)) (fun o => x3 (ix1 o)) n (col 2 h d) := by
  rw [val_main_v11_apply, val_main_v10_apply, idx_slice2, part_apply]

/-- The scaled query at (b, h, n, d). -/
theorem qs_apply (b : Fin 8) (h : Fin 12) (n : Fin 1024) (d : Fin 64) :
    val_main_v13 (F := Ideal) x0 x2 x3 (ix4 b h n d)
      = proj (fun n c => x0 (ix3 b n c)) (fun c o => x2 (ix2 o c)) (fun o => x3 (ix1 o)) n (col 0 h d) * scale := by
  rw [val_main_v13_apply, q_apply, val_main_v12_apply, val_main_cst_apply]
  rfl

/-- The score of query row n against key row m in head h of batch row b. -/
theorem score_apply (b : Fin 8) (h : Fin 12) (n m : Fin 1024) :
    val_main_v14 (F := Ideal) x0 x2 x3 (ix4 b h n m)
      = score (fun n c => x0 (ix3 b n c)) (fun c o => x2 (ix2 o c)) (fun o => x3 (ix1 o)) h n m := by
  rw [val_main_v14_apply]
  have el : ∀ k : Fin 64, lidx_main_v14 (ix4 b h n m) k = ix4 b h n k := fun k => funext fun a => by
    match a with | ⟨0, _⟩ => rfl | ⟨1, _⟩ => rfl | ⟨2, _⟩ => rfl | ⟨3, _⟩ => rfl
  have er : ∀ k : Fin 64, ridx_main_v14 (ix4 b h n m) k = ix4 b h m k := fun k => funext fun a => by
    match a with | ⟨0, _⟩ => rfl | ⟨1, _⟩ => rfl | ⟨2, _⟩ => rfl | ⟨3, _⟩ => rfl
  simp only [el, er, qs_apply, k_apply]
  rfl

/-- The word 0xFF800000 is −∞. -/
theorem negInf_eq : Ideal.ofBits .f32 0xFF800000#32 = (⊥ : EReal) := by simp [Ideal.ofBits, Ideal.ieee]

/-- A [8,12,1024] index with coordinate k put back on the reduced last axis is (b, h, n, k). -/
theorem lift_ix3 (hr : S8x12x1024x1024.Reduces [3] S8x12x1024) (b : Fin 8) (h : Fin 12) (n : Fin 1024)
    (k : Fin (S8x12x1024x1024.size 3)) : hr.lift (ix3 b h n) k = ix4 b h n (⟨k.val, k.isLt⟩ : Fin 1024) := by
  funext c; apply Fin.ext
  match c with
  | ⟨0, _⟩ => rfl
  | ⟨1, _⟩ => rfl
  | ⟨2, _⟩ => rfl
  | ⟨3, _⟩ => rfl

/-- The row maximum of the scores, from −∞. -/
theorem rowMax_apply (b : Fin 8) (h : Fin 12) (n : Fin 1024) :
    val_main_v15 (F := Ideal) x0 x2 x3 (ix3 b h n)
      = rowMax (fun n c => x0 (ix3 b n c)) (fun c o => x2 (ix2 o c)) (fun o => x3 (ix1 o)) h n := by
  unfold val_main_v15
  have hr : S8x12x1024x1024.Reduces [3] S8x12x1024 := by decide
  rw [Host.reduce_eq_fold_single FloatOps.maximumf _ _ reducesTo_S8x12x1024x1024_S8x12x1024_d3 hr h_S_]
  have hf : (val_main_v14 (F := Ideal) x0 x2 x3 ∘ hr.lift (ix3 b h n))
      = fun m : Fin 1024 => score (fun n c => x0 (ix3 b n c)) (fun c o => x2 (ix2 o c)) (fun o => x3 (ix1 o)) h n m :=
    funext fun k => (congrArg (val_main_v14 (F := Ideal) x0 x2 x3) (lift_ix3 hr b h n k)).trans (score_apply x0 x2 x3 b h n _)
  have hi : val_main_cst_0 (F := Ideal) (Shape.Idx.first h_S_) = (⊥ : EReal) := negInf_eq
  rw [hi]
  exact congrArg (fun f => Finset.fold max (⊥ : EReal) f (Finset.univ : Finset (Fin 1024))) hf

/-- The row maximum once more against −∞ is the row maximum. -/
theorem rowMax2_apply (b : Fin 8) (h : Fin 12) (n : Fin 1024) :
    val_main_v17 (F := Ideal) x0 x2 x3 (ix3 b h n)
      = rowMax (fun n c => x0 (ix3 b n c)) (fun c o => x2 (ix2 o c)) (fun o => x3 (ix1 o)) h n := by
  rw [val_main_v17_apply, rowMax_apply, val_main_v16_apply, val_main_cst_1_apply]
  show max (Ideal.ofBits .f32 0xFF800000#32) _ = _
  rw [negInf_eq]
  exact max_bot_left _

/-- The unnormalised softmax weight at (b, h, n, m). -/
theorem weight_apply (b : Fin 8) (h : Fin 12) (n m : Fin 1024) :
    val_main_v21 (F := Ideal) x0 x2 x3 (ix4 b h n m)
      = weight (fun n c => x0 (ix3 b n c)) (fun c o => x2 (ix2 o c)) (fun o => x3 (ix1 o)) h n m := by
  rw [val_main_v21_apply, val_main_v20_apply, score_apply, val_main_v19_apply, val_main_v18_apply]
  have e : idx_main_v18 (idx_main_v19 (ix4 b h n m)) = ix3 b h n := funext fun a => by
    match a with | ⟨0, _⟩ => rfl | ⟨1, _⟩ => rfl | ⟨2, _⟩ => rfl
  rw [e, rowMax2_apply]
  rfl

/-- The softmax normaliser at (b, h, n): the sum of the weights from the zero word. -/
theorem denom_apply (b : Fin 8) (h : Fin 12) (n : Fin 1024) :
    val_main_v22 (F := Ideal) x0 x2 x3 (ix3 b h n)
      = denom (fun n c => x0 (ix3 b n c)) (fun c o => x2 (ix2 o c)) (fun o => x3 (ix1 o)) h n := by
  rw [val_main_v22_apply, val_main_cst_2_apply]
  have e : ∀ k : Fin 1024, idx_main_v22 (ix3 b h n) k = ix4 b h n k := fun k => funext fun a => by
    match a with | ⟨0, _⟩ => rfl | ⟨1, _⟩ => rfl | ⟨2, _⟩ => rfl | ⟨3, _⟩ => rfl
  simp only [e, weight_apply, Ideal.ofBits_def, Ideal.ofBits_zero_f32, zero_add]
  rfl

/-- The normalised weight at (b, h, n, m). -/
theorem prob_apply (b : Fin 8) (h : Fin 12) (n m : Fin 1024) :
    val_main_v25 (F := Ideal) x0 x2 x3 (ix4 b h n m)
      = Ideal.div (weight (fun n c => x0 (ix3 b n c)) (fun c o => x2 (ix2 o c)) (fun o => x3 (ix1 o)) h n m)
          (denom (fun n c => x0 (ix3 b n c)) (fun c o => x2 (ix2 o c)) (fun o => x3 (ix1 o)) h n) := by
  rw [val_main_v25_apply, weight_apply, val_main_v24_apply, val_main_v23_apply]
  have e : idx_main_v23 (idx_main_v24 (ix4 b h n m)) = ix3 b h n := funext fun a => by
    match a with | ⟨0, _⟩ => rfl | ⟨1, _⟩ => rfl | ⟨2, _⟩ => rfl
  rw [e, denom_apply]
  rfl

/-- The weighted sum of the values at (b, h, n, d), before the mask factor. -/
theorem ctx_apply (b : Fin 8) (h : Fin 12) (n : Fin 1024) (d : Fin 64) :
    val_main_v26 (F := Ideal) x0 x2 x3 (ix4 b h n d)
      = ∑ m : Fin 1024,
          Ideal.div (weight (fun n c => x0 (ix3 b n c)) (fun c o => x2 (ix2 o c)) (fun o => x3 (ix1 o)) h n m)
              (denom (fun n c => x0 (ix3 b n c)) (fun c o => x2 (ix2 o c)) (fun o => x3 (ix1 o)) h n)
            * proj (fun n c => x0 (ix3 b n c)) (fun c o => x2 (ix2 o c)) (fun o => x3 (ix1 o)) m (col 2 h d) := by
  rw [val_main_v26_apply]
  have el : ∀ k : Fin 1024, lidx_main_v26 (ix4 b h n d) k = ix4 b h n k := fun k => funext fun a => by
    match a with | ⟨0, _⟩ => rfl | ⟨1, _⟩ => rfl | ⟨2, _⟩ => rfl | ⟨3, _⟩ => rfl
  have er : ∀ k : Fin 1024, ridx_main_v26 (ix4 b h n d) k = ix4 b h k d := fun k => funext fun a => by
    match a with | ⟨0, _⟩ => rfl | ⟨1, _⟩ => rfl | ⟨2, _⟩ => rfl | ⟨3, _⟩ => rfl
  simp only [el, er, prob_apply, v_apply]

/-- A label word below 1000 is not negative as a signed word. -/
theorem slt_zero_of_lt (y : BitVec 32) (hy : y.toNat < 1000) : IntOp.cmpi .slt y 0#32 = 0#1 := by
  have h1 : y.toInt = (y.toNat : Int) := BitVec.toInt_eq_toNat_of_lt (by omega)
  have h2 : ¬ (y.toInt < (0#32 : BitVec 32).toInt) := by
    rw [h1]; simp
  unfold IntOp.cmpi
  simp only [BitVec.slt, h2, decide_false, BitVec.ofBool_false]
  rfl

/-- The gather of whole [12,64] slabs of the table at the [8,1] start indices, read at (b, h, d): the table at
    the start index of row b, read signed and clamped into [0, 999]. -/
theorem gather_apply {α : Type} (x : S1000x12x64.Idx → α) (idx : IVec S8x1 32) (b : Fin 8) (h : Fin 12) (d : Fin 64) :
    Host.gather gather_S1000x12x64_S8x1_S8x12x64_12_0_n_n_0_1_11264 x idx (ix3 b h d)
      = x (ix3 (⟨min (idx (ix2 b (0 : Fin 1))).toInt.toNat 999, by omega⟩ : Fin 1000) h d) := by
  unfold Host.gather
  refine congrArg x (funext fun a => Fin.ext ?_)
  match a with
  | ⟨0, _⟩ =>
    show gather_S1000x12x64_S8x1_S8x12x64_12_0_n_n_0_1_11264.start (ix3 b h d) idx 0
        + gather_S1000x12x64_S8x1_S8x12x64_12_0_n_n_0_1_11264.batchCoord (ix3 b h d) 0
        + gather_S1000x12x64_S8x1_S8x12x64_12_0_n_n_0_1_11264.offCoord (ix3 b h d) 0 = min (idx (ix2 b (0 : Fin 1))).toInt.toNat 999
    rw [GatherDims.batchCoord_eq_zero _ _ _ (by decide), GatherDims.offCoord_eq_zero _ _ _ (by decide)]
    unfold GatherDims.start
    rw [dif_pos (by decide)]
    have hsi : gather_S1000x12x64_S8x1_S8x12x64_12_0_n_n_0_1_11264.siIdx (ix3 b h d)
        ⟨List.idxOf (0 : Fin S1000x12x64.rank) gather_S1000x12x64_S8x1_S8x12x64_12_0_n_n_0_1_11264.startIndexMap,
          List.idxOf_lt_length_iff.2 (by decide)⟩ = ix2 b (0 : Fin 1) := by
      funext c; refine Fin.ext ?_
      match c with
      | ⟨0, _⟩ => rfl
      | ⟨1, _⟩ => rfl
    rw [hsi]
    rfl
  | ⟨1, _⟩ =>
    show gather_S1000x12x64_S8x1_S8x12x64_12_0_n_n_0_1_11264.start (ix3 b h d) idx 1
        + gather_S1000x12x64_S8x1_S8x12x64_12_0_n_n_0_1_11264.batchCoord (ix3 b h d) 1
        + gather_S1000x12x64_S8x1_S8x12x64_12_0_n_n_0_1_11264.offCoord (ix3 b h d) 1 = h.val
    have h1 : gather_S1000x12x64_S8x1_S8x12x64_12_0_n_n_0_1_11264.start (ix3 b h d) idx 1 = 0 := rfl
    have h2 : gather_S1000x12x64_S8x1_S8x12x64_12_0_n_n_0_1_11264.batchCoord (ix3 b h d) 1 = 0 := rfl
    have h3 : gather_S1000x12x64_S8x1_S8x12x64_12_0_n_n_0_1_11264.offCoord (ix3 b h d) 1 = h.val := rfl
    simp only [h1, h2, h3, Nat.zero_add]
  | ⟨2, _⟩ =>
    show gather_S1000x12x64_S8x1_S8x12x64_12_0_n_n_0_1_11264.start (ix3 b h d) idx 2
        + gather_S1000x12x64_S8x1_S8x12x64_12_0_n_n_0_1_11264.batchCoord (ix3 b h d) 2
        + gather_S1000x12x64_S8x1_S8x12x64_12_0_n_n_0_1_11264.offCoord (ix3 b h d) 2 = d.val
    have h1 : gather_S1000x12x64_S8x1_S8x12x64_12_0_n_n_0_1_11264.start (ix3 b h d) idx 2 = 0 := rfl
    have h2 : gather_S1000x12x64_S8x1_S8x12x64_12_0_n_n_0_1_11264.batchCoord (ix3 b h d) 2 = 0 := rfl
    have h3 : gather_S1000x12x64_S8x1_S8x12x64_12_0_n_n_0_1_11264.offCoord (ix3 b h d) 2 = d.val := rfl
    simp only [h1, h2, h3, Nat.zero_add]

/-- The start index of batch row b is its label word: a label below 1000 is not negative, so the wrap-around of
    negative labels leaves it. -/
theorem start_apply (hy : ∀ b : Fin 8, (x1 (ix1 b)).toNat < 1000) (b : Fin 8) :
    val_main_v32 (F := Ideal) x1 (ix2 b (0 : Fin 1)) = x1 (ix1 b) := by
  rw [val_main_v32_apply]
  have e : idx_main_v32 (ix2 b (0 : Fin 1)) = ix1 b := funext fun a => by
    match a with | ⟨0, _⟩ => rfl
  rw [e, val_main_v31_apply, val_main_v28_apply, val_main_v27_apply, val_main_c_apply, slt_zero_of_lt _ (hy b)]
  exact select_zero _ _

/-- The gathered mask at (b, h, d) is the table's row for the label of b: the clamp into [0, 999] leaves a label
    below 1000. -/
theorem maskRow_apply (hy : ∀ b : Fin 8, (x1 (ix1 b)).toNat < 1000) (b : Fin 8) (h : Fin 12) (d : Fin 64) :
    val_main_v33 (F := Ideal) x1 x6 (ix3 b h d) = x6 (ix3 (yrow (fun b => x1 (ix1 b)) hy b) h d) := by
  unfold val_main_v33
  rw [gather_apply]
  refine congrArg x6 (congrArg (fun r : Fin 1000 => ix3 r h d) (Fin.ext ?_))
  show min (val_main_v32 (F := Ideal) x1 (ix2 b (0 : Fin 1))).toInt.toNat 999 = (x1 (ix1 b)).toNat
  have hb := hy b
  rw [start_apply x1 hy, BitVec.toInt_eq_toNat_of_lt (by omega), Int.toNat_natCast]
  omega

/-- The mask factor broadcast over the rows, at (b, h, n, d). -/
theorem mask_apply (hy : ∀ b : Fin 8, (x1 (ix1 b)).toNat < 1000) (b : Fin 8) (h : Fin 12) (n : Fin 1024) (d : Fin 64) :
    val_main_v35 (F := Ideal) x1 x6 (ix4 b h n d) = x6 (ix3 (yrow (fun b => x1 (ix1 b)) hy b) h d) := by
  rw [val_main_v35_apply, val_main_v34_apply]
  have e : idx_main_v34 (idx_main_v35 (ix4 b h n d)) = ix3 b h d := funext fun a => by
    match a with | ⟨0, _⟩ => rfl | ⟨1, _⟩ => rfl | ⟨2, _⟩ => rfl
  rw [e, maskRow_apply]

/-- The masked head output at (b, h, n, d). -/
theorem headOut_apply (hy : ∀ b : Fin 8, (x1 (ix1 b)).toNat < 1000) (b : Fin 8) (h : Fin 12) (n : Fin 1024) (d : Fin 64) :
    val_main_v36 (F := Ideal) x0 x1 x2 x3 x6 (ix4 b h n d)
      = headOut (fun n c => x0 (ix3 b n c)) (fun c o => x2 (ix2 o c)) (fun o => x3 (ix1 o))
          (fun h d => x6 (ix3 (yrow (fun b => x1 (ix1 b)) hy b) h d)) h n d := by
  rw [val_main_v36_apply, ctx_apply, mask_apply x1 x6 hy]
  rfl

/-- The heads side by side: column c of the [8,1024,768] array is feature c % 64 of head c / 64. -/
theorem concat_apply (hy : ∀ b : Fin 8, (x1 (ix1 b)).toNat < 1000) (b : Fin 8) (n : Fin 1024) (c : Fin 768) :
    val_main_v38 (F := Ideal) x0 x1 x2 x3 x6 (ix3 b n c)
      = headOut (fun n c => x0 (ix3 b n c)) (fun c o => x2 (ix2 o c)) (fun o => x3 (ix1 o))
          (fun h d => x6 (ix3 (yrow (fun b => x1 (ix1 b)) hy b) h d)) (headOf c) n (featOf c) := by
  rw [val_main_v38_apply, val_main_v37_apply]
  have e : idx_main_v37 (idx_main_v38 (ix3 b n c)) = ix4 b (headOf c) n (featOf c) := by
    have hb := b.isLt; have hn := n.isLt; have hc := c.isLt
    funext a; apply Fin.ext
    match a with
    | ⟨0, _⟩ => show ((b.val * 1024 + n.val) * 768 + c.val) / 786432 = b.val; omega
    | ⟨1, _⟩ => show ((b.val * 1024 + n.val) * 768 + c.val) / 64 % 12 = c.val / 64; omega
    | ⟨2, _⟩ => show ((b.val * 1024 + n.val) * 768 + c.val) / 768 % 1024 = n.val; omega
    | ⟨3, _⟩ => show ((b.val * 1024 + n.val) * 768 + c.val) % 64 = c.val % 64; omega
  rw [e, headOut_apply]

end Stages

/-- The reference at (b, n, j) is the attention block of batch row b at (n, j), the mask row picked by b's label. -/
theorem ref_apply
    (x0 : (⟨S8x1024x768, .f32⟩ : BufTy).Contents (Elt Ideal)) (x1 : (⟨S8, .i32⟩ : BufTy).Contents (Elt Ideal))
    (x2 : (⟨S2304x768, .f32⟩ : BufTy).Contents (Elt Ideal)) (x3 : (⟨S2304, .f32⟩ : BufTy).Contents (Elt Ideal))
    (x4 : (⟨S768x768, .f32⟩ : BufTy).Contents (Elt Ideal)) (x5 : (⟨S768, .f32⟩ : BufTy).Contents (Elt Ideal))
    (x6 : (⟨S1000x12x64, .f32⟩ : BufTy).Contents (Elt Ideal))
    (hy : ∀ b : Fin 8, (x1 (ix1 b)).toNat < 1000) (b : Fin 8) (n : Fin 1024) (j : Fin 768) :
    Cert.ReferenceIdeal.Read.val_main_v42 (F := Ideal) x0 x1 x2 x3 x4 x5 x6 (ix3 b n j)
      = Cert.AttnSpec.attnBlock (fun n c => x0 (ix3 b n c)) (fun c o => x2 (ix2 o c)) (fun o => x3 (ix1 o))
          (fun c j => x4 (ix2 j c)) (fun j => x5 (ix1 j))
          (fun h d => x6 (ix3 (Cert.AttnSpec.yrow (fun b => x1 (ix1 b)) hy b) h d)) n j := by
  rw [val_main_v42_apply, val_main_v39_apply, val_main_v41_apply, val_main_v40_apply]
  have el : ∀ k : Fin 768, lidx_main_v39 (ix3 b n j) k = ix3 b n k := fun k => funext fun a => by
    match a with | ⟨0, _⟩ => rfl | ⟨1, _⟩ => rfl | ⟨2, _⟩ => rfl
  have er : ∀ k : Fin 768, ridx_main_v39 (ix3 b n j) k = ix2 j k := fun k => funext fun a => by
    match a with | ⟨0, _⟩ => rfl | ⟨1, _⟩ => rfl
  have eb : idx_main_v40 (idx_main_v41 (ix3 b n j)) = ix1 j := funext fun a => by
    match a with | ⟨0, _⟩ => rfl
  simp only [el, er, eb, concat_apply x0 x1 x2 x3 x6 hy]
  rfl

end Cert.ReferenceIdeal.RefValue

end
-- ==== Proof.SpecAll.lean ====
/-
  The whole result of the attention layer as ONE function of the seven argument arrays over the extended reals:
  row block `b` of the [8, 1024, 768] result is `Cert.AttnSpec.attnBlock` of row block `b` of the activations, the
  fused weight and the output weight read transposed, the two biases, and row `y b` of the per-class mask.
-/
import proofs.«426526_j16690242913074_2_alg».proof.Proof.Spec
import Idealize.ShloMosaic.Lib.ValueIdx

noncomputable section

namespace Cert.AttnSpec

open Idealize.ShloMosaic Idealize.ShloMosaic.ValueIdx

/-- The layer's result at every index of the [8, 1024, 768] output, for labels in range. -/
def attnAll (x : (⟨3, ![8, 1024, 768]⟩ : Shape).Idx → EReal) (y : (⟨1, ![8]⟩ : Shape).Idx → BitVec 32)
    (w : (⟨2, ![2304, 768]⟩ : Shape).Idx → EReal) (bq : (⟨1, ![2304]⟩ : Shape).Idx → EReal)
    (pw : (⟨2, ![768, 768]⟩ : Shape).Idx → EReal) (pb : (⟨1, ![768]⟩ : Shape).Idx → EReal)
    (mk : (⟨3, ![1000, 12, 64]⟩ : Shape).Idx → EReal) (hy : ∀ b : Fin 8, (y (ix1 b)).toNat < 1000) :
    (⟨3, ![8, 1024, 768]⟩ : Shape).Idx → EReal := fun i =>
  attnBlock (fun n k => x (ix3 (⟨(i 0).val, (i 0).isLt⟩ : Fin 8) n k)) (fun k o => w (ix2 o k)) (fun o => bq (ix1 o))
    (fun k j => pw (ix2 j k)) (fun j => pb (ix1 j))
    (fun h d => mk (ix3 (yrow (fun b => y (ix1 b)) hy (⟨(i 0).val, (i 0).isLt⟩ : Fin 8)) h d))
    (⟨(i 1).val, (i 1).isLt⟩ : Fin 1024) (⟨(i 2).val, (i 2).isLt⟩ : Fin 768)

/-- At explicit coordinates. -/
theorem attnAll_apply (x : (⟨3, ![8, 1024, 768]⟩ : Shape).Idx → EReal) (y : (⟨1, ![8]⟩ : Shape).Idx → BitVec 32)
    (w : (⟨2, ![2304, 768]⟩ : Shape).Idx → EReal) (bq : (⟨1, ![2304]⟩ : Shape).Idx → EReal)
    (pw : (⟨2, ![768, 768]⟩ : Shape).Idx → EReal) (pb : (⟨1, ![768]⟩ : Shape).Idx → EReal)
    (mk : (⟨3, ![1000, 12, 64]⟩ : Shape).Idx → EReal) (hy : ∀ b : Fin 8, (y (ix1 b)).toNat < 1000)
    (b : Fin 8) (n : Fin 1024) (j : Fin 768) :
    attnAll x y w bq pw pb mk hy (ix3 b n j)
      = attnBlock (fun n k => x (ix3 b n k)) (fun k o => w (ix2 o k)) (fun o => bq (ix1 o))
          (fun k j => pw (ix2 j k)) (fun j => pb (ix1 j)) (fun h d => mk (ix3 (yrow (fun b => y (ix1 b)) hy b) h d)) n j := rfl

end Cert.AttnSpec

end
-- ==== Proof.RefRun.lean ====
/-
  The idealized reference's run ends with its result array at the specification: on every device the result of
  every weakly fair execution of the reference program is `Cert.AttnSpec.attnAll` of the seven argument arrays
  (labels in range), and the arguments are unchanged. The run itself and the composed term of its result are the
  generated ones; that term is the reference's last stage, which is the attention block at every index (b, n, j);
  and `attnAll` at (b, n, j) is that block by definition. Also: `attnAll` of equal arrays is the same function, whatever
  the two proofs that the labels are in range.
-/
import proofs.«426526_j16690242913074_2_alg».proof.Proof.RefValue
import proofs.«426526_j16690242913074_2_alg».proof.Proof.SpecAll

noncomputable section

namespace Cert.AttnSpec

open Idealize.ShloMosaic Idealize.ShloMosaic.ValueIdx

/-- The layer's result depends on the seven arrays only: equal arrays give the same function, the range proofs being
    propositions. -/
theorem attnAll_congr
    (x : (⟨3, ![8, 1024, 768]⟩ : Shape).Idx → EReal) (y : (⟨1, ![8]⟩ : Shape).Idx → BitVec 32)
    (w : (⟨2, ![2304, 768]⟩ : Shape).Idx → EReal) (bq : (⟨1, ![2304]⟩ : Shape).Idx → EReal)
    (pw : (⟨2, ![768, 768]⟩ : Shape).Idx → EReal) (pb : (⟨1, ![768]⟩ : Shape).Idx → EReal)
    (mk : (⟨3, ![1000, 12, 64]⟩ : Shape).Idx → EReal) (hy : ∀ b : Fin 8, (y (ix1 b)).toNat < 1000)
    (x' : (⟨3, ![8, 1024, 768]⟩ : Shape).Idx → EReal) (y' : (⟨1, ![8]⟩ : Shape).Idx → BitVec 32)
    (w' : (⟨2, ![2304, 768]⟩ : Shape).Idx → EReal) (bq' : (⟨1, ![2304]⟩ : Shape).Idx → EReal)
    (pw' : (⟨2, ![768, 768]⟩ : Shape).Idx → EReal) (pb' : (⟨1, ![768]⟩ : Shape).Idx → EReal)
    (mk' : (⟨3, ![1000, 12, 64]⟩ : Shape).Idx → EReal) (hy' : ∀ b : Fin 8, (y' (ix1 b)).toNat < 1000)
    (hx : x = x') (hyy : y = y') (hw : w = w') (hbq : bq = bq') (hpw : pw = pw') (hpb : pb = pb') (hmk : mk = mk') :
    attnAll x y w bq pw pb mk hy = attnAll x' y' w' bq' pw' pb' mk' hy' := by
  subst hx hyy hw hbq hpw hpb hmk
  rfl

end Cert.AttnSpec

namespace Cert.ReferenceIdeal.RefRun

open Cert.ReferenceIdeal Idealize.ShloMosaic Idealize.ShloMosaic.ValueIdx Idealize.SL.Sem

/-- Every weakly fair execution of the idealized reference terminates with its result at the specification of the
    arguments, labels in range, and the arguments unchanged. -/
theorem run (m : (ℓ : Loc nD τ sig) → Buf (Elt Ideal) ℓ) (ρ : Dev nD → PrngReg)
    (hy : ∀ (c : Dev nD) (b : Fin 8), (m ((c.tc : Thread nD τ).loc main_arg1) (ix1 b)).toNat < 1000) :
    θ_run (defs (F := Ideal)) (onTc (τ := τ) (main (F := Ideal))) ⟨m, fun _ => 0, ρ⟩ (fun r => ∀ c : Dev nD,
      r.2.mem ((c.tc : Thread nD τ).loc main_v42)
        = Cert.AttnSpec.attnAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (hy c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c => ⟨(h c).1.trans (by
      rw [Cert.ReferenceIdeal.Read.val_main_v42_eq]
      funext i
      obtain ⟨b, n, j, rfl⟩ : ∃ (b : Fin 8) (n : Fin 1024) (j : Fin 768), i = ix3 b n j :=
        ⟨⟨(i 0).val, (i 0).isLt⟩, ⟨(i 1).val, (i 1).isLt⟩, ⟨(i 2).val, (i 2).isLt⟩, eq_ix3 i⟩
      rw [Cert.ReferenceIdeal.RefValue.ref_apply _ _ _ _ _ _ _ (hy c) b n j, Cert.AttnSpec.attnAll_apply]), (h c).2⟩)
    (Cert.ReferenceIdeal.Value.run (F := Ideal) m ρ)

end Cert.ReferenceIdeal.RefRun

end
-- ==== Proof.BodyVal.lean ====
/-
  What the attention kernel's body writes back for one grid point, as ONE function of the six staged input blocks,
  at any float instance: the body's arithmetic (the payload terms of the kernel's skeleton) composed along its data
  flow, with every scratch buffer replaced by the value that was stored into it.
  * the three projections of the row block (query scaled by 1/8, key, value): `qAll`, `kAll`, `vAll`, each
    [1024, 768] over the 768-column part of the fused weight and bias that belongs to it;
  * head `h`'s [1, 1024, 64] slab of a projection: columns `64·h … 64·h + 63`;
  * the pair of heads `2k`, `2k + 1` attended and laid side by side as a [1024, 128] slab: `pairSlab`;
  * the six slabs side by side, [1024, 768]: `oAll`; and the output projection of that: `bodyVal`.
-/
import proofs.«426526_j16690242913074_2_alg».proof.Proof.Gen.KernelIdeal.Skeleton
import Idealize.ShloMosaic.Lib.ValueIdx

noncomputable section

namespace Cert.KernelIdeal.BodyVal

open Cert.KernelIdeal Cert.KernelIdeal.Gen Idealize.ShloMosaic Idealize.ShloMosaic.ValueIdx

variable {F : FTy → Type} [FloatOps F]

/-- Part `p` (0 query, 1 key, 2 value) of the staged fused weight: its columns `768·p … 768·p + 767`. -/
def wPart (x1 : Vec F S768x2304 .bf16) (p : Fin 3) : Vec F S768x768 .bf16 := fun j =>
  x1 (ix2 (⟨(j 0).val, (j 0).isLt⟩ : Fin 768)
    (⟨p.val * 768 + (j 1).val, by have h : (j 1).val < 768 := (j 1).isLt; omega⟩ : Fin 2304))

/-- Part `p` of the staged fused bias row. -/
def bPart (x2 : Vec F S1x2304 .f32) (p : Fin 3) : Vec F S1x768 .f32 := fun j =>
  x2 (ix2 (⟨0, by decide⟩ : Fin 1)
    (⟨p.val * 768 + (j 1).val, by have h : (j 1).val < 768 := (j 1).isLt; omega⟩ : Fin 2304))

/-- The scaled query projection of the row block. -/
def qAll (x0 : Vec F S1x1024x768 .f32) (x1 : Vec F S768x2304 .bf16) (x2 : Vec F S1x2304 .f32) : FVec F S1024x768 .bf16 :=
  k0_pay6 x0 (wPart x1 0) (bPart x2 0)

/-- The key projection. -/
def kAll (x0 : Vec F S1x1024x768 .f32) (x1 : Vec F S768x2304 .bf16) (x2 : Vec F S1x2304 .f32) : FVec F S1024x768 .bf16 :=
  k0_pay20 (k0_pay5 x0) (wPart x1 1) (bPart x2 1)

/-- The value projection. -/
def vAll (x0 : Vec F S1x1024x768 .f32) (x1 : Vec F S768x2304 .bf16) (x2 : Vec F S1x2304 .f32) : FVec F S1024x768 .bf16 :=
  k0_pay36 (k0_pay34 (k0_pay5 x0) (wPart x1 2)) (k0_pay35 (bPart x2 2))

/-- Head `h`'s slab of a projection: columns `64·h … 64·h + 63`, with a leading unit axis. -/
def headSlab (A : FVec F S1024x768 .bf16) (h : Fin 12) : Vec F S1x1024x64 .bf16 := fun j =>
  A (ix2 (⟨(j 1).val, (j 1).isLt⟩ : Fin 1024)
    (⟨h.val * 64 + (j 2).val, by have h2 : (j 2).val < 64 := (j 2).isLt; omega⟩ : Fin 768))

/-- Head `h`'s row of the staged mask block. -/
def maskRow (x5 : Vec F S1x12x64 .f32) (h : Fin 12) : Vec F S1x1x64 .f32 := fun j =>
  x5 (ix3 (⟨0, by decide⟩ : Fin 1) h (⟨(j 2).val, (j 2).isLt⟩ : Fin 64))

/-- The first and the second head of pair `k`. -/
def hd0 (k : Fin 6) : Fin 12 := ⟨2 * k.val, by omega⟩
def hd1 (k : Fin 6) : Fin 12 := ⟨2 * k.val + 1, by omega⟩

/-- Heads `2k` and `2k + 1` attended, masked, side by side. -/
def pairSlab (x0 : Vec F S1x1024x768 .f32) (x1 : Vec F S768x2304 .bf16) (x2 : Vec F S1x2304 .f32) (x5 : Vec F S1x12x64 .f32)
    (k : Fin 6) : FVec F S1024x128 .f32 :=
  k0_pay49
    (k0_pay2 (headSlab (qAll x0 x1 x2) (hd0 k)) (headSlab (kAll x0 x1 x2) (hd0 k)) (headSlab (vAll x0 x1 x2) (hd0 k)) (maskRow x5 (hd0 k)))
    (k0_pay3 (headSlab (qAll x0 x1 x2) (hd1 k))) (k0_pay4 (headSlab (kAll x0 x1 x2) (hd1 k)))
    (headSlab (vAll x0 x1 x2) (hd1 k)) (maskRow x5 (hd1 k))

/-- The six pair slabs side by side: column `c` lies in slab `c / 128` at `c % 128`. -/
def oAll (x0 : Vec F S1x1024x768 .f32) (x1 : Vec F S768x2304 .bf16) (x2 : Vec F S1x2304 .f32) (x5 : Vec F S1x12x64 .f32) :
    Vec F S1024x768 .f32 := fun j =>
  pairSlab x0 x1 x2 x5 (⟨(j 1).val / 128, by have h : (j 1).val < 768 := (j 1).isLt; omega⟩ : Fin 6)
    (ix2 (⟨(j 0).val, (j 0).isLt⟩ : Fin 1024) (⟨(j 1).val % 128, by omega⟩ : Fin 128))

/-- The block the body writes back. -/
def bodyVal (x0 : Vec F S1x1024x768 .f32) (x1 : Vec F S768x2304 .bf16) (x2 : Vec F S1x2304 .f32) (x3 : Vec F S768x768 .bf16)
    (x4 : Vec F S1x768 .f32) (x5 : Vec F S1x12x64 .f32) : Vec F S1x1024x768 .f32 :=
  k0_pay1 (k0_pay50 (oAll x0 x1 x2 x5) x3) (k0_pay51 x4)

end Cert.KernelIdeal.BodyVal

end
-- ==== Proof.PiecesLoads.lean ====
/-
  The values the attention kernel's body computes from its staged input blocks before its loop, as the functions of
  those blocks that BodyVal.lean names: a load of a whole staged buffer reads the staged block; a load of columns
  `768·p … 768·p + 767` of the fused weight (bias) reads its part `p`; so the three projections the body stages in
  its scratch buffers are `qAll`, `kAll`, `vAll` of the staged blocks.
-/
import proofs.«426526_j16690242913074_2_alg».proof.Proof.KernelIdealFrame
import proofs.«426526_j16690242913074_2_alg».proof.Proof.BodyVal
import Idealize.ShloMosaic.Lib.Pipeline.Value

set_option maxRecDepth 16384

noncomputable section

namespace Cert.KernelIdeal.Pieces

open Cert.KernelIdeal Cert.KernelIdeal.Gen Cert.KernelIdeal.GenP Cert.KernelIdeal.BodyVal
open Idealize.ShloMosaic Idealize.ShloMosaic.ValueIdx Idealize.ShloMosaic.TcCoe

variable {F : FTy → Type} [FloatOps F]

/-- A load through a rectangle of a whole buffer that holds the block `x` reads `x` at the rectangle's indices. -/
theorem load_unread {sp : Space} {S : Shape} {e : EltTy} (m : Memref sig .tc sp S e) (hm : m.IsWhole) (x : Vec F S e) (r : Rect S) :
    View.readAt (Elt F) m.view r.toLoadRect (hm.unread x) = View.ld x r := by
  rw [View.readAt_eq_ld, hm.read_unread]

/-- Through the whole-shape rectangle it reads the block itself. -/
theorem load_whole {sp : Space} {S : Shape} {e : EltTy} (m : Memref sig .tc sp S e) (hm : m.IsWhole) (x : Vec F S e)
    (off : Fin S.rank → Nat) (hz : off = fun _ => 0) (inb : ∀ a, off a + S.size a ≤ S.size a) :
    View.readAt (Elt F) m.view (Rect.unit off S.size inb).toLoadRect (hm.unread x) = x := by
  rw [load_unread, View.ld_unit_zero hz]

theorem z3 : (![0, 0, 0] : Fin 3 → Nat) = fun _ => 0 := by funext a; fin_cases a <;> rfl
theorem z2 : (![0, 0] : Fin 2 → Nat) = fun _ => 0 := by funext a; fin_cases a <;> rfl

/-- Columns `768·p …` of the staged fused weight are its part `p`. -/
theorem ld_wPart (x1 : Vec F S768x2304 .bf16) (p : Fin 3) (off : Fin 2 → Nat) (h0 : off 0 = 0) (h1 : off 1 = p.val * 768)
    (inb : ∀ a, off a + S768x768.size a ≤ S768x2304.size a) :
    View.ld x1 (Rect.unit off S768x768.size inb) = wPart x1 p := by
  funext j
  show x1 _ = x1 _
  congr 1
  funext a
  apply Fin.ext
  match a with
  | ⟨0, _⟩ => show off 0 + 1 * (j 0).val = (j 0).val; omega
  | ⟨1, _⟩ => show off 1 + 1 * (j 1).val = p.val * 768 + (j 1).val; omega

/-- Columns `768·p …` of the staged fused bias row are its part `p`. -/
theorem ld_bPart (x2 : Vec F S1x2304 .f32) (p : Fin 3) (off : Fin 2 → Nat) (h0 : off 0 = 0) (h1 : off 1 = p.val * 768)
    (inb : ∀ a, off a + S1x768.size a ≤ S1x2304.size a) :
    View.ld x2 (Rect.unit off S1x768.size inb) = bPart x2 p := by
  funext j
  show x2 _ = x2 _
  congr 1
  funext a
  apply Fin.ext
  have hj0 : (j 0).val < 1 := (j 0).isLt
  match a with
  | ⟨0, _⟩ => show off 0 + 1 * (j 0).val = 0; omega
  | ⟨1, _⟩ => show off 1 + 1 * (j 1).val = p.val * 768 + (j 1).val; omega

section Named

variable (c : Dev nD) (arg2 : Memref sig .tc .vmem S1x1024x768 .f32) (harg2 : arg2.IsWhole) (arg3 : Memref sig .tc .vmem S768x2304 .bf16) (harg3 : arg3.IsWhole) (arg4 : Memref sig .tc .vmem S1x2304 .f32) (harg4 : arg4.IsWhole) (x0 : Vec F S1x1024x768 .f32) (x1 : Vec F S768x2304 .bf16) (x2 : Vec F S1x2304 .f32)

/-- The row block in the matrix unit's format. -/
theorem r_eq : kernelRun0_A.sl.r c arg2 harg2 x0 = k0_pay5 x0 := by
  unfold kernelRun0_A.sl.r; rw [load_whole _ _ _ _ z3]

/-- The scaled query projection. -/
theorem r_1_eq : kernelRun0_A.sl.r_1 c arg2 harg2 arg3 harg3 arg4 harg4 x0 x1 x2 = qAll x0 x1 x2 := by
  unfold kernelRun0_A.sl.r_1 qAll
  rw [load_whole _ _ _ _ z3, load_unread, load_unread, ld_wPart x1 0 _ rfl rfl, ld_bPart x2 0 _ rfl rfl]

/-- Its fifth head's columns, before the reshape. -/
theorem r_2_eq : kernelRun0_A.sl.r_2 c arg2 harg2 arg3 harg3 arg4 harg4 x0 x1 x2 = k0_pay11 x0 (wPart x1 0) (bPart x2 0) := by
  unfold kernelRun0_A.sl.r_2
  rw [load_whole _ _ _ _ z3, load_unread, load_unread, ld_wPart x1 0 _ rfl rfl, ld_bPart x2 0 _ rfl rfl]

/-- The key projection. -/
theorem r_3_eq : kernelRun0_A.sl.r_3 c arg2 harg2 arg3 harg3 arg4 harg4 x0 x1 x2 = kAll x0 x1 x2 := by
  unfold kernelRun0_A.sl.r_3 kAll
  rw [r_eq, load_unread, load_unread, ld_wPart x1 1 _ rfl rfl, ld_bPart x2 1 _ rfl rfl]

/-- Its sixth head's columns, before the reshape. -/
theorem r_4_eq : kernelRun0_A.sl.r_4 c arg2 harg2 arg3 harg3 arg4 harg4 x0 x1 x2 = k0_pay26 (k0_pay5 x0) (wPart x1 1) (bPart x2 1) := by
  unfold kernelRun0_A.sl.r_4
  rw [r_eq, load_unread, load_unread, ld_wPart x1 1 _ rfl rfl, ld_bPart x2 1 _ rfl rfl]

/-- The value projection. -/
theorem r_7_eq : kernelRun0_A.sl.r_7 c arg2 harg2 arg3 harg3 arg4 harg4 x0 x1 x2 = vAll x0 x1 x2 := by
  unfold kernelRun0_A.sl.r_7 kernelRun0_A.sl.r_5 kernelRun0_A.sl.r_6 vAll
  rw [r_eq, load_unread, load_unread, ld_wPart x1 2 _ rfl rfl, ld_bPart x2 2 _ rfl rfl]

end Named

end Cert.KernelIdeal.Pieces

end
-- ==== Proof.Slabs.lean ====
/-
  The 36 values the kernel stores into its three scratch buffers are head slabs. Each stored value is a
  64-column slice of a [1024, 768] projection, at column offset 64·h, given a leading unit axis; read at
  (u, r, c) it is the projection at (r, 64·h + c), which is head h's slab. One lemma says this for any
  projection and any offset 64·h; the 36 payload equations are its instances. Last, a whole [12, 1024, 64]
  scratch buffer as one function of its index, of which every stored slab is the block at its head.
-/
import proofs.«426526_j16690242913074_2_alg».proof.Proof.BodyVal
import Idealize.ShloMosaic.Lib.Pipeline.Value
import Idealize.ShloMosaic.Lib.ValueLayout
import Idealize.ShloMosaic.Lib.ValueIdx

noncomputable section

namespace Cert.KernelIdeal.Slabs

open Cert.KernelIdeal Cert.KernelIdeal.Gen Cert.KernelIdeal.BodyVal Idealize.ShloMosaic Idealize.ShloMosaic.ValueIdx

variable {F : FTy → Type} [FloatOps F]

/-- A 64-column slice of a projection at column offset `o = 64·h`, with a leading unit axis added, is head `h`'s slab. -/
theorem slab_eq (A : FVec F S1024x768 .bf16) (o : Nat) (h : Fin 12) (ho : o = h.val * 64)
    (hs : S1024x768.Slices ![0, o] S1024x64) (hc : S1024x64.ShapeCasts S1x1024x64) :
    shapeCast S1x1024x64 (extractStridedSlice S1024x64 ![0, o] A hs) hc = headSlab A h := by
  funext j
  obtain ⟨u, r, c, rfl⟩ : ∃ (u : Fin 1) (r : Fin 1024) (c : Fin 64), j = ix3 u r c := ⟨j 0, j 1, j 2, eq_ix3 j⟩
  have hc64 : c.val < 64 := c.isLt
  have h12 : h.val < 12 := h.isLt
  rw [shapeCast_ab_1ab_apply,
    slice2_axis1_apply o A hs r c (⟨h.val * 64 + c.val, by omega⟩ : Fin 768) (by show h.val * 64 + c.val = o + c.val; omega)]
  rfl

/-! ## The query side -/

theorem pay7_eq (v0 : Vec F S1x1024x768 .f32) (v3 : Vec F S768x768 .bf16) (v6 : Vec F S1x768 .f32) :
    k0_pay7 v0 v3 v6 = headSlab (k0_pay6 v0 v3 v6) (⟨0, by decide⟩ : Fin 12) :=
  slab_eq _ 0 ⟨0, by decide⟩ rfl _ _
theorem pay8_eq (v0 : Vec F S1x1024x768 .f32) (v3 : Vec F S768x768 .bf16) (v6 : Vec F S1x768 .f32) :
    k0_pay8 v0 v3 v6 = headSlab (k0_pay6 v0 v3 v6) (⟨1, by decide⟩ : Fin 12) :=
  slab_eq _ 64 ⟨1, by decide⟩ rfl _ _
theorem pay9_eq (v0 : Vec F S1x1024x768 .f32) (v3 : Vec F S768x768 .bf16) (v6 : Vec F S1x768 .f32) :
    k0_pay9 v0 v3 v6 = headSlab (k0_pay6 v0 v3 v6) (⟨2, by decide⟩ : Fin 12) :=
  slab_eq _ 128 ⟨2, by decide⟩ rfl _ _
theorem pay10_eq (v0 : Vec F S1x1024x768 .f32) (v3 : Vec F S768x768 .bf16) (v6 : Vec F S1x768 .f32) :
    k0_pay10 v0 v3 v6 = headSlab (k0_pay6 v0 v3 v6) (⟨3, by decide⟩ : Fin 12) :=
  slab_eq _ 192 ⟨3, by decide⟩ rfl _ _
theorem pay12_eq (v0 : Vec F S1x1024x768 .f32) (v3 : Vec F S768x768 .bf16) (v6 : Vec F S1x768 .f32) :
    k0_pay12 (k0_pay11 v0 v3 v6) = headSlab (k0_pay6 v0 v3 v6) (⟨4, by decide⟩ : Fin 12) := by
  unfold k0_pay12 k0_pay11
  exact slab_eq _ 256 ⟨4, by decide⟩ rfl _ _
theorem pay13_eq (v13 : FVec F S1024x768 .bf16) :
    k0_pay13 v13 = headSlab v13 (⟨5, by decide⟩ : Fin 12) :=
  slab_eq _ 320 ⟨5, by decide⟩ rfl _ _
theorem pay14_eq (v13 : FVec F S1024x768 .bf16) :
    k0_pay14 v13 = headSlab v13 (⟨6, by decide⟩ : Fin 12) :=
  slab_eq _ 384 ⟨6, by decide⟩ rfl _ _
theorem pay15_eq (v13 : FVec F S1024x768 .bf16) :
    k0_pay15 v13 = headSlab v13 (⟨7, by decide⟩ : Fin 12) :=
  slab_eq _ 448 ⟨7, by decide⟩ rfl _ _
theorem pay16_eq (v13 : FVec F S1024x768 .bf16) :
    k0_pay16 v13 = headSlab v13 (⟨8, by decide⟩ : Fin 12) :=
  slab_eq _ 512 ⟨8, by decide⟩ rfl _ _
theorem pay17_eq (v13 : FVec F S1024x768 .bf16) :
    k0_pay17 v13 = headSlab v13 (⟨9, by decide⟩ : Fin 12) :=
  slab_eq _ 576 ⟨9, by decide⟩ rfl _ _
theorem pay18_eq (v13 : FVec F S1024x768 .bf16) :
    k0_pay18 v13 = headSlab v13 (⟨10, by decide⟩ : Fin 12) :=
  slab_eq _ 640 ⟨10, by decide⟩ rfl _ _
theorem pay19_eq (v13 : FVec F S1024x768 .bf16) :
    k0_pay19 v13 = headSlab v13 (⟨11, by decide⟩ : Fin 12) :=
  slab_eq _ 704 ⟨11, by decide⟩ rfl _ _

/-! ## The key side -/

theorem pay21_eq (v2 : FVec F S1024x768 .bf16) (v62 : Vec F S768x768 .bf16) (v65 : Vec F S1x768 .f32) :
    k0_pay21 v2 v62 v65 = headSlab (k0_pay20 v2 v62 v65) (⟨0, by decide⟩ : Fin 12) :=
  slab_eq _ 0 ⟨0, by decide⟩ rfl _ _
theorem pay22_eq (v2 : FVec F S1024x768 .bf16) (v62 : Vec F S768x768 .bf16) (v65 : Vec F S1x768 .f32) :
    k0_pay22 v2 v62 v65 = headSlab (k0_pay20 v2 v62 v65) (⟨1, by decide⟩ : Fin 12) :=
  slab_eq _ 64 ⟨1, by decide⟩ rfl _ _
theorem pay23_eq (v2 : FVec F S1024x768 .bf16) (v62 : Vec F S768x768 .bf16) (v65 : Vec F S1x768 .f32) :
    k0_pay23 v2 v62 v65 = headSlab (k0_pay20 v2 v62 v65) (⟨2, by decide⟩ : Fin 12) :=
  slab_eq _ 128 ⟨2, by decide⟩ rfl _ _
theorem pay24_eq (v2 : FVec F S1024x768 .bf16) (v62 : Vec F S768x768 .bf16) (v65 : Vec F S1x768 .f32) :
    k0_pay24 v2 v62 v65 = headSlab (k0_pay20 v2 v62 v65) (⟨3, by decide⟩ : Fin 12) :=
  slab_eq _ 192 ⟨3, by decide⟩ rfl _ _
theorem pay25_eq (v2 : FVec F S1024x768 .bf16) (v62 : Vec F S768x768 .bf16) (v65 : Vec F S1x768 .f32) :
    k0_pay25 v2 v62 v65 = headSlab (k0_pay20 v2 v62 v65) (⟨4, by decide⟩ : Fin 12) :=
  slab_eq _ 256 ⟨4, by decide⟩ rfl _ _
theorem pay27_eq (v2 : FVec F S1024x768 .bf16) (v62 : Vec F S768x768 .bf16) (v65 : Vec F S1x768 .f32) :
    k0_pay27 (k0_pay26 v2 v62 v65) = headSlab (k0_pay20 v2 v62 v65) (⟨5, by decide⟩ : Fin 12) := by
  unfold k0_pay27 k0_pay26
  exact slab_eq _ 320 ⟨5, by decide⟩ rfl _ _
theorem pay28_eq (v70 : FVec F S1024x768 .bf16) :
    k0_pay28 v70 = headSlab v70 (⟨6, by decide⟩ : Fin 12) :=
  slab_eq _ 384 ⟨6, by decide⟩ rfl _ _
theorem pay29_eq (v70 : FVec F S1024x768 .bf16) :
    k0_pay29 v70 = headSlab v70 (⟨7, by decide⟩ : Fin 12) :=
  slab_eq _ 448 ⟨7, by decide⟩ rfl _ _
theorem pay30_eq (v70 : FVec F S1024x768 .bf16) :
    k0_pay30 v70 = headSlab v70 (⟨8, by decide⟩ : Fin 12) :=
  slab_eq _ 512 ⟨8, by decide⟩ rfl _ _
theorem pay31_eq (v70 : FVec F S1024x768 .bf16) :
    k0_pay31 v70 = headSlab v70 (⟨9, by decide⟩ : Fin 12) :=
  slab_eq _ 576 ⟨9, by decide⟩ rfl _ _
theorem pay32_eq (v70 : FVec F S1024x768 .bf16) :
    k0_pay32 v70 = headSlab v70 (⟨10, by decide⟩ : Fin 12) :=
  slab_eq _ 640 ⟨10, by decide⟩ rfl _ _
theorem pay33_eq (v70 : FVec F S1024x768 .bf16) :
    k0_pay33 v70 = headSlab v70 (⟨11, by decide⟩ : Fin 12) :=
  slab_eq _ 704 ⟨11, by decide⟩ rfl _ _

/-! ## The value side -/

theorem pay37_eq (v121 : FVec F S1024x768 .f32) (v123 : FVec F S768 .f32) :
    k0_pay37 v121 v123 = headSlab (k0_pay36 v121 v123) (⟨0, by decide⟩ : Fin 12) :=
  slab_eq _ 0 ⟨0, by decide⟩ rfl _ _
theorem pay38_eq (v121 : FVec F S1024x768 .f32) (v123 : FVec F S768 .f32) :
    k0_pay38 v121 v123 = headSlab (k0_pay36 v121 v123) (⟨1, by decide⟩ : Fin 12) :=
  slab_eq _ 64 ⟨1, by decide⟩ rfl _ _
theorem pay39_eq (v121 : FVec F S1024x768 .f32) (v123 : FVec F S768 .f32) :
    k0_pay39 v121 v123 = headSlab (k0_pay36 v121 v123) (⟨2, by decide⟩ : Fin 12) :=
  slab_eq _ 128 ⟨2, by decide⟩ rfl _ _
theorem pay40_eq (v121 : FVec F S1024x768 .f32) (v123 : FVec F S768 .f32) :
    k0_pay40 v121 v123 = headSlab (k0_pay36 v121 v123) (⟨3, by decide⟩ : Fin 12) :=
  slab_eq _ 192 ⟨3, by decide⟩ rfl _ _
theorem pay41_eq (v121 : FVec F S1024x768 .f32) (v123 : FVec F S768 .f32) :
    k0_pay41 v121 v123 = headSlab (k0_pay36 v121 v123) (⟨4, by decide⟩ : Fin 12) :=
  slab_eq _ 256 ⟨4, by decide⟩ rfl _ _
theorem pay42_eq (v121 : FVec F S1024x768 .f32) (v123 : FVec F S768 .f32) :
    k0_pay42 v121 v123 = headSlab (k0_pay36 v121 v123) (⟨5, by decide⟩ : Fin 12) :=
  slab_eq _ 320 ⟨5, by decide⟩ rfl _ _
theorem pay43_eq (v121 : FVec F S1024x768 .f32) (v123 : FVec F S768 .f32) :
    k0_pay43 v121 v123 = headSlab (k0_pay36 v121 v123) (⟨6, by decide⟩ : Fin 12) :=
  slab_eq _ 384 ⟨6, by decide⟩ rfl _ _
theorem pay44_eq (v127 : FVec F S1024x768 .bf16) :
    k0_pay44 v127 = headSlab v127 (⟨7, by decide⟩ : Fin 12) :=
  slab_eq _ 448 ⟨7, by decide⟩ rfl _ _
theorem pay45_eq (v127 : FVec F S1024x768 .bf16) :
    k0_pay45 v127 = headSlab v127 (⟨8, by decide⟩ : Fin 12) :=
  slab_eq _ 512 ⟨8, by decide⟩ rfl _ _
theorem pay46_eq (v127 : FVec F S1024x768 .bf16) :
    k0_pay46 v127 = headSlab v127 (⟨9, by decide⟩ : Fin 12) :=
  slab_eq _ 576 ⟨9, by decide⟩ rfl _ _
theorem pay47_eq (v127 : FVec F S1024x768 .bf16) :
    k0_pay47 v127 = headSlab v127 (⟨10, by decide⟩ : Fin 12) :=
  slab_eq _ 640 ⟨10, by decide⟩ rfl _ _
theorem pay48_eq (v127 : FVec F S1024x768 .bf16) :
    k0_pay48 v127 = headSlab v127 (⟨11, by decide⟩ : Fin 12) :=
  slab_eq _ 704 ⟨11, by decide⟩ rfl _ _

/-! ## A scratch buffer as one function of its index -/

/-- The [12, 1024, 64] buffer whose block at head `h` is head `h`'s slab of the projection `A`. -/
def slabG (A : FVec F S1024x768 .bf16) : S12x1024x64.Idx → Elt F .bf16 := fun y =>
  A (ix2 (⟨(y 1).val, (y 1).isLt⟩ : Fin 1024)
    (⟨(y 0).val * 64 + (y 2).val, by
      have h0 : (y 0).val < 12 := (y 0).isLt
      have h2 : (y 2).val < 64 := (y 2).isLt
      omega⟩ : Fin 768))

/-- Head `h`'s slab at `x` is that buffer at `(h, x 1, x 2)`. -/
theorem headSlab_eq_slabG (A : FVec F S1024x768 .bf16) (h : Fin 12) (x : S1x1024x64.Idx) :
    headSlab A h x = slabG A (fun a => match a with
      | ⟨0, _⟩ => ⟨h.val, h.isLt⟩ | ⟨1, _⟩ => ⟨(x 1).val, (x 1).isLt⟩ | ⟨2, _⟩ => ⟨(x 2).val, (x 2).isLt⟩) := rfl

end Cert.KernelIdeal.Slabs

end
-- ==== Proof.ScratchReads.lean ====
/-
  What the attention kernel's body reads back from its scratch buffers inside its loop: the three projection buffers
  were filled head by head before the loop, so a load of head `h`'s slab reads head `h`'s slab of the projection; and a
  load of row `h` of the staged mask block reads that row.
-/
import proofs.«426526_j16690242913074_2_alg».proof.Proof.PiecesLoads
import proofs.«426526_j16690242913074_2_alg».proof.Proof.Slabs

set_option maxRecDepth 16384

noncomputable section

namespace Cert.KernelIdeal.Scratch

open Cert.KernelIdeal Cert.KernelIdeal.Gen Cert.KernelIdeal.GenP Cert.KernelIdeal.BodyVal Cert.KernelIdeal.Pieces Cert.KernelIdeal.Slabs
open Idealize.ShloMosaic Idealize.ShloMosaic.ValueIdx Idealize.ShloMosaic.TcCoe

variable {F : FTy → Type} [FloatOps F]

/-- Head `h`'s slab at `x` is the whole buffer `slabG A` at the index under `x` in the block at offsets (h, 0, 0). -/
theorem slab_emb (A : FVec F S1024x768 .bf16) (h : Fin 12) (off : Fin 3 → Nat) (h0 : off 0 = h.val) (h1 : off 1 = 0) (h2 : off 2 = 0)
    (inb : ∀ a, off a + S1x1024x64.size a ≤ S12x1024x64.size a) (x : S1x1024x64.Idx) :
    headSlab A h x = slabG A ((Rect.unit (s := S12x1024x64) off S1x1024x64.size inb).emb x) := by
  unfold headSlab slabG
  have hx0 : (x 0).val < 1 := (x 0).isLt
  refine congrArg A (funext fun a => Fin.ext ?_)
  match a with
  | ⟨0, _⟩ => show (x 1).val = off 1 + 1 * (x 1).val; omega
  | ⟨1, _⟩ => show h.val * 64 + (x 2).val = (off 0 + 1 * (x 0).val) * 64 + (off 2 + 1 * (x 2).val); omega

/-- The twelve head slabs of a projection `A` as twelve stores into a [12, 1024, 64] buffer, the last head's first. -/
def slabList (A : FVec F S1024x768 .bf16) : List (View.Piece (Elt F) S12x1024x64 .bf16) :=
  [⟨Rect.unit ![11, 0, 0] S1x1024x64.size inb_S12x1024x64_S1x1024x64_11_0_0, headSlab A ⟨11, by decide⟩⟩,
   ⟨Rect.unit ![10, 0, 0] S1x1024x64.size inb_S12x1024x64_S1x1024x64_10_0_0, headSlab A ⟨10, by decide⟩⟩,
   ⟨Rect.unit ![9, 0, 0] S1x1024x64.size inb_S12x1024x64_S1x1024x64_9_0_0, headSlab A ⟨9, by decide⟩⟩,
   ⟨Rect.unit ![8, 0, 0] S1x1024x64.size inb_S12x1024x64_S1x1024x64_8_0_0, headSlab A ⟨8, by decide⟩⟩,
   ⟨Rect.unit ![7, 0, 0] S1x1024x64.size inb_S12x1024x64_S1x1024x64_7_0_0, headSlab A ⟨7, by decide⟩⟩,
   ⟨Rect.unit ![6, 0, 0] S1x1024x64.size inb_S12x1024x64_S1x1024x64_6_0_0, headSlab A ⟨6, by decide⟩⟩,
   ⟨Rect.unit ![5, 0, 0] S1x1024x64.size inb_S12x1024x64_S1x1024x64_5_0_0, headSlab A ⟨5, by decide⟩⟩,
   ⟨Rect.unit ![4, 0, 0] S1x1024x64.size inb_S12x1024x64_S1x1024x64_4_0_0, headSlab A ⟨4, by decide⟩⟩,
   ⟨Rect.unit ![3, 0, 0] S1x1024x64.size inb_S12x1024x64_S1x1024x64_3_0_0, headSlab A ⟨3, by decide⟩⟩,
   ⟨Rect.unit ![2, 0, 0] S1x1024x64.size inb_S12x1024x64_S1x1024x64_2_0_0, headSlab A ⟨2, by decide⟩⟩,
   ⟨Rect.unit ![1, 0, 0] S1x1024x64.size inb_S12x1024x64_S1x1024x64_1_0_0, headSlab A ⟨1, by decide⟩⟩,
   ⟨Rect.unit ![0, 0, 0] S1x1024x64.size inb_S12x1024x64_S1x1024x64_0_0_0, headSlab A ⟨0, by decide⟩⟩]

/-- Every one of the twelve stores is the block of the one function `slabG A` its rectangle names. -/
theorem slabList_pieces (A : FVec F S1024x768 .bf16) :
    ∀ p ∈ slabList A, ∀ x : p.1.shape.Idx, p.2 x = slabG A (p.1.emb x) := by
  unfold slabList
  simp only [List.mem_cons, List.mem_nil_iff, or_false, forall_eq_or_imp, forall_eq]
  refine ⟨?_, ?_, ?_, ?_, ?_, ?_, ?_, ?_, ?_, ?_, ?_, ?_⟩
  · exact fun x => slab_emb A ⟨11, by decide⟩ _ rfl rfl rfl _ x
  · exact fun x => slab_emb A ⟨10, by decide⟩ _ rfl rfl rfl _ x
  · exact fun x => slab_emb A ⟨9, by decide⟩ _ rfl rfl rfl _ x
  · exact fun x => slab_emb A ⟨8, by decide⟩ _ rfl rfl rfl _ x
  · exact fun x => slab_emb A ⟨7, by decide⟩ _ rfl rfl rfl _ x
  · exact fun x => slab_emb A ⟨6, by decide⟩ _ rfl rfl rfl _ x
  · exact fun x => slab_emb A ⟨5, by decide⟩ _ rfl rfl rfl _ x
  · exact fun x => slab_emb A ⟨4, by decide⟩ _ rfl rfl rfl _ x
  · exact fun x => slab_emb A ⟨3, by decide⟩ _ rfl rfl rfl _ x
  · exact fun x => slab_emb A ⟨2, by decide⟩ _ rfl rfl rfl _ x
  · exact fun x => slab_emb A ⟨1, by decide⟩ _ rfl rfl rfl _ x
  · exact fun x => slab_emb A ⟨0, by decide⟩ _ rfl rfl rfl _ x

open Idealize.ShloMosaic.Tactic in
/-- The twelve blocks [1, 1024, 64] tile the buffer [12, 1024, 64]: every index is under one of them. -/
theorem slabList_cover (A : FVec F S1024x768 .bf16) (y : S12x1024x64.Idx) : ∃ p ∈ slabList A, y ∈ p.1.set :=
  View.cover_of_tiledL (slabList A) S1x1024x64.size (by unfold slabList; sl_kernel_rfl) y

/-- A load of head `h`'s block from a buffer filled by the twelve stores reads head `h`'s slab. -/
theorem read_slabList (v : Memref sig .tc .vmem S12x1024x64 .bf16) (A : FVec F S1024x768 .bf16) (h : Fin 12) (off : Fin 3 → Nat)
    (hoff : off = ![h.val, 0, 0]) (inb : ∀ a, off a + S1x1024x64.size a ≤ S12x1024x64.size a) :
    View.readAt (Elt F) v.view (Rect.unit (s := S12x1024x64) off S1x1024x64.size inb).toLoadRect
        (v.view.writes (Elt F) v.view.junk (slabList A))
      = headSlab A h := by
  rw [View.readAt_writes_junk_eq_canon]
  funext j
  refine (View.canon_apply_of_pieces (slabG A) (slabList A) (slabList_pieces A) _ (slabList_cover A _)).trans ?_
  refine (slab_emb A h off ?_ ?_ ?_ inb j).symm
  · rw [hoff]; rfl
  · rw [hoff]; rfl
  · rw [hoff]; rfl

variable (c : Dev nD) (arg2 : Memref sig .tc .vmem S1x1024x768 .f32) (harg2 : arg2.IsWhole) (arg3 : Memref sig .tc .vmem S768x2304 .bf16) (harg3 : arg3.IsWhole) (arg4 : Memref sig .tc .vmem S1x2304 .f32) (harg4 : arg4.IsWhole) (x0 : Vec F S1x1024x768 .f32) (x1 : Vec F S768x2304 .bf16) (x2 : Vec F S1x2304 .f32)

/-- The twelve stores into the query buffer are the twelve head slabs of the scaled query projection. -/
theorem HS0_eq : kernelRun0_A.sl.HS0_12 c arg2 harg2 arg3 harg3 arg4 harg4 x0 x1 x2 = slabList (qAll x0 x1 x2) := by
  unfold kernelRun0_A.sl.HS0_12 slabList
  rw [r_1_eq, r_2_eq, load_whole _ _ _ _ z3, load_unread, load_unread, ld_wPart x1 0 _ rfl rfl, ld_bPart x2 0 _ rfl rfl,
    pay19_eq, pay18_eq, pay17_eq, pay16_eq, pay15_eq, pay14_eq, pay13_eq, pay12_eq, pay10_eq, pay9_eq, pay8_eq, pay7_eq]
  rfl

/-- The twelve stores into the key buffer are the twelve head slabs of the key projection. -/
theorem HS1_eq : kernelRun0_A.sl.HS1_12 c arg2 harg2 arg3 harg3 arg4 harg4 x0 x1 x2 = slabList (kAll x0 x1 x2) := by
  unfold kernelRun0_A.sl.HS1_12 slabList
  rw [r_3_eq, r_4_eq, r_eq, load_unread, load_unread, ld_wPart x1 1 _ rfl rfl, ld_bPart x2 1 _ rfl rfl,
    pay33_eq, pay32_eq, pay31_eq, pay30_eq, pay29_eq, pay28_eq, pay27_eq, pay25_eq, pay24_eq, pay23_eq, pay22_eq, pay21_eq]
  rfl

/-- The twelve stores into the value buffer are the twelve head slabs of the value projection. -/
theorem HS2_eq : kernelRun0_A.sl.HS2_12 c arg2 harg2 arg3 harg3 arg4 harg4 x0 x1 x2 = slabList (vAll x0 x1 x2) := by
  have h7 : k0_pay36 (kernelRun0_A.sl.r_5 c arg2 harg2 arg3 harg3 x0 x1) (kernelRun0_A.sl.r_6 c arg4 harg4 x2) = vAll x0 x1 x2 :=
    r_7_eq c arg2 harg2 arg3 harg3 arg4 harg4 x0 x1 x2
  unfold kernelRun0_A.sl.HS2_12 slabList
  rw [r_7_eq, pay48_eq, pay47_eq, pay46_eq, pay45_eq, pay44_eq, pay43_eq, pay42_eq, pay41_eq, pay40_eq, pay39_eq, pay38_eq, pay37_eq, h7]

theorem read_q (arg9 : Memref sig .tc .vmem S12x1024x64 .bf16) (h : Fin 12) (off : Fin 3 → Nat) (hoff : off = ![h.val, 0, 0])
    (inb : ∀ a, off a + S1x1024x64.size a ≤ S12x1024x64.size a) :
    View.readAt (Elt F) arg9.view (Rect.unit (s := S12x1024x64) off S1x1024x64.size inb).toLoadRect
        (arg9.view.writes (Elt F) arg9.view.junk (kernelRun0_A.sl.HS0_12 c arg2 harg2 arg3 harg3 arg4 harg4 x0 x1 x2))
      = headSlab (qAll x0 x1 x2) h := by
  rw [HS0_eq]
  exact read_slabList arg9 (qAll x0 x1 x2) h off hoff inb

theorem read_k (arg10 : Memref sig .tc .vmem S12x1024x64 .bf16) (h : Fin 12) (off : Fin 3 → Nat) (hoff : off = ![h.val, 0, 0])
    (inb : ∀ a, off a + S1x1024x64.size a ≤ S12x1024x64.size a) :
    View.readAt (Elt F) arg10.view (Rect.unit (s := S12x1024x64) off S1x1024x64.size inb).toLoadRect
        (arg10.view.writes (Elt F) arg10.view.junk (kernelRun0_A.sl.HS1_12 c arg2 harg2 arg3 harg3 arg4 harg4 x0 x1 x2))
      = headSlab (kAll x0 x1 x2) h := by
  rw [HS1_eq]
  exact read_slabList arg10 (kAll x0 x1 x2) h off hoff inb

theorem read_v (arg11 : Memref sig .tc .vmem S12x1024x64 .bf16) (h : Fin 12) (off : Fin 3 → Nat) (hoff : off = ![h.val, 0, 0])
    (inb : ∀ a, off a + S1x1024x64.size a ≤ S12x1024x64.size a) :
    View.readAt (Elt F) arg11.view (Rect.unit (s := S12x1024x64) off S1x1024x64.size inb).toLoadRect
        (arg11.view.writes (Elt F) arg11.view.junk (kernelRun0_A.sl.HS2_12 c arg2 harg2 arg3 harg3 arg4 harg4 x0 x1 x2))
      = headSlab (vAll x0 x1 x2) h := by
  rw [HS2_eq]
  exact read_slabList arg11 (vAll x0 x1 x2) h off hoff inb

omit c arg2 harg2 arg3 harg3 arg4 harg4 x0 x1 x2 in
theorem read_mask (arg7 : Memref sig .tc .vmem S1x12x64 .f32) (harg7 : arg7.IsWhole) (x5 : Vec F S1x12x64 .f32) (h : Fin 12)
    (off : Fin 3 → Nat) (hoff : off = ![0, h.val, 0]) (inb : ∀ a, off a + S1x1x64.size a ≤ S1x12x64.size a) :
    View.readAt (Elt F) arg7.view (Rect.unit (s := S1x12x64) off S1x1x64.size inb).toLoadRect (harg7.unread x5) = maskRow x5 h := by
  rw [load_unread]
  subst hoff
  funext j
  show x5 _ = x5 _
  have hj0 : (j 0).val < 1 := (j 0).isLt
  have hj1 : (j 1).val < 1 := (j 1).isLt
  refine congrArg x5 (funext fun a => Fin.ext ?_)
  match a with
  | ⟨0, _⟩ => show 0 + 1 * (j 0).val = 0; omega
  | ⟨1, _⟩ => show h.val + 1 * (j 1).val = h.val; omega
  | ⟨2, _⟩ => show 0 + 1 * (j 2).val = (j 2).val; omega

end Cert.KernelIdeal.Scratch

end
-- ==== Proof.PiecesOut.lean ====
/-
  What the attention kernel's body leaves in its output block, as the function `bodyVal` of its six staged blocks.
  One trip of the body's loop reads heads `2k` and `2k + 1` of the three projection buffers and two mask rows, attends
  them, and stores the two results side by side as the [1024, 128] slab at columns `128·k …` of the head-output
  buffer: the slab is `pairSlab … k`, a block of `oAll`. The six trips' slabs tile the buffer, so what the body
  loads from it after the loop is `oAll`, and the stored output block is the output projection of that: `bodyVal`.
-/
import proofs.«426526_j16690242913074_2_alg».proof.Proof.ScratchReads

set_option maxRecDepth 16384

noncomputable section

namespace Cert.KernelIdeal.Pieces

open Cert.KernelIdeal Cert.KernelIdeal.Gen Cert.KernelIdeal.GenP Cert.KernelIdeal.BodyVal Cert.KernelIdeal.Scratch
open Idealize.ShloMosaic Idealize.ShloMosaic.ValueIdx Idealize.ShloMosaic.TcCoe Idealize.ShloMosaic.Tactic

variable {F : FTy → Type} [FloatOps F]

/-- Trip `k` of the loop as a pair index. -/
def k6 (k : Fin k0_t1_loop.trips) : Fin 6 := ⟨k.val, Nat.lt_of_lt_of_le k.isLt k0_t1_abs.2.1⟩

variable (c : Dev nD) (i : grid0.Coords) (arg2 : Memref sig .tc .vmem S1x1024x768 .f32) (harg2 : arg2.IsWhole) (arg3 : Memref sig .tc .vmem S768x2304 .bf16) (harg3 : arg3.IsWhole) (arg4 : Memref sig .tc .vmem S1x2304 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1x12x64 .f32) (harg7 : arg7.IsWhole) (arg8 : Memref sig .tc .vmem S1x1024x768 .f32) (harg8 : arg8.IsWhole) (arg9 : Memref sig .tc .vmem S12x1024x64 .bf16) (harg9 : arg9.IsWhole) (arg10 : Memref sig .tc .vmem S12x1024x64 .bf16) (harg10 : arg10.IsWhole) (arg11 : Memref sig .tc .vmem S12x1024x64 .bf16) (harg11 : arg11.IsWhole) (arg12 : Memref sig .tc .vmem S1024x768 .f32) (harg12 : arg12.IsWhole)
    (x0 : Vec F S1x1024x768 .f32) (x1 : Vec F S768x2304 .bf16) (x2 : Vec F S1x2304 .f32) (x3 : Vec F S768x768 .bf16) (x4 : Vec F S1x768 .f32) (x5 : Vec F S1x12x64 .f32)

/-- Trip `k` stores one piece: the pair slab `k` at columns `128·k …`. -/
theorem tripRun_eq (k : Fin k0_t1_loop.trips) :
    tripL_k0_t1 (F := F) Variants.none c none i tbM0_0 htbM0_0 arg2 harg2 arg3 harg3 arg4 harg4 arg5 harg5 arg6 harg6 arg7 harg7 arg8 harg8 arg9 harg9 arg10 harg10 arg11 harg11 arg12 harg12
        (kernelRun0_A.sl.r_7 c arg2 harg2 arg3 harg3 arg4 harg4 x0 x1 x2) (harg7.unread x5)
        (arg9.view.writes (Elt F) arg9.view.junk (kernelRun0_A.sl.HS0_12 c arg2 harg2 arg3 harg3 arg4 harg4 x0 x1 x2))
        (arg10.view.writes (Elt F) arg10.view.junk (kernelRun0_A.sl.HS1_12 c arg2 harg2 arg3 harg3 arg4 harg4 x0 x1 x2))
        (arg11.view.writes (Elt F) arg11.view.junk (kernelRun0_A.sl.HS2_12 c arg2 harg2 arg3 harg3 arg4 harg4 x0 x1 x2)) k
      = [⟨(Rect.unit (s := S1024x768) (k0_off6 k) S1024x128.size (k0_off6_inb k)), pairSlab x0 x1 x2 x5 (k6 k)⟩] := by
  unfold tripL_k0_t1 trip_k0_t1
  dsimp only
  unfold trip_k0_t1.sl.r trip_k0_t1.sl.r_1 trip_k0_t1.sl.r_2 trip_k0_t1.sl.r_3
  rw [read_q c arg2 harg2 arg3 harg3 arg4 harg4 x0 x1 x2 arg9 (hd0 (k6 k)) _ (k0_off2_eq k), read_k c arg2 harg2 arg3 harg3 arg4 harg4 x0 x1 x2 arg10 (hd0 (k6 k)) _ (k0_off2_eq k),
    read_v c arg2 harg2 arg3 harg3 arg4 harg4 x0 x1 x2 arg11 (hd0 (k6 k)) _ (k0_off2_eq k), read_mask arg7 harg7 x5 (hd0 (k6 k)) _ (k0_off3_eq k),
    read_q c arg2 harg2 arg3 harg3 arg4 harg4 x0 x1 x2 arg9 (hd1 (k6 k)) _ (k0_off4_eq k), read_k c arg2 harg2 arg3 harg3 arg4 harg4 x0 x1 x2 arg10 (hd1 (k6 k)) _ (k0_off4_eq k),
    read_v c arg2 harg2 arg3 harg3 arg4 harg4 x0 x1 x2 arg11 (hd1 (k6 k)) _ (k0_off4_eq k), read_mask arg7 harg7 x5 (hd1 (k6 k)) _ (k0_off5_eq k)]
  rfl

omit c i arg2 harg2 arg3 harg3 arg4 harg4 arg5 harg5 arg6 harg6 arg7 harg7 arg8 harg8 arg9 harg9 arg10 harg10 arg11 harg11 arg12 harg12 x3 x4 in
/-- The pair slab `k` is the block of `oAll` at columns `128·k … 128·k + 127`. -/
theorem pair_block (k : Fin k0_t1_loop.trips) (x : (Rect.unit (s := S1024x768) (k0_off6 k) S1024x128.size (k0_off6_inb k)).shape.Idx) :
    pairSlab x0 x1 x2 x5 (k6 k) x = oAll x0 x1 x2 x5 ((Rect.unit (s := S1024x768) (k0_off6 k) S1024x128.size (k0_off6_inb k)).emb x) := by
  have hx1 : (x 1).val < 128 := (x 1).isLt
  have o0 : k0_off6 k 0 = 0 := congrFun (k0_off6_eq k) 0
  have o1 : k0_off6 k 1 = 128 * k.val := congrFun (k0_off6_eq k) 1
  have e0 : ((Rect.unit (s := S1024x768) (k0_off6 k) S1024x128.size (k0_off6_inb k)).emb x 0).val = (x 0).val := by
    show k0_off6 k 0 + 1 * (x 0).val = _; omega
  have e1 : ((Rect.unit (s := S1024x768) (k0_off6 k) S1024x128.size (k0_off6_inb k)).emb x 1).val = 128 * k.val + (x 1).val := by
    show k0_off6 k 1 + 1 * (x 1).val = _; omega
  have hk : k6 k = (⟨((Rect.unit (s := S1024x768) (k0_off6 k) S1024x128.size (k0_off6_inb k)).emb x 1).val / 128, by have := ((Rect.unit (s := S1024x768) (k0_off6 k) S1024x128.size (k0_off6_inb k)).emb x 1).isLt; have h768 : ((Rect.unit (s := S1024x768) (k0_off6 k) S1024x128.size (k0_off6_inb k)).emb x 1).val < 768 := this; omega⟩ : Fin 6) :=
    Fin.ext (by show k.val = _ / 128; rw [e1]; omega)
  have hx : (x : S1024x128.Idx) = ix2 (⟨((Rect.unit (s := S1024x768) (k0_off6 k) S1024x128.size (k0_off6_inb k)).emb x 0).val, ((Rect.unit (s := S1024x768) (k0_off6 k) S1024x128.size (k0_off6_inb k)).emb x 0).isLt⟩ : Fin 1024) (⟨((Rect.unit (s := S1024x768) (k0_off6 k) S1024x128.size (k0_off6_inb k)).emb x 1).val % 128, Nat.mod_lt _ (by decide)⟩ : Fin 128) := by
    funext a
    match a with
    | ⟨0, _⟩ => exact Fin.ext e0.symm
    | ⟨1, _⟩ => exact Fin.ext (by show (x 1).val = _ % 128; rw [e1]; omega)
  exact congrArg₂ (pairSlab x0 x1 x2 x5) hk hx

/-- Every piece the trips before `n` stored is a block of `oAll`. -/
theorem pb_pieces : ∀ n, n ≤ k0_t1_loop.trips → ∀ p ∈ pb_k0_t1 (F := F) Variants.none c none i tbM0_0 htbM0_0 arg2 harg2 arg3 harg3 arg4 harg4 arg5 harg5 arg6 harg6 arg7 harg7 arg8 harg8 arg9 harg9 arg10 harg10 arg11 harg11 arg12 harg12
        (kernelRun0_A.sl.r_7 c arg2 harg2 arg3 harg3 arg4 harg4 x0 x1 x2) (harg7.unread x5)
        (arg9.view.writes (Elt F) arg9.view.junk (kernelRun0_A.sl.HS0_12 c arg2 harg2 arg3 harg3 arg4 harg4 x0 x1 x2))
        (arg10.view.writes (Elt F) arg10.view.junk (kernelRun0_A.sl.HS1_12 c arg2 harg2 arg3 harg3 arg4 harg4 x0 x1 x2))
        (arg11.view.writes (Elt F) arg11.view.junk (kernelRun0_A.sl.HS2_12 c arg2 harg2 arg3 harg3 arg4 harg4 x0 x1 x2)) n,
      ∀ x : p.1.shape.Idx, p.2 x = oAll x0 x1 x2 x5 (p.1.emb x)
  | 0, _, p, hp => by rw [pb_k0_t1] at hp; exact absurd hp List.not_mem_nil
  | n + 1, hn, p, hp => by
    have hk : n < k0_t1_loop.trips := hn
    have e : pb_k0_t1 (F := F) Variants.none c none i tbM0_0 htbM0_0 arg2 harg2 arg3 harg3 arg4 harg4 arg5 harg5 arg6 harg6 arg7 harg7 arg8 harg8 arg9 harg9 arg10 harg10 arg11 harg11 arg12 harg12
        (kernelRun0_A.sl.r_7 c arg2 harg2 arg3 harg3 arg4 harg4 x0 x1 x2) (harg7.unread x5)
        (arg9.view.writes (Elt F) arg9.view.junk (kernelRun0_A.sl.HS0_12 c arg2 harg2 arg3 harg3 arg4 harg4 x0 x1 x2))
        (arg10.view.writes (Elt F) arg10.view.junk (kernelRun0_A.sl.HS1_12 c arg2 harg2 arg3 harg3 arg4 harg4 x0 x1 x2))
        (arg11.view.writes (Elt F) arg11.view.junk (kernelRun0_A.sl.HS2_12 c arg2 harg2 arg3 harg3 arg4 harg4 x0 x1 x2)) (n + 1)
        = tripL_k0_t1 (F := F) Variants.none c none i tbM0_0 htbM0_0 arg2 harg2 arg3 harg3 arg4 harg4 arg5 harg5 arg6 harg6 arg7 harg7 arg8 harg8 arg9 harg9 arg10 harg10 arg11 harg11 arg12 harg12
        (kernelRun0_A.sl.r_7 c arg2 harg2 arg3 harg3 arg4 harg4 x0 x1 x2) (harg7.unread x5)
        (arg9.view.writes (Elt F) arg9.view.junk (kernelRun0_A.sl.HS0_12 c arg2 harg2 arg3 harg3 arg4 harg4 x0 x1 x2))
        (arg10.view.writes (Elt F) arg10.view.junk (kernelRun0_A.sl.HS1_12 c arg2 harg2 arg3 harg3 arg4 harg4 x0 x1 x2))
        (arg11.view.writes (Elt F) arg11.view.junk (kernelRun0_A.sl.HS2_12 c arg2 harg2 arg3 harg3 arg4 harg4 x0 x1 x2)) ⟨n, hk⟩ ++ pb_k0_t1 (F := F) Variants.none c none i tbM0_0 htbM0_0 arg2 harg2 arg3 harg3 arg4 harg4 arg5 harg5 arg6 harg6 arg7 harg7 arg8 harg8 arg9 harg9 arg10 harg10 arg11 harg11 arg12 harg12
        (kernelRun0_A.sl.r_7 c arg2 harg2 arg3 harg3 arg4 harg4 x0 x1 x2) (harg7.unread x5)
        (arg9.view.writes (Elt F) arg9.view.junk (kernelRun0_A.sl.HS0_12 c arg2 harg2 arg3 harg3 arg4 harg4 x0 x1 x2))
        (arg10.view.writes (Elt F) arg10.view.junk (kernelRun0_A.sl.HS1_12 c arg2 harg2 arg3 harg3 arg4 harg4 x0 x1 x2))
        (arg11.view.writes (Elt F) arg11.view.junk (kernelRun0_A.sl.HS2_12 c arg2 harg2 arg3 harg3 arg4 harg4 x0 x1 x2)) n :=
      pb_k0_t1_succ (F := F) Variants.none c none i tbM0_0 htbM0_0 arg2 harg2 arg3 harg3 arg4 harg4 arg5 harg5 arg6 harg6 arg7 harg7 arg8 harg8 arg9 harg9 arg10 harg10 arg11 harg11 arg12 harg12
        (kernelRun0_A.sl.r_7 c arg2 harg2 arg3 harg3 arg4 harg4 x0 x1 x2) (harg7.unread x5)
        (arg9.view.writes (Elt F) arg9.view.junk (kernelRun0_A.sl.HS0_12 c arg2 harg2 arg3 harg3 arg4 harg4 x0 x1 x2))
        (arg10.view.writes (Elt F) arg10.view.junk (kernelRun0_A.sl.HS1_12 c arg2 harg2 arg3 harg3 arg4 harg4 x0 x1 x2))
        (arg11.view.writes (Elt F) arg11.view.junk (kernelRun0_A.sl.HS2_12 c arg2 harg2 arg3 harg3 arg4 harg4 x0 x1 x2)) ⟨n, hk⟩
    rw [e, tripRun_eq] at hp
    intro x
    rcases List.mem_append.mp hp with h | h
    · obtain rfl := List.mem_singleton.mp h
      exact pair_block x0 x1 x2 x5 ⟨n, hk⟩ x
    · exact pb_pieces n (Nat.le_of_succ_le hn) p h x

/-- The six slabs tile the head-output buffer: read back whole, it is `oAll`. -/
theorem canon_pb (n : ℕ) (hn : n = k0_t1_loop.trips) :
    View.canon (pb_k0_t1 (F := F) Variants.none c none i tbM0_0 htbM0_0 arg2 harg2 arg3 harg3 arg4 harg4 arg5 harg5 arg6 harg6 arg7 harg7 arg8 harg8 arg9 harg9 arg10 harg10 arg11 harg11 arg12 harg12
        (kernelRun0_A.sl.r_7 c arg2 harg2 arg3 harg3 arg4 harg4 x0 x1 x2) (harg7.unread x5)
        (arg9.view.writes (Elt F) arg9.view.junk (kernelRun0_A.sl.HS0_12 c arg2 harg2 arg3 harg3 arg4 harg4 x0 x1 x2))
        (arg10.view.writes (Elt F) arg10.view.junk (kernelRun0_A.sl.HS1_12 c arg2 harg2 arg3 harg3 arg4 harg4 x0 x1 x2))
        (arg11.view.writes (Elt F) arg11.view.junk (kernelRun0_A.sl.HS2_12 c arg2 harg2 arg3 harg3 arg4 harg4 x0 x1 x2)) n) = oAll x0 x1 x2 x5 := by
  subst hn
  funext y
  exact View.canon_apply_of_pieces _ _ (fun p hp x => pb_pieces c i arg2 harg2 arg3 harg3 arg4 harg4 arg5 harg5 arg6 harg6 arg7 harg7 arg8 harg8 arg9 harg9 arg10 harg10 arg11 harg11 arg12 harg12 x0 x1 x2 x5 _ le_rfl p hp x) y
    (View.cover_of_tiledL (pb_k0_t1 (F := F) Variants.none c none i tbM0_0 htbM0_0 arg2 harg2 arg3 harg3 arg4 harg4 arg5 harg5 arg6 harg6 arg7 harg7 arg8 harg8 arg9 harg9 arg10 harg10 arg11 harg11 arg12 harg12
        (kernelRun0_A.sl.r_7 c arg2 harg2 arg3 harg3 arg4 harg4 x0 x1 x2) (harg7.unread x5)
        (arg9.view.writes (Elt F) arg9.view.junk (kernelRun0_A.sl.HS0_12 c arg2 harg2 arg3 harg3 arg4 harg4 x0 x1 x2))
        (arg10.view.writes (Elt F) arg10.view.junk (kernelRun0_A.sl.HS1_12 c arg2 harg2 arg3 harg3 arg4 harg4 x0 x1 x2))
        (arg11.view.writes (Elt F) arg11.view.junk (kernelRun0_A.sl.HS2_12 c arg2 harg2 arg3 harg3 arg4 harg4 x0 x1 x2)) k0_t1_loop.trips) S1024x128.size (by sl_kernel_rfl) y)

/-- The output block the body leaves is `bodyVal` of the staged blocks. -/
theorem out_eq (xt0 : TbBuf0 (F := F) c tbM0_0) :
    out0_A_6 c i arg2 harg2 arg3 harg3 arg4 harg4 arg5 harg5 arg6 harg6 arg7 harg7 arg8 harg8 arg9 harg9 arg10 harg10 arg11 harg11 arg12 harg12 x0 x1 x2 x3 x4 x5 xt0 = bodyVal x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 x0 x1 x2 x3 x4 x5 xt0)]
  unfold kernelRun0_A
  dsimp only
  rw [View.canon_unit_zero (S := S1x1024x768) z3, canon_pb c i arg2 harg2 arg3 harg3 arg4 harg4 arg5 harg5 arg6 harg6 arg7 harg7 arg8 harg8 arg9 harg9 arg10 harg10 arg11 harg11 arg12 harg12 x0 x1 x2 x5 _ rfl,
    View.ld_unit_zero (S := S1024x768) z2, load_whole _ _ _ _ z2]
  unfold kernelRun0_A.sl.r_9
  rw [load_whole _ _ _ _ z2]
  rfl

end Cert.KernelIdeal.Pieces

end
-- ==== Proof.Blocks.lean ====
/-
  What each staged input block of the attention kernel holds, read at an index, in terms of the program's ARGUMENT
  arrays, at the ideal instance (a float is an extended real).

  The kernel runs on a grid of 8 points, one per batch row `t`. At point `t` its six input windows hold:
  * window 0: row `t` of the activations, a [1, 1024, 768] block of the [8, 1024, 768] argument: entry (0, n, k) is
    the argument's entry (t, n, k);
  * windows 1 and 3: the whole fused projection weight [768, 2304] and the whole output weight [768, 768], each the
    TRANSPOSE of its argument ([2304, 768], [768, 768]) with the format narrowed, which on extended reals is the
    identity: entry (k, o) is the argument's entry (o, k);
  * windows 2 and 4: the two bias vectors viewed as one-row matrices [1, 2304], [1, 768]: entry (0, o) is the
    argument's entry o (same row-major position);
  * window 5: one [1, 12, 64] slab of the [1000, 12, 64] table of per-head scales, the slab whose number is the word
    the prefetched integer table holds at `t`, read as an unsigned number: entry (0, h, d) is the table's entry (w, h, d).

  A block's element sits in its array, on each axis, at block index × block size + the coordinate inside the block;
  the block indices are the windows' index maps, read off the grid once (windows 0 to 4) or, for window 5, kept as
  the symbolic word of the prefetched table (every structural fact about that window is proved with the table's
  contents a variable, and the contents of the launch memory are put in last).
-/
import proofs.«426526_j16690242913074_2_alg».proof.Proof.Gen.KernelIdeal.Frame.Runs
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.ValueIdx
open Idealize.ShloMosaic.TcCoe

variable (m : (ℓ : Loc nD τ sig) → Buf (Elt Ideal) ℓ)

/-! ## The six input blocks at a grid point, each at its literal type -/

/-- Window 0's block: one batch row of the activations. -/
abbrev b0 (hO : Ok m) (c : Dev nD) (t : Fin (cfgM m hO).N) : Vec Ideal S1x1024x768 .f32 := iblk m hO c 0 t
/-- Window 1's block: the fused projection weight, transposed. -/
abbrev b1 (hO : Ok m) (c : Dev nD) (t : Fin (cfgM m hO).N) : Vec Ideal S768x2304 .bf16 := iblk m hO c 1 t
/-- Window 2's block: the fused projection bias as a one-row matrix. -/
abbrev b2 (hO : Ok m) (c : Dev nD) (t : Fin (cfgM m hO).N) : Vec Ideal S1x2304 .f32 := iblk m hO c 2 t
/-- Window 3's block: the output weight, transposed. -/
abbrev b3 (hO : Ok m) (c : Dev nD) (t : Fin (cfgM m hO).N) : Vec Ideal S768x768 .bf16 := iblk m hO c 3 t
/-- Window 4's block: the output bias as a one-row matrix. -/
abbrev b4 (hO : Ok m) (c : Dev nD) (t : Fin (cfgM m hO).N) : Vec Ideal S1x768 .f32 := iblk m hO c 4 t
/-- Window 5's block: the slab of per-head scales the prefetched table selects. -/
abbrev b5 (hO : Ok m) (c : Dev nD) (t : Fin (cfgM m hO).N) : Vec Ideal S1x12x64 .f32 := iblk m hO c 5 t

/-- The grid has 8 points, whatever the prefetched table holds. -/
theorem N_eq (hO : Ok m) : (cfgM m hO).N = 8 := N_0
/-- A grid point is a batch row. -/
theorem t_lt (hO : Ok m) (t : Fin (cfgM m hO).N) : t.val < 8 := lt_of_lt_of_eq t.isLt (N_eq m hO)

/-! ## Small tools: a property of the two or three axes, axis by axis -/

theorem fin2 {P : Fin 2 → Prop} (h0 : P 0) (h1 : P 1) : ∀ a, P a :=
  fun a => match a with | ⟨0, _⟩ => h0 | ⟨1, _⟩ => h1

theorem fin3 {P : Fin 3 → Prop} (h0 : P 0) (h1 : P 1) (h2 : P 2) : ∀ a, P a :=
  fun a => match a with | ⟨0, _⟩ => h0 | ⟨1, _⟩ => h1 | ⟨2, _⟩ => h2

/-! ## The block indices, at ANY admissible contents of the prefetched table

Windows 0 to 4 do not read the table: their block index at point `t` is decided over the eight points. -/

/-- Window 0's block index at point `t` is (t, 0, 0). -/
theorem index0 (a : (pcfg0 (F := Ideal)).Adm) : ∀ (t : Fin (cfg0 a).N) (i : Fin 3), ((cfg0 a).win 0).index t i = ![t.val, 0, 0] i :=
  (by decide +kernel : ∀ (t : Fin grid0.N) (i : Fin 3), cc0_transform_0 (grid0.coords t) i = ![t.val, 0, 0] i)
/-- Windows 1 to 4 stage their whole array: block index (0, 0) at every point. -/
theorem index1 (a : (pcfg0 (F := Ideal)).Adm) : ∀ (t : Fin (cfg0 a).N) (i : Fin 2), ((cfg0 a).win 1).index t i = 0 :=
  (by decide +kernel : ∀ (t : Fin grid0.N) (i : Fin 2), cc0_transform_1 (grid0.coords t) i = 0)
theorem index2 (a : (pcfg0 (F := Ideal)).Adm) : ∀ (t : Fin (cfg0 a).N) (i : Fin 2), ((cfg0 a).win 2).index t i = 0 :=
  (by decide +kernel : ∀ (t : Fin grid0.N) (i : Fin 2), cc0_transform_2 (grid0.coords t) i = 0)
theorem index3 (a : (pcfg0 (F := Ideal)).Adm) : ∀ (t : Fin (cfg0 a).N) (i : Fin 2), ((cfg0 a).win 3).index t i = 0 :=
  (by decide +kernel : ∀ (t : Fin grid0.N) (i : Fin 2), cc0_transform_3 (grid0.coords t) i = 0)
theorem index4 (a : (pcfg0 (F := Ideal)).Adm) : ∀ (t : Fin (cfg0 a).N) (i : Fin 2), ((cfg0 a).win 4).index t i = 0 :=
  (by decide +kernel : ∀ (t : Fin grid0.N) (i : Fin 2), cc0_transform_4 (grid0.coords t) i = 0)

/-- The grid has one axis: point `t`'s coordinate on it is `t`. -/
theorem coords0 : ∀ t : Fin grid0.N, (grid0.coords t 0).val = t.val := by decide

/-- Window 5's index map at table contents `pf` and a grid coordinate equal to `b`: (w, 0, 0), where `w` is the
    table's word at `b` read unsigned. The word is never evaluated: the map loads the table at offset `b` (a number
    below 8 survives the passage through a 32-bit word), and the one element of that unit rectangle is entry `b`. -/
theorem tr5 (h1 : ∀ i : grid0.Coords, ∀ a, (k0_off1 i) a + S1.size a ≤ S8.size a) (h2 : S1.numel = 1)
    (pf : pre0.Contents (Elt Ideal)) (i : grid0.Coords) (b : Fin 8) (hb : (i 0).val = b.val) :
    ∀ a : Fin 3, cc0_transform_5 h1 h2 pf i a = ![(pf 0 (ix1 b)).toNat, 0, 0] a := by
  refine fin3 ?_ rfl rfl
  unfold cc0_transform_5
  show (pf 0 _).toNat = (pf 0 (ix1 b)).toNat
  refine congrArg (fun j => (pf 0 j).toNat) (funext fun a => Fin.ext ?_)
  obtain rfl : a = (0 : Fin 1) := Subsingleton.elim (α := Fin 1) _ _
  show (BitVec.ofNat 32 (i 0).val).toNat + 1 * 0 = b.val
  have hi : (i 0).val < 8 := (i 0).isLt
  rw [BitVec.toNat_ofNat, hb]
  have hb8 : b.val < 8 := b.isLt
  omega

/-- Window 5's block index at point `t` is its index map at the admissible contents. -/
theorem index5 (a : (pcfg0 (F := Ideal)).Adm) (t : Fin (cfg0 a).N) :
    ((cfg0 a).win 5).index t = cc0_transform_5 k0_off1_inb numel1_S1 a.1 (grid0.coords t) := rfl

/-! ## Where a block's element sits in its array: block index × block size + the coordinate inside the block -/

/-- Window 0: (0, n, k) of the block at `t` is (t, n, k) of the array. -/
theorem emb0 (a : (pcfg0 (F := Ideal)).Adm) (t : Fin (cfg0 a).N) (z : Fin 1) (n : Fin 1024) (k : Fin 768) (ht : t.val < 8) :
    (((cfg0 a).win 0).blk t).view.emb (ix3 z n k) = (ix3 (⟨t.val, ht⟩ : Fin 8) n k : S8x1024x768.Idx) := by
  funext i; apply Fin.ext
  refine (Pipeline.Window.rect_emb_val ((cfg0 a).win 0) t (ix3 z n k) i).trans ?_
  rw [index0 a t i]
  revert i
  refine fin3 ?_ ?_ ?_
  · show t.val * 1 + z.val = t.val
    omega
  · show 0 * 1024 + n.val = n.val
    omega
  · show 0 * 768 + k.val = k.val
    omega

/-- Windows 1 to 4: the block is the whole array, an element keeps its coordinates. -/
theorem emb1 (a : (pcfg0 (F := Ideal)).Adm) (t : Fin (cfg0 a).N) (k : Fin 768) (o : Fin 2304) :
    (((cfg0 a).win 1).blk t).view.emb (ix2 k o) = (ix2 k o : S768x2304.Idx) :=
  funext fun i => Fin.ext (Pipeline.Window.rect_emb_val_of_index_zero ((cfg0 a).win 1) t i (index1 a t i) (ix2 k o))
theorem emb2 (a : (pcfg0 (F := Ideal)).Adm) (t : Fin (cfg0 a).N) (z : Fin 1) (o : Fin 2304) :
    (((cfg0 a).win 2).blk t).view.emb (ix2 z o) = (ix2 z o : S1x2304.Idx) :=
  funext fun i => Fin.ext (Pipeline.Window.rect_emb_val_of_index_zero ((cfg0 a).win 2) t i (index2 a t i) (ix2 z o))
theorem emb3 (a : (pcfg0 (F := Ideal)).Adm) (t : Fin (cfg0 a).N) (k j : Fin 768) :
    (((cfg0 a).win 3).blk t).view.emb (ix2 k j) = (ix2 k j : S768x768.Idx) :=
  funext fun i => Fin.ext (Pipeline.Window.rect_emb_val_of_index_zero ((cfg0 a).win 3) t i (index3 a t i) (ix2 k j))
theorem emb4 (a : (pcfg0 (F := Ideal)).Adm) (t : Fin (cfg0 a).N) (z : Fin 1) (j : Fin 768) :
    (((cfg0 a).win 4).blk t).view.emb (ix2 z j) = (ix2 z j : S1x768.Idx) :=
  funext fun i => Fin.ext (Pipeline.Window.rect_emb_val_of_index_zero ((cfg0 a).win 4) t i (index4 a t i) (ix2 z j))

/-- Window 5: (0, h, d) of the block at `t` is (w, h, d) of the array, `w` the table's word at `t` read unsigned
    (assumed below 1000, the array's extent; the word stays a symbol throughout). -/
theorem emb5 (a : (pcfg0 (F := Ideal)).Adm) (t : Fin (cfg0 a).N) (b : Fin 8) (hb : t.val = b.val)
    (hlt : (a.1 0 (ix1 b)).toNat < 1000) (z : Fin 1) (h : Fin 12) (d : Fin 64) :
    (((cfg0 a).win 5).blk t).view.emb (ix3 z h d) = (ix3 (⟨(a.1 0 (ix1 b)).toNat, hlt⟩ : Fin 1000) h d : S1000x12x64.Idx) := by
  funext i; apply Fin.ext
  refine (Pipeline.Window.rect_emb_val ((cfg0 a).win 5) t (ix3 z h d) i).trans ?_
  rw [index5 a t, tr5 k0_off1_inb numel1_S1 a.1 (grid0.coords t) b ((coords0 t).trans hb) i]
  generalize (a.1 0 (ix1 b)).toNat = w at hlt ⊢
  revert i
  refine fin3 ?_ ?_ ?_
  · show w * 1 + z.val = w
    omega
  · show 0 * 12 + h.val = h.val
    omega
  · show 0 * 64 + d.val = d.val
    omega

/-! ## The arrays the host operations wrote before the kernel, as terms of the arguments -/

/-- The fused projection weight as staged: the argument transposed, then narrowed to bf16. -/
theorem V1_eq (c : Dev nD) : (V m c main_v1 : S768x2304.Idx → EReal) =
    truncf (F := Ideal) .bf16 (transpose S768x2304 [1, 0] (m ((c : Thread nD τ).loc main_arg2) : S2304x768.Idx → EReal) transposes_S2304x768_S768x2304_1_0) bitsLt_bf16_f32 := by
  dsimp only [V, hostOps0]
  after_results <;> rfl

/-- The output weight as staged: the argument transposed, then narrowed to bf16. -/
theorem V3_eq (c : Dev nD) : (V m c main_v3 : S768x768.Idx → EReal) =
    truncf (F := Ideal) .bf16 (transpose S768x768 [1, 0] (m ((c : Thread nD τ).loc main_arg4) : S768x768.Idx → EReal) transposes_S768x768_S768x768_1_0) bitsLt_bf16_f32 := by
  dsimp only [V, hostOps0]
  after_results <;> rfl

/-- The fused projection bias as staged: the argument reshaped [2304] → [1, 2304]. -/
theorem V4_eq (c : Dev nD) : (V m c main_v4 : S1x2304.Idx → EReal) =
    shapeCast S1x2304 (m ((c : Thread nD τ).loc main_arg3) : S2304.Idx → EReal) shapeCasts_S2304_S1x2304 := by
  dsimp only [V, hostOps0]
  after_results <;> rfl

/-- The output bias as staged: the argument reshaped [768] → [1, 768]. -/
theorem V5_eq (c : Dev nD) : (V m c main_v5 : S1x768.Idx → EReal) =
    shapeCast S1x768 (m ((c : Thread nD τ).loc main_arg5) : S768.Idx → EReal) shapeCasts_S768_S1x768 := by
  dsimp only [V, hostOps0]
  after_results <;> rfl

/-! ## The blocks read at an index -/

/-- Window 0 at point `t`: entry (0, n, k) is the activations' entry (t, n, k). -/
theorem b0_apply (hO : Ok m) (c : Dev nD) (t : Fin (cfgM m hO).N) (n : Fin 1024) (k : Fin 768) :
    b0 m hO c t (ix3 (⟨0, by decide⟩ : Fin 1) n k)
      = m ((c : Thread nD τ).loc main_arg0) (ix3 (⟨t.val, t_lt m hO t⟩ : Fin 8) n k) := by
  rw [← V_main_arg0 m c]
  exact congrArg (V m c main_arg0) (emb0 (adm m hO) t ⟨0, by decide⟩ n k (t_lt m hO t))

/-- Window 1: entry (k, o) is the fused projection weight's entry (o, k): a transpose, and a change of format that is
    the identity on extended reals. -/
theorem b1_apply (hO : Ok m) (c : Dev nD) (t : Fin (cfgM m hO).N) (k : Fin 768) (o : Fin 2304) :
    b1 m hO c t (ix2 k o) = m ((c : Thread nD τ).loc main_arg2) (ix2 o k) := by
  refine (congrArg (V m c main_v1) (emb1 (adm m hO) t k o)).trans ?_
  refine (congrFun (V1_eq m c) (ix2 k o)).trans ?_
  show transpose S768x2304 [1, 0] (m ((c : Thread nD τ).loc main_arg2) : S2304x768.Idx → EReal) transposes_S2304x768_S768x2304_1_0 (ix2 k o) = _
  exact transpose_apply _ _ _ (ix2 k o) (ix2 o k) (fin2 rfl rfl)

/-- Window 2: entry (0, o) is the fused projection bias's entry o: the reshape keeps the row-major position. -/
theorem b2_apply (hO : Ok m) (c : Dev nD) (t : Fin (cfgM m hO).N) (o : Fin 2304) :
    b2 m hO c t (ix2 (⟨0, by decide⟩ : Fin 1) o) = m ((c : Thread nD τ).loc main_arg3) (ix1 o) := by
  refine (congrArg (V m c main_v4) (emb2 (adm m hO) t ⟨0, by decide⟩ o)).trans ?_
  refine (congrFun (V4_eq m c) (ix2 (⟨0, by decide⟩ : Fin 1) o)).trans ?_
  refine shapeCast_apply _ _ (ix2 (⟨0, by decide⟩ : Fin 1) o) (ix1 o) ?_
  rw [Shape.rowMajor_val_one, Shape.rowMajor_val_two]
  show o.val = 0 * 2304 + o.val
  omega

/-- Window 3: entry (k, j) is the output weight's entry (j, k). -/
theorem b3_apply (hO : Ok m) (c : Dev nD) (t : Fin (cfgM m hO).N) (k j : Fin 768) :
    b3 m hO c t (ix2 k j) = m ((c : Thread nD τ).loc main_arg4) (ix2 j k) := by
  refine (congrArg (V m c main_v3) (emb3 (adm m hO) t k j)).trans ?_
  refine (congrFun (V3_eq m c) (ix2 k j)).trans ?_
  show transpose S768x768 [1, 0] (m ((c : Thread nD τ).loc main_arg4) : S768x768.Idx → EReal) transposes_S768x768_S768x768_1_0 (ix2 k j) = _
  exact transpose_apply _ _ _ (ix2 k j) (ix2 j k) (fin2 rfl rfl)

/-- Window 4: entry (0, j) is the output bias's entry j. -/
theorem b4_apply (hO : Ok m) (c : Dev nD) (t : Fin (cfgM m hO).N) (j : Fin 768) :
    b4 m hO c t (ix2 (⟨0, by decide⟩ : Fin 1) j) = m ((c : Thread nD τ).loc main_arg5) (ix1 j) := by
  refine (congrArg (V m c main_v5) (emb4 (adm m hO) t ⟨0, by decide⟩ j)).trans ?_
  refine (congrFun (V5_eq m c) (ix2 (⟨0, by decide⟩ : Fin 1) j)).trans ?_
  refine shapeCast_apply _ _ (ix2 (⟨0, by decide⟩ : Fin 1) j) (ix1 j) ?_
  rw [Shape.rowMajor_val_one, Shape.rowMajor_val_two]
  show j.val = 0 * 768 + j.val
  omega

/-- Window 5 at point `t`: entry (0, h, d) is the scale table's entry (w, h, d), `w` the prefetched table's word at
    `t` read as an unsigned number, when that number names a slab of the table (`hlt`). -/
theorem b5_apply (hO : Ok m) (c : Dev nD) (t : Fin (cfgM m hO).N)
    (hlt : (tbl m 0 (ix1 (⟨t.val, t_lt m hO t⟩ : Fin 8))).toNat < 1000) (h : Fin 12) (d : Fin 64) :
    b5 m hO c t (ix3 (⟨0, by decide⟩ : Fin 1) h d)
      = m ((c : Thread nD τ).loc main_arg6) (ix3 (⟨(tbl m 0 (ix1 (⟨t.val, t_lt m hO t⟩ : Fin 8))).toNat, hlt⟩ : Fin 1000) h d) := by
  rw [← V_main_arg6 m c]
  exact congrArg (V m c main_arg6) (emb5 (adm m hO) t ⟨t.val, t_lt m hO t⟩ rfl hlt ⟨0, by decide⟩ h d)

end Cert.KernelIdeal.Blocks

end
-- ==== Proof.BodyMath.lean ====
/-
  The value the attention kernel's body writes back is the specification, index by index, at the ideal values.
  Inside out: the layout operations read at an index (the keepdims column forms the library does not spell); each of the
  three matrix products into a zero accumulator as the sum over its one contracted axis; the row maximum and the row sum
  of a [1024, 1024] block; the three projections of the row block (query scaled, key, value) as the specification's
  `proj`; one head (scores q·kᵀ, exp(s − max s) / Σ exp(s − max s), the weighted values, the mask factor) as a function
  `hOut` of its three slabs, which is the specification's `headOut`; two heads laid side by side (a column below 64 is
  the first head's, else the second's at that column less 64), so that column `c` of the six slabs side by side is head
  `c / 64` at feature `c % 64`; and the output projection with its bias. Both sides are the same sums in the same
  order: no algebra on the extended reals is used.
-/
import proofs.«426526_j16690242913074_2_alg».proof.Proof.BodyVal
import proofs.«426526_j16690242913074_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyMath

open Cert.KernelIdeal Cert.KernelIdeal.Gen Cert.KernelIdeal.BodyVal Idealize.ShloMosaic Idealize.ShloMosaic.ValueIdx

/-! ## Layout operations the library does not spell: the keepdims column forms -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

end Layout

/-! ## The three matrix products read at an index

A `tpu.matmul` into a zero accumulator is, at the ideal values, the sum over the one contracted axis of the operands'
products; the operand indices at output index `(p, c)` and contraction position `k` are written out per record. -/

theorem lhsP_0 (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem lhsP_1 (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
theorem rhsP_0 (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
theorem rhsP_1 (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- rows × columns: `[1024, 768] · [768, 768]` at `(p, c)` is `∑ k, lhs (p, k) · rhs (k, c)`. -/
theorem matmulP_apply (lhs : FVec Ideal S1024x768 .bf16) (rhs : FVec Ideal S768x768 .bf16) (p : Fin 1024) (c : Fin 768) :
    matmul dot_S1024x768_S768x768_S1024x768_1_0_0_1_n_n none lhs rhs (constant (F := Ideal) S1024x768 .f32 0x00000000#32) (ix2 p c)
      = ∑ k : Fin 768, lhs (ix2 p k) * rhs (ix2 k c) := by
  show FloatOps.matmul dot_S1024x768_S768x768_S1024x768_1_0_0_1_n_n none lhs rhs (constant (F := Ideal) S1024x768 .f32 0x00000000#32) (ix2 p c) = _
  rw [Ideal.matmul_constant_zero_apply, ← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 p c) ((contrEquiv1 dot_S1024x768_S768x768_S1024x768_1_0_0_1_n_n 768 rfl rfl).symm k) = ix2 p k := funext fun a => Fin.ext (by
    match a with
    | ⟨0, _⟩ => exact lhsP_0 _ _
    | ⟨1, _⟩ => exact (lhsP_1 _ _).trans hk)
  have er : dot_S1024x768_S768x768_S1024x768_1_0_0_1_n_n.rhsIdx (ix2 p c) ((contrEquiv1 dot_S1024x768_S768x768_S1024x768_1_0_0_1_n_n 768 rfl rfl).symm k) = ix2 k c := funext fun a => Fin.ext (by
    match a with
    | ⟨0, _⟩ => exact (rhsP_0 _ _).trans hk
    | ⟨1, _⟩ => exact rhsP_1 _ _)
  rw [el, er]

theorem lhsS_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhsS_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhsS_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhsS_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- rows × rows (`q·kᵀ`): `[1024, 64] · [1024, 64]ᵀ` at `(p, c)` is `∑ k, lhs (p, k) · rhs (c, k)`. -/
theorem matmulS_apply (lhs : FVec Ideal S1024x64 .bf16) (rhs : FVec Ideal S1024x64 .bf16) (p : Fin 1024) (c : Fin 1024) :
    matmul dot_S1024x64_S1024x64_S1024x1024_1_1_0_0_n_n none lhs rhs (constant (F := Ideal) S1024x1024 .f32 0x00000000#32) (ix2 p c)
      = ∑ k : Fin 64, lhs (ix2 p k) * rhs (ix2 c k) := by
  show FloatOps.matmul dot_S1024x64_S1024x64_S1024x1024_1_1_0_0_n_n none lhs rhs (constant (F := Ideal) S1024x1024 .f32 0x00000000#32) (ix2 p c) = _
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p c) ((contrEquiv1 dot_S1024x64_S1024x64_S1024x1024_1_1_0_0_n_n 64 rfl rfl).symm k) = ix2 p k := funext fun a => Fin.ext (by
    match a with
    | ⟨0, _⟩ => exact lhsS_0 _ _
    | ⟨1, _⟩ => exact (lhsS_1 _ _).trans hk)
  have er : dot_S1024x64_S1024x64_S1024x1024_1_1_0_0_n_n.rhsIdx (ix2 p c) ((contrEquiv1 dot_S1024x64_S1024x64_S1024x1024_1_1_0_0_n_n 64 rfl rfl).symm k) = ix2 c k := funext fun a => Fin.ext (by
    match a with
    | ⟨0, _⟩ => exact rhsS_0 _ _
    | ⟨1, _⟩ => exact (rhsS_1 _ _).trans hk)
  rw [el, er]

theorem lhsV_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhsV_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhsV_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhsV_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- rows × columns: `[1024, 1024] · [1024, 64]` at `(p, c)` is `∑ k, lhs (p, k) · rhs (k, c)`. -/
theorem matmulV_apply (lhs : FVec Ideal S1024x1024 .bf16) (rhs : FVec Ideal S1024x64 .bf16) (p : Fin 1024) (c : Fin 64) :
    matmul dot_S1024x1024_S1024x64_S1024x64_1_0_0_1_n_n none lhs rhs (constant (F := Ideal) S1024x64 .f32 0x00000000#32) (ix2 p c)
      = ∑ k : Fin 1024, lhs (ix2 p k) * rhs (ix2 k c) := by
  show FloatOps.matmul dot_S1024x1024_S1024x64_S1024x64_1_0_0_1_n_n none lhs rhs (constant (F := Ideal) S1024x64 .f32 0x00000000#32) (ix2 p c) = _
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p c) ((contrEquiv1 dot_S1024x1024_S1024x64_S1024x64_1_0_0_1_n_n 1024 rfl rfl).symm k) = ix2 p k := funext fun a => Fin.ext (by
    match a with
    | ⟨0, _⟩ => exact lhsV_0 _ _
    | ⟨1, _⟩ => exact (lhsV_1 _ _).trans hk)
  have er : dot_S1024x1024_S1024x64_S1024x64_1_0_0_1_n_n.rhsIdx (ix2 p c) ((contrEquiv1 dot_S1024x1024_S1024x64_S1024x64_1_0_0_1_n_n 1024 rfl rfl).symm k) = ix2 k c := funext fun a => Fin.ext (by
    match a with
    | ⟨0, _⟩ => exact (rhsV_0 _ _).trans hk
    | ⟨1, _⟩ => exact rhsV_1 _ _)
  rw [el, er]

/-! ## The two lane reductions of a [1024, 1024] block read at a row -/

/-- The index the reduction over axis 1 inserts at row `n`, position `m`, is `(n, m)`. -/
theorem lift_row (h : S1024x1024.Reduces [1] S1024) (n m : Fin 1024) : h.lift (ix1 n) m = ix2 n m :=
  funext fun a => Fin.ext (by
    match a with
    | ⟨0, _⟩ => rfl
    | ⟨1, _⟩ => rfl)

/-- The row sum: `∑ m, src (n, m)`. -/
theorem rowSum_apply (src : FVec Ideal S1024x1024 .f32) (h : S1024x1024.Reduces [1] S1024) (hφ : FTy.f32 = FTy.f32 ∨ FTy.f32 = FTy.bf16)
    (hacc : (0x00000000#32 : BitVec 32) = 0x00000000#32) (n : Fin 1024) :
    multiReduction (F := Ideal) .add [1] S1024 src 0x00000000#32 h hφ hacc (ix1 n) = ∑ m : Fin 1024, src (ix2 n m) := by
  refine (Ideal.multiReduction_add_single src 0x00000000#32 h hφ hacc (ix1 n)).trans ?_
  refine Finset.sum_congr rfl fun m _ => ?_
  exact congrArg src (lift_row h n m)

/-- The word of `-∞` is the bottom element. -/
theorem ofBits_neg_inf : Ideal.ofBits .f32 0xFF800000#32 = ⊥ := by simp [Ideal.ofBits, Ideal.ieee]

/-- The row maximum: the fold of `max` from `⊥` over `src (n, ·)`. -/
theorem rowMax_apply (src : FVec Ideal S1024x1024 .f32) (h : S1024x1024.Reduces [1] S1024) (hφ : FTy.f32 = FTy.f32 ∨ FTy.f32 = FTy.bf16)
    (hacc : (0xFF800000#32 : BitVec 32) = 0xFF800000#32) (n : Fin 1024) :
    multiReduction (F := Ideal) .maximumf [1] S1024 src 0xFF800000#32 h hφ hacc (ix1 n)
      = (Finset.univ : Finset (Fin 1024)).fold max ⊥ (fun m => src (ix2 n m)) := by
  refine (Ideal.multiReduction_maximumf_single src 0xFF800000#32 h hφ hacc (ix1 n)).trans ?_
  have e : (src ∘ h.lift (ix1 n)) = fun m : Fin 1024 => src (ix2 n m) := funext fun m => congrArg src (lift_row h n m)
  rw [e]
  show (Finset.univ : Finset (Fin 1024)).fold max (Ideal.ofBits .f32 0xFF800000#32) _ = _
  rw [ofBits_neg_inf]

/-! ## The three projections of the row block -/

/-- The row block narrowed: `(n, c)` reads the staged block at `(0, n, c)`. -/
theorem pay5_apply (x0 : Vec Ideal S1x1024x768 .f32) (n : Fin 1024) (c : Fin 768) :
    k0_pay5 x0 (ix2 n c) = x0 (ix3 (0 : Fin 1) n c) := by
  unfold k0_pay5
  exact shapeCast_1ab_ab_apply x0 _ n c

/-- A bias row squeezed, given its unit axis back and laid over the 1024 rows reads the row at its column. -/
theorem biasRow_apply (b : Vec Ideal S1x768 .f32) (h1 : S1x768.ShapeCasts S768) (h2 : S768.ShapeCasts S1x768)
    (h3 : S1x768.Broadcasts S1024x768) (n : Fin 1024) (c : Fin 768) :
    broadcastTo S1024x768 (shapeCast S1x768 (shapeCast S768 b h1) h2) h3 (ix2 n c) = b (ix2 (0 : Fin 1) c) := by
  refine (broadcastTo_1b_ab_apply _ h3 n c).trans ?_
  refine (shapeCast_a_1a_apply _ h2 (0 : Fin 1) c).trans ?_
  exact shapeCast_1a_a_apply b h1 c

/-- The same for a bias already squeezed to a vector. -/
theorem biasVec_apply (b : FVec Ideal S768 .f32) (h2 : S768.ShapeCasts S1x768)
    (h3 : S1x768.Broadcasts S1024x768) (n : Fin 1024) (c : Fin 768) :
    broadcastTo S1024x768 (shapeCast S1x768 b h2) h3 (ix2 n c) = b (ix1 c) := by
  refine (broadcastTo_1b_ab_apply _ h3 n c).trans ?_
  exact shapeCast_a_1a_apply _ h2 (0 : Fin 1) c

/-- The query projection: the row times the weight column, plus the bias, times the scale word. -/
theorem pay6_apply (x0 : Vec Ideal S1x1024x768 .f32) (w : Vec Ideal S768x768 .bf16) (b : Vec Ideal S1x768 .f32)
    (n : Fin 1024) (c : Fin 768) :
    k0_pay6 x0 w b (ix2 n c)
      = ((∑ k : Fin 768, x0 (ix3 (0 : Fin 1) n k) * w (ix2 k c)) + b (ix2 (0 : Fin 1) c)) * Ideal.ofBits .f32 0x3E000000#32 := by
  unfold k0_pay6
  show (matmul dot_S1024x768_S768x768_S1024x768_1_0_0_1_n_n none (k0_pay5 x0) (shapeCast S768x768 w shapeCasts_S768x768_S768x768)
        (constant (F := Ideal) S1024x768 .f32 0x00000000#32) (ix2 n c)
      + broadcastTo S1024x768 (shapeCast S1x768 (shapeCast S768 b shapeCasts_S1x768_S768) shapeCasts_S768_S1x768)
          broadcasts_S1x768_S1024x768 (ix2 n c)) * Ideal.ofBits .f32 0x3E000000#32 = _
  rw [matmulP_apply, biasRow_apply, shapeCast_self]
  simp only [pay5_apply]

/-- The key projection: the row times the weight column, plus the bias. -/
theorem pay20_apply (v2 : FVec Ideal S1024x768 .bf16) (w : Vec Ideal S768x768 .bf16) (b : Vec Ideal S1x768 .f32)
    (n : Fin 1024) (c : Fin 768) :
    k0_pay20 v2 w b (ix2 n c) = (∑ k : Fin 768, v2 (ix2 n k) * w (ix2 k c)) + b (ix2 (0 : Fin 1) c) := by
  unfold k0_pay20
  show matmul dot_S1024x768_S768x768_S1024x768_1_0_0_1_n_n none v2 (shapeCast S768x768 w shapeCasts_S768x768_S768x768)
        (constant (F := Ideal) S1024x768 .f32 0x00000000#32) (ix2 n c)
      + broadcastTo S1024x768 (shapeCast S1x768 (shapeCast S768 b shapeCasts_S1x768_S768) shapeCasts_S768_S1x768)
          broadcasts_S1x768_S1024x768 (ix2 n c) = _
  rw [matmulP_apply, biasRow_apply, shapeCast_self]

/-- The value projection's product … -/
theorem pay34_apply (v2 : FVec Ideal S1024x768 .bf16) (w : Vec Ideal S768x768 .bf16) (n : Fin 1024) (c : Fin 768) :
    k0_pay34 v2 w (ix2 n c) = ∑ k : Fin 768, v2 (ix2 n k) * w (ix2 k c) := by
  unfold k0_pay34
  show matmul dot_S1024x768_S768x768_S1024x768_1_0_0_1_n_n none v2 (shapeCast S768x768 w shapeCasts_S768x768_S768x768)
        (constant (F := Ideal) S1024x768 .f32 0x00000000#32) (ix2 n c) = _
  rw [matmulP_apply, shapeCast_self]

/-- … its bias squeezed … -/
theorem pay35_apply (b : Vec Ideal S1x768 .f32) (c : Fin 768) : k0_pay35 b (ix1 c) = b (ix2 (0 : Fin 1) c) := by
  unfold k0_pay35
  exact shapeCast_1a_a_apply b _ c

/-- … and their sum. -/
theorem pay36_apply (v121 : FVec Ideal S1024x768 .f32) (v123 : FVec Ideal S768 .f32) (n : Fin 1024) (c : Fin 768) :
    k0_pay36 v121 v123 (ix2 n c) = v121 (ix2 n c) + v123 (ix1 c) := by
  unfold k0_pay36
  show v121 (ix2 n c) + broadcastTo S1024x768 (shapeCast S1x768 v123 shapeCasts_S768_S1x768) broadcasts_S1x768_S1024x768 (ix2 n c) = _
  rw [biasVec_apply]

/-! ## One head's attention as a function of its three slabs

Over plain arrays: `q`, `k`, `v` are a head's [1024, 64] query, key and value slabs and `mr` its mask row. -/

section Head
variable (q k v : Fin 1024 → Fin 64 → EReal) (mr : Fin 64 → EReal)

/-- The score of query row `n` against key row `m`. -/
def hScore (n m : Fin 1024) : EReal := ∑ e : Fin 64, q n e * k m e
/-- The largest score of row `n`. -/
def hMax (n : Fin 1024) : EReal := (Finset.univ : Finset (Fin 1024)).fold max ⊥ (fun m => hScore q k n m)
/-- The unnormalised softmax weight. -/
def hWeight (n m : Fin 1024) : EReal := Ideal.exp (hScore q k n m - hMax q k n)
/-- The normaliser of row `n`. -/
def hDenom (n : Fin 1024) : EReal := ∑ m : Fin 1024, hWeight q k n m
/-- The head's output at row `n`, feature `d`, times the mask factor. -/
def hOut (n : Fin 1024) (d : Fin 64) : EReal :=
  (∑ m : Fin 1024, Ideal.div (hWeight q k n m) (hDenom q k n) * v m d) * mr d

end Head

/-- The exponential at an index is the exponential of the element. -/
theorem exp_apply {s : Shape} {φ : FTy} (a : FVec Ideal s φ) (i : s.Idx) : exp a i = Ideal.exp (a i) := rfl

/-- A [1, 1024, 64] slab viewed [1024, 64]. -/
theorem slab_apply {α : Type} (X : S1x1024x64.Idx → α) (h : S1x1024x64.ShapeCasts S1024x64) (n : Fin 1024) (e : Fin 64) :
    shapeCast S1024x64 X h (ix2 n e) = X (ix3 (0 : Fin 1) n e) :=
  shapeCast_1ab_ab_apply X h n e

/-- A per-row vector as a column laid over the 1024 positions of each row. -/
theorem colBroadcast_apply {α : Type} (r : S1024.Idx → α) (h1 : S1024.ShapeCasts S1024x1) (h2 : S1024x1.Broadcasts S1024x1024)
    (n m : Fin 1024) : broadcastTo S1024x1024 (shapeCast S1024x1 r h1) h2 (ix2 n m) = r (ix1 n) := by
  refine (broadcastTo_a1_ab_apply _ h2 n m).trans ?_
  exact shapeCast_a_a1_apply r h1 n (0 : Fin 1)

/-- The mask row laid over the 1024 rows. -/
theorem maskBroadcast_apply {α : Type} (M : S1x1x64.Idx → α) (h1 : S1x1x64.ShapeCasts S64) (h2 : S64.ShapeCasts S1x64)
    (h3 : S1x64.Broadcasts S1024x64) (n : Fin 1024) (d : Fin 64) :
    broadcastTo S1024x64 (shapeCast S1x64 (shapeCast S64 M h1) h2) h3 (ix2 n d) = M (ix3 (0 : Fin 1) (0 : Fin 1) d) := by
  refine (broadcastTo_1b_ab_apply _ h3 n d).trans ?_
  refine (shapeCast_a_1a_apply _ h2 (0 : Fin 1) d).trans ?_
  exact shapeCast_11a_a_apply M h1 d

/-- One head of the kernel: scores, row-wise softmax, weighted values, mask. -/
theorem pay2_apply (Q K V : Vec Ideal S1x1024x64 .bf16) (M : Vec Ideal S1x1x64 .f32) (n : Fin 1024) (d : Fin 64) :
    k0_pay2 Q K V M (ix2 n d)
      = hOut (fun n e => Q (ix3 (0 : Fin 1) n e)) (fun m e => K (ix3 (0 : Fin 1) m e)) (fun m e => V (ix3 (0 : Fin 1) m e))
          (fun e => M (ix3 (0 : Fin 1) (0 : Fin 1) e)) n d := by
  unfold k0_pay2
  simp only [mulf_apply, matmulV_apply, truncf_apply, divf_apply, exp_apply, subf_apply, matmulS_apply, colBroadcast_apply,
    slab_apply, maskBroadcast_apply]
  rw [rowSum_apply, rowMax_apply]
  simp only [exp_apply, subf_apply, matmulS_apply, colBroadcast_apply, slab_apply]
  rw [rowMax_apply]
  simp only [matmulS_apply, slab_apply]
  unfold hOut hDenom hWeight hMax hScore
  with_reducible rfl

/-! ## Two heads side by side -/

section Concat
variable {α : Type}

/-- Two [1024, 64] blocks laid side by side: a column below 64 reads the first block at that column … -/
theorem concatPair_left (x₁ x₂ : S1024x64.Idx → α) (h : Shape.Concatenates [S1024x64, S1024x64] S1024x128 1)
    (n : Fin 1024) (j : Fin 128) (hj : j.val < 64) :
    concatenate S1024x128 1 [⟨S1024x64, x₁⟩, ⟨S1024x64, x₂⟩] h (ix2 n j) = x₁ (ix2 n (⟨j.val, hj⟩ : Fin 64)) :=
  concatenate_pair_apply_left 1 x₁ x₂ h (ix2 n j) rfl (ix2 n (⟨j.val, hj⟩ : Fin 64)) (fun b => by
    match b with
    | ⟨0, _⟩ => rfl
    | ⟨1, _⟩ => rfl)

/-- … and a column from 64 on reads the second block at that column less 64. -/
theorem concatPair_right (x₁ x₂ : S1024x64.Idx → α) (h : Shape.Concatenates [S1024x64, S1024x64] S1024x128 1)
    (n : Fin 1024) (j : Fin 128) (hj : 64 ≤ j.val) :
    concatenate S1024x128 1 [⟨S1024x64, x₁⟩, ⟨S1024x64, x₂⟩] h (ix2 n j)
      = x₂ (ix2 n (⟨j.val - 64, by have := j.isLt; omega⟩ : Fin 64)) :=
  concatenate_pair_apply_right 1 x₁ x₂ h (ix2 n j) rfl rfl (ix2 n (⟨j.val - 64, by have := j.isLt; omega⟩ : Fin 64))
    (fun b hb => by
      match b, hb with
      | ⟨0, _⟩, _ => rfl
      | ⟨1, _⟩, hb => exact absurd rfl hb)
    (by show (j.val - 64) + 64 = j.val; omega)

end Concat

/-- The second head of a pair is computed as the first is, and the two results are laid side by side. -/
theorem pay49_eq (A : FVec Ideal S1024x64 .f32) (Q K V : Vec Ideal S1x1024x64 .bf16) (M : Vec Ideal S1x1x64 .f32) :
    k0_pay49 A (k0_pay3 Q) (k0_pay4 K) V M
      = shapeCast S1024x128
          (concatenate S1024x128 1 [⟨S1024x64, A⟩, ⟨S1024x64, k0_pay2 Q K V M⟩] concatenates_S1024x64_S1024x64_S1024x128_d1)
          shapeCasts_S1024x128_S1024x128 := by
  unfold k0_pay49 k0_pay2 k0_pay3 k0_pay4
  rfl

theorem pay49_left (A : FVec Ideal S1024x64 .f32) (Q K V : Vec Ideal S1x1024x64 .bf16) (M : Vec Ideal S1x1x64 .f32)
    (n : Fin 1024) (j : Fin 128) (hj : j.val < 64) :
    k0_pay49 A (k0_pay3 Q) (k0_pay4 K) V M (ix2 n j) = A (ix2 n (⟨j.val, hj⟩ : Fin 64)) := by
  rw [pay49_eq, shapeCast_self]
  exact concatPair_left _ _ _ n j hj

theorem pay49_right (A : FVec Ideal S1024x64 .f32) (Q K V : Vec Ideal S1x1024x64 .bf16) (M : Vec Ideal S1x1x64 .f32)
    (n : Fin 1024) (j : Fin 128) (hj : 64 ≤ j.val) :
    k0_pay49 A (k0_pay3 Q) (k0_pay4 K) V M (ix2 n j)
      = k0_pay2 Q K V M (ix2 n (⟨j.val - 64, by have := j.isLt; omega⟩ : Fin 64)) := by
  rw [pay49_eq, shapeCast_self]
  exact concatPair_right _ _ _ n j hj

/-! ## The kernel's projections are the specification's -/

section Assembly
variable (x0 : Vec Ideal S1x1024x768 .f32) (x1 : Vec Ideal S768x2304 .bf16) (x2 : Vec Ideal S1x2304 .f32)
  (x3 : Vec Ideal S768x768 .bf16) (x4 : Vec Ideal S1x768 .f32) (x5 : Vec Ideal S1x12x64 .f32)

/-- The staged blocks as plain arrays: the row block, the fused weight and bias, the mask block. -/
abbrev rowsOf : Fin 1024 → Fin 768 → EReal := fun n c => x0 (ix3 (⟨0, by decide⟩ : Fin 1) n c)
abbrev fusedWOf : Fin 768 → Fin 2304 → EReal := fun c o => x1 (ix2 c o)
abbrev fusedBOf : Fin 2304 → EReal := fun o => x2 (ix2 (⟨0, by decide⟩ : Fin 1) o)
abbrev maskOf : Fin 12 → Fin 64 → EReal := fun h d => x5 (ix3 (⟨0, by decide⟩ : Fin 1) h d)

/-- Column `c` of part `p` of the fused projection. -/
def pcol (p : Fin 3) (c : Fin 768) : Fin 2304 := ⟨p.val * 768 + c.val, by omega⟩

/-- Head `h`'s feature `e` of part `p` is the specification's column. -/
theorem pcol_head (p : Fin 3) (h : Fin 12) (e : Fin 64) (hb : h.val * 64 + e.val < 768) :
    pcol p (⟨h.val * 64 + e.val, hb⟩ : Fin 768) = Cert.AttnSpec.col p h e :=
  Fin.ext (by show p.val * 768 + (h.val * 64 + e.val) = p.val * 768 + h.val * 64 + e.val; omega)

/-- The scaled query projection at `(n, c)`. -/
theorem qAll_apply (n : Fin 1024) (c : Fin 768) :
    qAll x0 x1 x2 (ix2 n c) = Cert.AttnSpec.proj (rowsOf x0) (fusedWOf x1) (fusedBOf x2) n (pcol 0 c) * Cert.AttnSpec.scale := by
  unfold qAll
  rw [pay6_apply]
  rfl

/-- The key projection at `(n, c)`. -/
theorem kAll_apply (n : Fin 1024) (c : Fin 768) :
    kAll x0 x1 x2 (ix2 n c) = Cert.AttnSpec.proj (rowsOf x0) (fusedWOf x1) (fusedBOf x2) n (pcol 1 c) := by
  unfold kAll
  rw [pay20_apply]
  simp only [pay5_apply]
  rfl

/-- The value projection at `(n, c)`. -/
theorem vAll_apply (n : Fin 1024) (c : Fin 768) :
    vAll x0 x1 x2 (ix2 n c) = Cert.AttnSpec.proj (rowsOf x0) (fusedWOf x1) (fusedBOf x2) n (pcol 2 c) := by
  unfold vAll
  rw [pay36_apply, pay34_apply, pay35_apply]
  simp only [pay5_apply]
  rfl

/-! ## One head of the kernel is the specification's head -/

/-- The specification's head output is the head function of its scaled query, key and value columns and its mask row. -/
theorem headOut_eq_hOut (xb : Fin 1024 → Fin 768 → EReal) (wq : Fin 768 → Fin 2304 → EReal) (bq : Fin 2304 → EReal)
    (mk : Fin 12 → Fin 64 → EReal) (h : Fin 12) (n : Fin 1024) (d : Fin 64) :
    Cert.AttnSpec.headOut xb wq bq mk h n d
      = hOut (fun n e => Cert.AttnSpec.proj xb wq bq n (Cert.AttnSpec.col 0 h e) * Cert.AttnSpec.scale)
          (fun m e => Cert.AttnSpec.proj xb wq bq m (Cert.AttnSpec.col 1 h e))
          (fun m e => Cert.AttnSpec.proj xb wq bq m (Cert.AttnSpec.col 2 h e)) (fun e => mk h e) n d := by
  unfold Cert.AttnSpec.headOut Cert.AttnSpec.denom Cert.AttnSpec.weight Cert.AttnSpec.rowMax Cert.AttnSpec.score
    hOut hDenom hWeight hMax hScore
  with_reducible rfl

/-- Head `h` as the kernel computes it from its three slabs and its mask row. -/
def headK (h : Fin 12) : FVec Ideal S1024x64 .f32 :=
  k0_pay2 (headSlab (qAll x0 x1 x2) h) (headSlab (kAll x0 x1 x2) h) (headSlab (vAll x0 x1 x2) h) (maskRow x5 h)

theorem headK_apply (h : Fin 12) (n : Fin 1024) (d : Fin 64) :
    headK x0 x1 x2 x5 h (ix2 n d) = Cert.AttnSpec.headOut (rowsOf x0) (fusedWOf x1) (fusedBOf x2) (maskOf x5) h n d := by
  unfold headK
  rw [pay2_apply, headOut_eq_hOut]
  have eq : (fun (n : Fin 1024) (e : Fin 64) => headSlab (qAll x0 x1 x2) h (ix3 (0 : Fin 1) n e))
      = fun n e => Cert.AttnSpec.proj (rowsOf x0) (fusedWOf x1) (fusedBOf x2) n (Cert.AttnSpec.col 0 h e) * Cert.AttnSpec.scale :=
    funext fun n => funext fun e => by
      show qAll x0 x1 x2 (ix2 n (⟨h.val * 64 + e.val, by omega⟩ : Fin 768)) = _
      rw [qAll_apply, pcol_head]
  have ek : (fun (m : Fin 1024) (e : Fin 64) => headSlab (kAll x0 x1 x2) h (ix3 (0 : Fin 1) m e))
      = fun m e => Cert.AttnSpec.proj (rowsOf x0) (fusedWOf x1) (fusedBOf x2) m (Cert.AttnSpec.col 1 h e) :=
    funext fun m => funext fun e => by
      show kAll x0 x1 x2 (ix2 m (⟨h.val * 64 + e.val, by omega⟩ : Fin 768)) = _
      rw [kAll_apply, pcol_head]
  have ev : (fun (m : Fin 1024) (e : Fin 64) => headSlab (vAll x0 x1 x2) h (ix3 (0 : Fin 1) m e))
      = fun m e => Cert.AttnSpec.proj (rowsOf x0) (fusedWOf x1) (fusedBOf x2) m (Cert.AttnSpec.col 2 h e) :=
    funext fun m => funext fun e => by
      show vAll x0 x1 x2 (ix2 m (⟨h.val * 64 + e.val, by omega⟩ : Fin 768)) = _
      rw [vAll_apply, pcol_head]
  rw [eq, ek, ev]
  rfl

/-! ## The pair slabs, the six slabs side by side, and the output projection -/

theorem pairSlab_left (k : Fin 6) (n : Fin 1024) (j : Fin 128) (hj : j.val < 64) :
    pairSlab x0 x1 x2 x5 k (ix2 n j) = headK x0 x1 x2 x5 (hd0 k) (ix2 n (⟨j.val, hj⟩ : Fin 64)) := by
  unfold pairSlab headK
  exact pay49_left _ _ _ _ _ n j hj

theorem pairSlab_right (k : Fin 6) (n : Fin 1024) (j : Fin 128) (hj : 64 ≤ j.val) :
    pairSlab x0 x1 x2 x5 k (ix2 n j)
      = headK x0 x1 x2 x5 (hd1 k) (ix2 n (⟨j.val - 64, by have := j.isLt; omega⟩ : Fin 64)) := by
  unfold pairSlab headK
  exact pay49_right _ _ _ _ _ n j hj

/-- Column `c` of the concatenated head outputs belongs to head `c / 64` at feature `c % 64`. -/
theorem oAll_apply (n : Fin 1024) (c : Fin 768) :
    oAll x0 x1 x2 x5 (ix2 n c)
      = Cert.AttnSpec.headOut (rowsOf x0) (fusedWOf x1) (fusedBOf x2) (maskOf x5) (Cert.AttnSpec.headOf c) n (Cert.AttnSpec.featOf c) := by
  have hc := c.isLt
  show pairSlab x0 x1 x2 x5 (⟨c.val / 128, by omega⟩ : Fin 6) (ix2 n (⟨c.val % 128, by omega⟩ : Fin 128)) = _
  by_cases hj : c.val % 128 < 64
  · rw [pairSlab_left x0 x1 x2 x5 _ n _ hj, headK_apply]
    have eh : hd0 (⟨c.val / 128, by omega⟩ : Fin 6) = Cert.AttnSpec.headOf c :=
      Fin.ext (by show 2 * (c.val / 128) = c.val / 64; omega)
    have ef : (⟨c.val % 128, hj⟩ : Fin 64) = Cert.AttnSpec.featOf c :=
      Fin.ext (by show c.val % 128 = c.val % 64; omega)
    rw [eh, ef]
  · have hj' : 64 ≤ c.val % 128 := Nat.le_of_not_lt hj
    rw [pairSlab_right x0 x1 x2 x5 _ n _ hj', headK_apply]
    have eh : hd1 (⟨c.val / 128, by omega⟩ : Fin 6) = Cert.AttnSpec.headOf c :=
      Fin.ext (by show 2 * (c.val / 128) + 1 = c.val / 64; omega)
    have ef : (⟨c.val % 128 - 64, by omega⟩ : Fin 64) = Cert.AttnSpec.featOf c :=
      Fin.ext (by show c.val % 128 - 64 = c.val % 64; omega)
    rw [eh, ef]

/-- The output projection's product. -/
theorem pay50_apply (O : Vec Ideal S1024x768 .f32) (w : Vec Ideal S768x768 .bf16) (n : Fin 1024) (j : Fin 768) :
    k0_pay50 O w (ix2 n j) = ∑ c : Fin 768, O (ix2 n c) * w (ix2 c j) := by
  unfold k0_pay50
  show matmul dot_S1024x768_S768x768_S1024x768_1_0_0_1_n_n none (truncf .bf16 O bitsLt_bf16_f32)
        (shapeCast S768x768 w shapeCasts_S768x768_S768x768) (constant (F := Ideal) S1024x768 .f32 0x00000000#32) (ix2 n j) = _
  rw [matmulP_apply, shapeCast_self]
  rfl

/-- The output bias squeezed. -/
theorem pay51_apply (b : Vec Ideal S1x768 .f32) (j : Fin 768) : k0_pay51 b (ix1 j) = b (ix2 (0 : Fin 1) j) := by
  unfold k0_pay51
  exact shapeCast_1a_a_apply b _ j

/-- The bias added and the leading unit axis given back. -/
theorem pay1_apply (v181 : FVec Ideal S1024x768 .f32) (v183 : FVec Ideal S768 .f32) (u : Fin 1) (n : Fin 1024) (j : Fin 768) :
    k0_pay1 v181 v183 (ix3 u n j) = v181 (ix2 n j) + v183 (ix1 j) := by
  unfold k0_pay1
  refine (shapeCast_ab_1ab_apply _ _ u n j).trans ?_
  show v181 (ix2 n j) + broadcastTo S1024x768 (shapeCast S1x768 v183 shapeCasts_S768_S1x768) broadcasts_S1x768_S1024x768 (ix2 n j) = _
  rw [biasVec_apply]

end Assembly

/-- THE KERNEL BODY'S VALUE IS THE SPECIFICATION, index by index. -/
theorem bodyVal_apply
    (x0 : Vec Ideal S1x1024x768 .f32) (x1 : Vec Ideal S768x2304 .bf16) (x2 : Vec Ideal S1x2304 .f32)
    (x3 : Vec Ideal S768x768 .bf16) (x4 : Vec Ideal S1x768 .f32) (x5 : Vec Ideal S1x12x64 .f32)
    (n : Fin 1024) (j : Fin 768) :
    bodyVal (F := Ideal) x0 x1 x2 x3 x4 x5 (ix3 (⟨0, by decide⟩ : Fin 1) n j)
      = Cert.AttnSpec.attnBlock (fun n c => x0 (ix3 (⟨0, by decide⟩ : Fin 1) n c)) (fun c o => x1 (ix2 c o))
          (fun o => x2 (ix2 (⟨0, by decide⟩ : Fin 1) o)) (fun c j => x3 (ix2 c j))
          (fun j => x4 (ix2 (⟨0, by decide⟩ : Fin 1) j)) (fun h d => x5 (ix3 (⟨0, by decide⟩ : Fin 1) h d)) n j := by
  unfold bodyVal
  rw [pay1_apply, pay50_apply, pay51_apply]
  simp only [oAll_apply]
  rfl

end Cert.KernelIdeal.BodyMath
end
-- ==== Proof.KernelValue.lean ====
/-
  The idealized kernel's run ends with its result array at the layer's result, as one function of the launch
  memory's seven argument arrays. The kernel runs on a grid of eight points, one per batch row. At point t the body
  writes back its value on the six staged blocks; those blocks are row t of the activations, the two weights
  transposed, the two biases as one-row matrices and the mask row of t's label, so the body's value at (0, n, j) is the
  layer's result at (t, n, j): point t writes back block t of the result. Entry (b, n, j) of the array is entry
  (0, n, j) of point b's block, so the eight blocks cover the array, and the array ends holding the result. The
  argument arrays are read off the frame run as the frame certificate reads them.
-/
import proofs.«426526_j16690242913074_2_alg».proof.Proof.PiecesOut
import proofs.«426526_j16690242913074_2_alg».proof.Proof.Blocks
import proofs.«426526_j16690242913074_2_alg».proof.Proof.SpecAll
import proofs.«426526_j16690242913074_2_alg».proof.Proof.PreFacts
import proofs.«426526_j16690242913074_2_alg».proof.Proof.BodyMath
import Idealize.ShloMosaic.Lib.Pipeline.Value

noncomputable section

namespace Cert.KernelIdeal.KernelValue

open Cert.KernelIdeal Cert.KernelIdeal.Gen Cert.KernelIdeal.GenP Cert.KernelIdeal.BodyVal Cert.KernelIdeal.Blocks Idealize.ShloMosaic Idealize.ShloMosaic.ValueIdx Idealize.ShloMosaic.TcCoe Idealize.SL.Sem

variable (m : (ℓ : Loc nD τ sig) → Buf (Elt Ideal) ℓ) (ρ : Dev nD → PrngReg)

/-! ## The output window: block index, and where a block's element sits in the result array -/

/-- The output window's block index at point t is (t, 0, 0), whatever the prefetched table holds. -/
theorem index6 (a : (pcfg0 (F := Ideal)).Adm) : ∀ (t : Fin (cfg0 a).N) (i : Fin 3), ((cfg0 a).win 6).index t i = ![t.val, 0, 0] i :=
  (by decide +kernel : ∀ (t : Fin grid0.N) (i : Fin 3), cc0_transform_6 (grid0.coords t) i = ![t.val, 0, 0] i)

/-- Entry (0, n, j) of the output block at point t is entry (t, n, j) of the result array. -/
theorem emb6 (a : (pcfg0 (F := Ideal)).Adm) (t : Fin (cfg0 a).N) (z : Fin 1) (n : Fin 1024) (j : Fin 768) (ht : t.val < 8) :
    (((cfg0 a).win 6).blk t).view.emb (ix3 z n j) = (ix3 (⟨t.val, ht⟩ : Fin 8) n j : S8x1024x768.Idx) := by
  funext i; apply Fin.ext
  refine (Pipeline.Window.rect_emb_val ((cfg0 a).win 6) t (ix3 z n j) i).trans ?_
  rw [index6 a t i]
  revert i
  refine fin3 ?_ ?_ ?_
  · show t.val * 1 + z.val = t.val
    omega
  · show 0 * 1024 + n.val = n.val
    omega
  · show 0 * 768 + j.val = j.val
    omega

/-! ## One block of the result: the body's value on blocks that are rows of the arguments -/

/-- If the six staged blocks hold row b of the activations, the two weights transposed, the two biases and the mask
    row of b's label, the body's value at (0, n, j) is the layer's result at (b, n, j). -/
theorem block_eq (x0 : Vec Ideal S1x1024x768 .f32) (x1 : Vec Ideal S768x2304 .bf16) (x2 : Vec Ideal S1x2304 .f32)
    (x3 : Vec Ideal S768x768 .bf16) (x4 : Vec Ideal S1x768 .f32) (x5 : Vec Ideal S1x12x64 .f32)
    (X : (⟨3, ![8, 1024, 768]⟩ : Shape).Idx → EReal) (Y : (⟨1, ![8]⟩ : Shape).Idx → BitVec 32)
    (W : (⟨2, ![2304, 768]⟩ : Shape).Idx → EReal) (Bq : (⟨1, ![2304]⟩ : Shape).Idx → EReal)
    (Pw : (⟨2, ![768, 768]⟩ : Shape).Idx → EReal) (Pb : (⟨1, ![768]⟩ : Shape).Idx → EReal)
    (Mk : (⟨3, ![1000, 12, 64]⟩ : Shape).Idx → EReal) (hy : ∀ b : Fin 8, (Y (ix1 b)).toNat < 1000) (b : Fin 8)
    (h0 : ∀ (n : Fin 1024) (k : Fin 768), x0 (ix3 (⟨0, by decide⟩ : Fin 1) n k) = X (ix3 b n k))
    (h1 : ∀ (k : Fin 768) (o : Fin 2304), x1 (ix2 k o) = W (ix2 o k))
    (h2 : ∀ o : Fin 2304, x2 (ix2 (⟨0, by decide⟩ : Fin 1) o) = Bq (ix1 o))
    (h3 : ∀ k j : Fin 768, x3 (ix2 k j) = Pw (ix2 j k))
    (h4 : ∀ j : Fin 768, x4 (ix2 (⟨0, by decide⟩ : Fin 1) j) = Pb (ix1 j))
    (h5 : ∀ (h : Fin 12) (d : Fin 64), x5 (ix3 (⟨0, by decide⟩ : Fin 1) h d)
      = Mk (ix3 (Cert.AttnSpec.yrow (fun b => Y (ix1 b)) hy b) h d))
    (n : Fin 1024) (j : Fin 768) :
    bodyVal (F := Ideal) x0 x1 x2 x3 x4 x5 (ix3 (⟨0, by decide⟩ : Fin 1) n j)
      = Cert.AttnSpec.attnAll X Y W Bq Pw Pb Mk hy (ix3 b n j) := by
  rw [Cert.KernelIdeal.BodyMath.bodyVal_apply, Cert.AttnSpec.attnAll_apply]
  simp only [h0, h1, h2, h3, h4, h5]

/-! ## The result array as one function of the launch memory -/

/-- The label words as the launch memory holds them. -/
abbrev yOf (c : Dev nD) : (⟨1, ![8]⟩ : Shape).Idx → BitVec 32 := m ((c : Thread nD τ).loc main_arg1)

/-- The layer's result of the launch memory's seven argument arrays, for labels in range. -/
def Gout (c : Dev nD) (hy : ∀ b : Fin 8, (m ((c : Thread nD τ).loc main_arg1) (ix1 b)).toNat < 1000) : S8x1024x768.Idx → EReal :=
  Cert.AttnSpec.attnAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) hy

variable [Cert.Pre_finite_inputs.Facts]

/-- The prefetched table's word at b is the label word of b on the one device. -/
theorem tbl_eq (c : Dev nD) (b : Fin 8) : tbl m 0 (ix1 b) = m ((c : Thread nD τ).loc main_arg1) (ix1 b) := by
  obtain rfl : c = 0 := Subsingleton.elim _ _
  exact Cert.KernelIdeal.OkOfPre.tbl_word m b

/-- WHAT POINT t WRITES BACK is block t of the layer's result. -/
theorem flushed6_eq (hO : Ok m) (c : Dev nD) (hy : ∀ b : Fin 8, (m ((c : Thread nD τ).loc main_arg1) (ix1 b)).toNat < 1000)
    (t : Fin (cfgM m hO).N) :
    (dats m hO 0 c).flushed 6 t = (((cfgM m hO).win 6).blk t).view.read (Elt Ideal) (Gout m c hy) := by
  show ((cfgM m hO).win 6).cut ((cfgM m hO).grid.coords t) ((dats m hO 0 c).after 6 t) = _
  have hout : outsAt0 m hO c t
      = bodyVal (F := Ideal) (b0 m hO c t) (b1 m hO c t) (b2 m hO c t) (b3 m hO c t) (b4 m hO c t) (b5 m hO c t) :=
    Cert.KernelIdeal.Pieces.out_eq c (grid0.coords t) (ms0_0 m hO t) (hs0_0 m hO t) (ms0_1 m hO t) (hs0_1 m hO t)
      (ms0_2 m hO t) (hs0_2 m hO t) (ms0_3 m hO t) (hs0_3 m hO t) (ms0_4 m hO t) (hs0_4 m hO t) (ms0_5 m hO t) (hs0_5 m hO t)
      (ms0_6 m hO t) (hs0_6 m hO t) scM0_0 (Memref.isWhole_whole _) scM0_1 (Memref.isWhole_whole _) scM0_2 (Memref.isWhole_whole _)
      scM0_3 (Memref.isWhole_whole _) (b0 m hO c t) (b1 m hO c t) (b2 m hO c t) (b3 m hO c t) (b4 m hO c t) (b5 m hO c t) (tbl m 0)
  rw [after0_6, hout]
  funext y
  obtain ⟨z, n, j, rfl⟩ : ∃ (z : Fin 1) (n : Fin 1024) (j : Fin 768), y = ix3 z n j :=
    ⟨_, _, _, eq_ix3 (n0 := 1) (n1 := 1024) (n2 := 768) y⟩
  have hlt : (tbl m 0 (ix1 (⟨t.val, t_lt m hO t⟩ : Fin 8))).toNat < 1000 := by
    rw [tbl_eq m c]; exact hy _
  have hz : z = (⟨0, by decide⟩ : Fin 1) := Subsingleton.elim _ _
  subst hz
  refine Eq.trans ?_ (congrArg (Gout m c hy) (emb6 (adm m hO) t ⟨0, by decide⟩ n j (t_lt m hO t))).symm
  show bodyVal (F := Ideal) (b0 m hO c t) (b1 m hO c t) (b2 m hO c t) (b3 m hO c t) (b4 m hO c t) (b5 m hO c t)
      (ix3 (⟨0, by decide⟩ : Fin 1) n j) = _
  unfold Gout
  refine block_eq (b0 m hO c t) (b1 m hO c t) (b2 m hO c t) (b3 m hO c t) (b4 m hO c t) (b5 m hO c t) _ _ _ _ _ _ _ hy
    (⟨t.val, t_lt m hO t⟩ : Fin 8) (b0_apply m hO c t) (b1_apply m hO c t) (b2_apply m hO c t) (b3_apply m hO c t)
    (b4_apply m hO c t) (fun h d => ?_) n j
  refine (b5_apply m hO c t hlt h d).trans ?_
  refine congrArg (fun r : Fin 1000 => m ((c : Thread nD τ).loc main_arg6) (ix3 r h d)) (Fin.ext ?_)
  show (tbl m 0 (ix1 (⟨t.val, t_lt m hO t⟩ : Fin 8))).toNat = (m ((c : Thread nD τ).loc main_arg1) (ix1 (⟨t.val, t_lt m hO t⟩ : Fin 8))).toNat
  rw [tbl_eq m c]

/-- THE RESULT ARRAY after the run is the layer's result: point b's block is row block b of it, and entry (b, n, j) of
    the array is entry (0, n, j) of point b's block, so the eight blocks cover the array. -/
theorem final6 (hO : Ok m) (c : Dev nD) (hy : ∀ b : Fin 8, (m ((c : Thread nD τ).loc main_arg1) (ix1 b)).toNat < 1000) :
    (dats m hO 0 c).arrAt 6 (cfgM m hO).N = Gout m c hy :=
  (dats m hO 0 c).arrAt_eq_of_cover 6 (Gout m c hy) (fun t _ => flushed6_eq m hO c hy t) fun (i : S8x1024x768.Idx) => by
    have hi0 : (i 0).val < 8 := (i 0).isLt
    have hN : (i 0).val < (cfgM m hO).N := by rw [N_eq m hO]; exact hi0
    refine ⟨⟨(i 0).val, hN⟩, flush0_6 (adm m hO) _, ?_⟩
    have he : (((cfgM m hO).win 6).blk ⟨(i 0).val, hN⟩).view.emb (ix3 (⟨0, by decide⟩ : Fin 1) (i 1) (i 2)) = i :=
      (emb6 (adm m hO) ⟨(i 0).val, hN⟩ ⟨0, by decide⟩ (i 1) (i 2) hi0).trans (eq_ix3 i).symm
    have key : ∀ (v : View sig .tc .hbm S1x1024x768 .f32) (y : S1x1024x768.Idx) (i' : v.ty.Idx), v.emb y = i' → i' ∈ v.set := by
      intro v y i' h; subst h; exact View.emb_mem_set _ y
    exact key (((cfgM m hO).win 6).blk ⟨(i 0).val, hN⟩).view (ix3 (⟨0, by decide⟩ : Fin 1) (i 1) (i 2)) i he

/-- THE RUN, READ: the idealized kernel ends with its result array at the layer's result of the launch memory's
    arguments, and the arguments unchanged. -/
theorem run (hO : Ok m) (hy : ∀ (c : Dev nD) (b : Fin 8), (m ((c : Thread nD τ).loc main_arg1) (ix1 b)).toNat < 1000) :
    θ_run (defs (F := Ideal)) (onTc (τ := τ) (main (F := Ideal))) ⟨m, fun _ => 0, ρ⟩ (fun r => ∀ c : Dev nD,
      r.2.mem ((c.tc : Thread nD τ).loc main_v6) = Gout m c (hy c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 6).trans (final6 m hO c (hy c)),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).1 5).trans (((dats m hO 0 c).arrAt_in 5 rfl _).trans ((A_eq m hO c 5).trans (V_main_arg6 m c)))⟩)
    (run_main m ρ hO)

end Cert.KernelIdeal.KernelValue

end
-- ==== Proof.lean ====
/-
  The certificate of a fused masked multi-head self-attention kernel against its jnp reference, over the extended
  reals.

  The kernel runs one grid point per batch row. It projects the [1024, 768] row block onto query (scaled by 1/8), key
  and value with one fused weight, stages the three projections head by head, attends two heads per trip of a loop
  (scores q·kᵀ, the row-wise softmax written exp(s − max s) / Σ exp(s − max s), the weighted sum of the values, a
  per-class mask row chosen by the label y[b]), lays the twelve head outputs side by side and applies the output
  projection. The reference computes the same layer over the whole batch with einsums and gathers the mask rows as
  mask[y].

  The precondition: every float input is finite, and every label names a row of the mask, 0 ≤ y[b] < 1000.

  * The two kernels' frames hold when every label-indexed mask block lies inside the mask; the label range gives
    that (PreFacts). The reference is host operations only: its frame is its run.
  * The ideal pass rewrote nothing, so `preserves` is trivial.
  * Both programs end with `Cert.AttnSpec.attnAll` of the seven argument arrays (Spec, SpecAll): the kernel block by
    block — what one grid point's body leaves in its output block is `BodyVal.bodyVal` of the staged blocks (read off
    the body's run in PiecesLoads, Slabs, ScratchReads, PiecesOut), that function is the attention block at every
    index (BodyMath), the staged blocks are rows and transposes of the arguments (Blocks), and the eight blocks are the
    whole array (KernelValue) —, the reference stage by stage of its host chain (RefValue, RefRun). No law of the
    extended reals is needed beyond reordering of indices: the two programs form the same sums in the same order.
-/
import proofs.«426526_j16690242913074_2_alg».proof.Defs
import proofs.«426526_j16690242913074_2_alg».proof.Proof.Gen.Kernel
import proofs.«426526_j16690242913074_2_alg».proof.Proof.Gen.KernelIdeal
import proofs.«426526_j16690242913074_2_alg».proof.Proof.Gen.ReferenceIdeal
import proofs.«426526_j16690242913074_2_alg».proof.Proof.Gen.Pre_finite_inputs
import proofs.«426526_j16690242913074_2_alg».proof.Proof.KernelFrame
import proofs.«426526_j16690242913074_2_alg».proof.Proof.KernelIdealFrame
import proofs.«426526_j16690242913074_2_alg».proof.Proof.PreFacts
import proofs.«426526_j16690242913074_2_alg».proof.Proof.RefRun
import proofs.«426526_j16690242913074_2_alg».proof.Proof.KernelValue

noncomputable section

namespace Cert.Proof

open Idealize.ShloMosaic Idealize.ShloMosaic.ValueIdx Idealize.ShloMosaic.TcCoe Idealize.SL.Sem

/-- The word-level kernel runs and keeps its arguments: its frame certificate, whose side condition on the label
    table (every label names a row of the mask) the precondition gives. -/
theorem frame_kernel : Cert.frame_Kernel := fun m ρ h =>
  Cert.Kernel.GenP.frame m ρ (Cert.Kernel.OkOfPre.ok_of_pre m h)

/-- The same for the idealized kernel. -/
theorem frame_kernelIdeal : Cert.frame_KernelIdeal := fun m ρ h =>
  Cert.KernelIdeal.GenP.frame m ρ (Cert.KernelIdeal.OkOfPre.ok_of_pre m h)

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Over the extended reals both programs end with the attention layer's function `Cert.AttnSpec.attnAll` of the seven
    argument arrays: the kernel block by block (each grid point writes one batch row's block, the mask row chosen by
    the label), the reference as one chain of host operations; from memories that agree on the arguments the two
    results are the same array. -/
theorem algebraic : Cert.algebraic_KernelIdeal_ReferenceIdeal := by
  intro m ρ m' ρ' hpre hagree
  have hy : ∀ (c : Dev Cert.KernelIdeal.nD) (b : Fin 8), (m ((c.tc : Thread Cert.KernelIdeal.nD Cert.KernelIdeal.τ).loc Cert.KernelIdeal.main_arg1) (ix1 b)).toNat < 1000 :=
    fun c => Cert.KernelIdeal.OkOfPre.y_lt m hpre c
  have hy' : ∀ (c : Dev Cert.ReferenceIdeal.nD) (b : Fin 8), (m' ((c.tc : Thread Cert.ReferenceIdeal.nD Cert.ReferenceIdeal.τ).loc Cert.ReferenceIdeal.main_arg1) (ix1 b)).toNat < 1000 :=
    fun c b => by rw [(hagree c).2.1]; exact hy c b
  refine ⟨fun c => Cert.KernelIdeal.KernelValue.Gout m c (hy c),
    Cert.KernelIdeal.KernelValue.run m ρ (Cert.KernelIdeal.OkOfPre.ok_of_pre m hpre) hy, ?_⟩
  refine (θ_run Cert.ReferenceIdeal.defs _ _).mono (fun _ h c => ⟨(h c).1.trans ?_, (h c).2⟩)
    (Cert.ReferenceIdeal.RefRun.run m' ρ' hy')
  exact Cert.AttnSpec.attnAll_congr _ _ _ _ _ _ _ _ _ _ _ _ _ _ _ _ (hagree c).1 (hagree c).2.1 (hagree c).2.2.1
    (hagree c).2.2.2.1 (hagree c).2.2.2.2.1 (hagree c).2.2.2.2.2.1 (hagree c).2.2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
